-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x2000000 : Shape := ⟨2, ![2, 2000000]⟩
abbrev S_ : Shape := ⟨0, ![]⟩
abbrev S1x2000000 : Shape := ⟨2, ![1, 2000000]⟩
abbrev S2000000 : Shape := ⟨1, ![2000000]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  slices_S2x2000000_S1x2000000_1_0 : S2x2000000.Slices ![1, 0] S1x2000000
  shapeCasts_S1x2000000_S2000000 : S1x2000000.ShapeCasts S2000000
  bcast_S_S2000000 : S_.BroadcastsInDim S2000000 (![] : Fin 0 → Fin S2000000.rank)
  reducesTo_S2000000_S_d0 : S2000000.ReducesTo [0] S_

variable [Facts]

def fn {F : FTy → Type} [FloatOps F] (main_arg0 : FVec F S100000x32 .f32) (main_arg1 : IVec S2x2000000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : IVec S1x2000000 32 := (extractStridedSlice S1x2000000 ![1, 0] · slices_S2x2000000_S1x2000000_1_0) main_arg1
  let main_v5 : IVec S2000000 32 := shapeCast S2000000 main_v4 shapeCasts_S1x2000000_S2000000
  let main_c_0 : IVec S_ 32 := constantI S_ 32 0#32
  let main_v6 : IVec S2000000 32 := broadcastInDim S2000000 ![] bcast_S_S2000000 main_c_0
  let main_v7 : IVec S2000000 1 := cmpi .sge main_v5 main_v6
  let main_v8 : IVec S1x2000000 32 := (extractStridedSlice S1x2000000 ![1, 0] · slices_S2x2000000_S1x2000000_1_0) main_arg1
  let main_v9 : IVec S2000000 32 := shapeCast S2000000 main_v8 shapeCasts_S1x2000000_S2000000
  let main_c_1 : IVec S_ 32 := constantI S_ 32 100000#32
  let main_v10 : IVec S2000000 32 := broadcastInDim S2000000 ![] bcast_S_S2000000 main_c_1
  let main_v11 : IVec S2000000 1 := cmpi .slt main_v9 main_v10
  let main_v12 : IVec S2000000 1 := andi main_v7 main_v11
  let main_c_2 : IVec S_ 1 := constantI S_ 1 1#1
  let main_v13 : IVec S_ 1 := (fun x v => Host.reduce IntOp.andi x v reducesTo_S2000000_S_d0 h_S_) main_v12 main_c_2
  let main_v14 : IVec S_ 1 := andi main_v3 main_v13
  main_v14
-- ==== Kernel.lean ====
abbrev S100000x32 : Shape := ⟨2, ![100000, 32]⟩
abbrev S2x2000000 : Shape := ⟨2, ![2, 2000000]⟩
abbrev S1x2000000 : Shape := ⟨2, ![1, 2000000]⟩
abbrev S2000000 : Shape := ⟨1, ![2000000]⟩
abbrev S_ : Shape := ⟨0, ![]⟩
abbrev S2000896 : Shape := ⟨1, ![2000896]⟩
abbrev S1x2000896 : Shape := ⟨2, ![1, 2000896]⟩
abbrev S100352x32 : Shape := ⟨2, ![100352, 32]⟩
abbrev S2000896x32 : Shape := ⟨2, ![2000896, 32]⟩
abbrev S2048x32 : Shape := ⟨2, ![2048, 32]⟩
abbrev S1x2048 : Shape := ⟨2, ![1, 2048]⟩
abbrev S2048x1 : Shape := ⟨2, ![2048, 1]⟩
abbrev S2048x2048 : Shape := ⟨2, ![2048, 2048]⟩

abbrev nBuf : Space → Nat
  | .hbm => 21
  | .vmem => 14
  | .smem => 0
  | _ => 0

abbrev bufTy : (tb : Table) → Fin (tcTables nBuf tb) → BufTy
  | .hbm, ⟨0, _⟩ => ⟨S100000x32, .f32⟩
  | .hbm, ⟨1, _⟩ => ⟨S2x2000000, .i32⟩
  | .hbm, ⟨2, _⟩ => ⟨S1x2000000, .i32⟩
  | .hbm, ⟨3, _⟩ => ⟨S2000000, .i32⟩
  | .hbm, ⟨4, _⟩ => ⟨S1x2000000, .i32⟩
  | .hbm, ⟨5, _⟩ => ⟨S2000000, .i32⟩
  | .hbm, ⟨6, _⟩ => ⟨S_, .i32⟩
  | .hbm, ⟨7, _⟩ => ⟨S_, .i32⟩
  | .hbm, ⟨8, _⟩ => ⟨S2000896, .i32⟩
  | .hbm, ⟨9, _⟩ => ⟨S1x2000896, .i32⟩
  | .hbm, ⟨10, _⟩ => ⟨S_, .i32⟩
  | .hbm, ⟨11, _⟩ => ⟨S_, .i32⟩
  | .hbm, ⟨12, _⟩ => ⟨S2000896, .i32⟩
  | .hbm, ⟨13, _⟩ => ⟨S1x2000896, .i32⟩
  | .hbm, ⟨14, _⟩ => ⟨S100000x32, .bf16⟩
  | .hbm, ⟨15, _⟩ => ⟨S_, .i32⟩
  | .hbm, ⟨16, _⟩ => ⟨S_, .bf16⟩
  | .hbm, ⟨17, _⟩ => ⟨S100352x32, .bf16⟩
  | .hbm, ⟨18, _⟩ => ⟨S2000896x32, .bf16⟩
  | .hbm, ⟨19, _⟩ => ⟨S100352x32, .f32⟩
  | .hbm, ⟨20, _⟩ => ⟨S100000x32, .f32⟩
  | .local _ .vmem, ⟨0, _⟩ => ⟨S2048x32, .bf16⟩
  | .local _ .vmem, ⟨1, _⟩ => ⟨S2048x32, .bf16⟩
  | .local _ .vmem, ⟨2, _⟩ => ⟨S1x2048, .i32⟩
  | .local _ .vmem, ⟨3, _⟩ => ⟨S1x2048, .i32⟩
  | .local _ .vmem, ⟨4, _⟩ => ⟨S2048x32, .bf16⟩
  | .local _ .vmem, ⟨5, _⟩ => ⟨S2048x32, .bf16⟩
  | .local _ .vmem, ⟨6, _⟩ => ⟨S2048x32, .f32⟩
  | .local _ .vmem, ⟨7, _⟩ => ⟨S2048x32, .bf16⟩
  | .local _ .vmem, ⟨8, _⟩ => ⟨S2048x32, .bf16⟩
  | .local _ .vmem, ⟨9, _⟩ => ⟨S1x2048, .i32⟩
  | .local _ .vmem, ⟨10, _⟩ => ⟨S1x2048, .i32⟩
  | .local _ .vmem, ⟨11, _⟩ => ⟨S2048x32, .f32⟩
  | .local _ .vmem, ⟨12, _⟩ => ⟨S2048x32, .f32⟩
  | .local _ .vmem, ⟨13, _⟩ => ⟨S2048x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_call2_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![977, 49], ![false, false]⟩

def k0_cond2 (i : grid0.Coords) : BitVec 1 :=
  let arg1 : BitVec 32 := BitVec.ofNat 32 (i 1).val
  let c48_i32 : BitVec 32 := 48#32
  let v23 : BitVec 1 := Scalar.cmpi .eq arg1 c48_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![49, 977], ![false, false]⟩

def k1_cond2 (i : grid1.Coords) : BitVec 1 :=
  let arg1 : BitVec 32 := BitVec.ofNat 32 (i 1).val
  let c976_i32 : BitVec 32 := 976#32
  let v23 : BitVec 1 := Scalar.cmpi .eq arg1 c976_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  pads_S2000000_S2000896_08960 : S2000000.Pads (![0] : Fin 1 → Nat) ![896] ![0] S2000896
  h_S_ : 0 < S_.numel
  shapeCasts_S2000896_S1x2000896 : S2000896.ShapeCasts S1x2000896
  bitsLt_bf16_f32 : FTy.bits .bf16 < FTy.bits .f32
  pads_S100000x32_S100352x32_03520_000 : S100000x32.Pads (![0, 0] : Fin 2 → Nat) ![352, 0] ![0, 0] S100352x32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  iota_S2048x1_d0_w32 : S2048x1.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S2048x1_S2048x2048 : S2048x1.Broadcasts S2048x2048
  broadcasts_S1x2048_S2048x2048 : S1x2048.Broadcasts S2048x2048
  natLt_1_32 : 1 < 32
  packedbf16_S2048x32_S2048x32_0_0 : (Rect.unit (s := S2048x32) ![0, 0] S2048x32.size inb_S2048x32_S2048x32_0_0).PackedRows (EltTy.packing .bf16)
  slices_S100352x32_S100000x32_0_0 : S100352x32.Slices ![0, 0] S100000x32
  dot_S2048x2048_S2048x32_S2048x32_0_0_1_1_n_n_wf : DotDims.WF S2048x2048 S2048x32 S2048x32 [0] [0] [1] [1] [] []
  dot_S2048x2048_S2048x32_S2048x32_1_0_0_1_n_n_wf : DotDims.WF S2048x2048 S2048x32 S2048x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x32.size a ≤ S100352x32.size a
  hwx0_0 : ∀ i : grid0.Coords, EltTy.bits .bf16 = 32 ∨ (Rect.block (s := S100352x32) S2048x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2000896.size a
  hwx0_1 : ∀ i : grid0.Coords, EltTy.bits .i32 = 32 ∨ (Rect.block (s := S1x2000896) S1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x32.size a ≤ S2000896x32.size a
  hwx0_2 : ∀ i : grid0.Coords, EltTy.bits .bf16 = 32 ∨ (Rect.block (s := S2000896x32) S2048x32.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x32.size a ≤ S2000896x32.size a
  hwx1_0 : ∀ i : grid1.Coords, EltTy.bits .bf16 = 32 ∨ (Rect.block (s := S2000896x32) S2048x32.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2000896.size a
  hwx1_1 : ∀ i : grid1.Coords, EltTy.bits .i32 = 32 ∨ (Rect.block (s := S1x2000896) S1x2048.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x32.size a ≤ S100352x32.size a
  hwx1_2 : ∀ i : grid1.Coords, EltTy.bits .f32 = 32 ∨ (Rect.block (s := S100352x32) S2048x32.size (cc1_transform_2 i) (hinb1_2 i)).WholeWords (EltTy.packing .f32)

variable [Facts₀]

def dot_S2048x2048_S2048x32_S2048x32_0_0_1_1_n_n : DotDims S2048x2048 S2048x32 S2048x32 where
  lhsContracting := [0]
  rhsContracting := [0]
  lhsNonContracting := [1]
  rhsNonContracting := [1]
  lhsBatch := []
  rhsBatch := []
  wf := dot_S2048x2048_S2048x32_S2048x32_0_0_1_1_n_n_wf
def dot_S2048x2048_S2048x32_S2048x32_1_0_0_1_n_n : DotDims S2048x2048 S2048x32 S2048x32 where
  lhsContracting := [1]
  rhsContracting := [0]
  lhsNonContracting := [0]
  rhsNonContracting := [1]
  lhsBatch := []
  rhsBatch := []
  wf := dot_S2048x2048_S2048x32_S2048x32_1_0_0_1_n_n_wf

abbrev win0_0 : Pipeline.Window sig grid0 :=
  Pipeline.Window.ofSpec (Memref.whole main_v9) S2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2048x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v10) S2048x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2048x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S100000x32 : Shape := ⟨2, ![100000, 32]⟩
abbrev S2x2000000 : Shape := ⟨2, ![2, 2000000]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S2000000x32 : Shape := ⟨2, ![2000000, 32]⟩

abbrev nBuf : Space → Nat
  | .hbm => 19
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x2000000, .i32⟩
  | .hbm, ⟨2, _⟩ => ⟨S1x2000000, .i32⟩
  | .hbm, ⟨3, _⟩ => ⟨S2000000, .i32⟩
  | .hbm, ⟨4, _⟩ => ⟨S1x2000000, .i32⟩
  | .hbm, ⟨5, _⟩ => ⟨S2000000, .i32⟩
  | .hbm, ⟨6, _⟩ => ⟨S_, .i32⟩
  | .hbm, ⟨7, _⟩ => ⟨S2000000, .i32⟩
  | .hbm, ⟨8, _⟩ => ⟨S2000000, .i1⟩
  | .hbm, ⟨9, _⟩ => ⟨S_, .i32⟩
  | .hbm, ⟨10, _⟩ => ⟨S2000000, .i32⟩
  | .hbm, ⟨11, _⟩ => ⟨S2000000, .i32⟩
  | .hbm, ⟨12, _⟩ => ⟨S2000000, .i32⟩
  | .hbm, ⟨13, _⟩ => ⟨S2000000x1, .i32⟩
  | .hbm, ⟨14, _⟩ => ⟨S2000000x32, .f32⟩
  | .hbm, ⟨15, _⟩ => ⟨S_, .f32⟩
  | .hbm, ⟨16, _⟩ => ⟨S100000x32, .f32⟩
  | .hbm, ⟨17, _⟩ => ⟨S2000000x1, .i32⟩
  | .hbm, ⟨18, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S100000x32 : S_.BroadcastsInDim S100000x32 (![] : Fin 0 → Fin S100000x32.rank)
  gather_S100000x32_S2000000x1_S2000000x32_1_0_n_n_0_1_132_wf : GatherDims.WF S100000x32 S2000000x1 S2000000x32 [1] [0] [] [0] [] 1 ![1, 32]
  scatter_S100000x32_S2000000x1_S2000000x32_1_0_0_1_wf : ScatterDims.WF S100000x32 S2000000x1 S2000000x32 [1] [0] [0] 1

variable [Facts₀]

def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf
def scatter_S100000x32_S2000000x1_S2000000x32_1_0_0_1 : ScatterDims S100000x32 S2000000x1 S2000000x32 where
  updateWindowDims := [1]
  insertedWindowDims := [0]
  scatterDimsToOperandDims := [0]
  indexVectorDim := 1
  wf := scatter_S100000x32_S2000000x1_S2000000x32_1_0_0_1_wf

class Facts : Prop extends Facts₀ where

variable [Facts]
-- ==== Proof.K.Base.lean ====
/-
  Names shared by the modules about the two kernel regions: when a grid point is the first or the last of its
  reduction run (the inner grid coordinate is zero, or one below its bound), and the memrefs the pipeline hands the
  kernel body at a point.
-/
import proofs.«408629_j68848325755642_1_alg».proof.Proof.Gen.Kernel.Launch
import proofs.«408629_j68848325755642_1_alg».proof.Proof.Gen.Kernel.Skeleton

noncomputable section

namespace Cert.Kernel.Hand

open Idealize.ShloMosaic Idealize.ShloMosaic.TcCoe Idealize.SL.Sem Cert.Kernel Cert.Kernel.Gen

variable {F : FTy → Type} [FloatOps F]

/-! ## Region 0: gather. Grid (edge tile, node tile); the accumulator is reset when the node tile is 0 and
    written out when it is 48. -/

/-- The body's first branch is taken: the node-tile coordinate is zero. -/
abbrev first0 (i : grid0.Coords) : Prop :=
  (Scalar.cmpi .ne (Scalar.extui (Scalar.cmpi .eq (BitVec.ofNat 32 (i 1).val) 0#32)) 0#32) = 1#1
/-- The body's second branch is taken: the node-tile coordinate is the last one. -/
abbrev last0 (i : grid0.Coords) : Prop := k0_cond2 i = 1#1

abbrev ms0_0 (t : Fin cfg0.N) : Memref sig .tc .vmem S2048x32 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x32 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S2048x32 .f32 := Memref.whole cc0_scratch0

/-- The kernel body as the pipeline calls it at point `t`. -/
abbrev bodyAt0 (t : Fin cfg0.N) : Prog (TpuEff nD τ sig (Elt F) Λ₀ .tc) PUnit :=
  cc0__gather_kernel (grid0.coords t) (ms0_0 t) (hs0_0 t) (ms0_1 t) (hs0_1 t) (ms0_2 t) (hs0_2 t) scM0 (Memref.isWhole_whole _)

/-! ## Region 1: scatter. Grid (node tile, edge tile); the accumulator is reset when the edge tile is 0 and
    written out when it is 976. -/

abbrev first1 (i : grid1.Coords) : Prop :=
  (Scalar.cmpi .ne (Scalar.extui (Scalar.cmpi .eq (BitVec.ofNat 32 (i 1).val) 0#32)) 0#32) = 1#1
abbrev last1 (i : grid1.Coords) : Prop := k1_cond2 i = 1#1

abbrev ms1_0 (t : Fin cfg1.N) : Memref sig .tc .vmem S2048x32 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x32 .f32 := win1_2.stage (cfg1.slots t 2)
abbrev hs1_2 (t : Fin cfg1.N) : (ms1_2 t).IsWhole := hstage1_2 ((cfg1.slots t 2).cast nbuf1_2)
abbrev scM1 : Memref sig .tc .vmem S2048x32 .f32 := Memref.whole cc1_scratch0

abbrev bodyAt1 (t : Fin cfg1.N) : Prog (TpuEff nD τ sig (Elt F) Λ₀ .tc) PUnit :=
  cc1__scatter_kernel (grid1.coords t) (ms1_0 t) (hs1_0 t) (ms1_1 t) (hs1_1 t) (ms1_2 t) (hs1_2 t) scM1 (Memref.isWhole_whole _)

/-- The body table's row at a point is the body as named here. -/
theorem body0_eq (t : Fin cfg0.N) : (defs₀ (F := F)) .tc cfg0.body (cfg0.bodyArgs t (cfg0.slots t)) = bodyAt0 t := rfl
theorem body1_eq (t : Fin cfg1.N) : (defs₀ (F := F)) .tc cfg1.body (cfg1.bodyArgs t (cfg1.slots t)) = bodyAt1 t := rfl

end Cert.Kernel.Hand

end
-- ==== Proof.K.Conds.lean ====
/-
  The grid arithmetic of the two kernel regions: the coordinates of a grid point as quotient and remainder of its
  position, when a point is the first or the last of its reduction run, the block index of each window at a point,
  at which points the output window is written back, and at which points it is idle.
-/
import proofs.«408629_j68848325755642_1_alg».proof.Proof.K.Base

noncomputable section

namespace Cert.Kernel.Hand

open Idealize.ShloMosaic Idealize.ShloMosaic.TcCoe Idealize.SL.Sem Cert.Kernel Cert.Kernel.Gen

/-! ## Region 0: grid (977, 49), the last axis fastest: point t has coordinates (t / 49, t % 49). -/

theorem stride0_0 : grid0.stride 0 = 49 := by decide
theorem stride0_1 : grid0.stride 1 = 1 := by decide

theorem coords0_1 (t : Fin cfg0.N) : ((grid0.coords t) 1).val = t.val % 49 := by
  show t.val / grid0.stride 1 % 49 = _
  rw [stride0_1, Nat.div_one]

theorem coords0_0 (t : Fin cfg0.N) : ((grid0.coords t) 0).val = t.val / 49 := by
  show t.val / grid0.stride 0 % 977 = _
  rw [stride0_0]
  have h : t.val < 47873 := lt_of_lt_of_eq t.isLt N_0
  omega

theorem first0_fin : ∀ j : Fin 49, ((Scalar.cmpi .ne (Scalar.extui (Scalar.cmpi .eq (BitVec.ofNat 32 j.val) 0#32)) 0#32) = 1#1) ↔ j.val = 0 := by decide

theorem last0_fin : ∀ j : Fin 49, ((Scalar.cmpi .ne (Scalar.extui (Scalar.cmpi .eq (BitVec.ofNat 32 j.val) 48#32)) 0#32) = 1#1) ↔ j.val = 48 := by decide

/-- The first point of a reduction run: the inner coordinate is zero. -/
theorem first0_iff (t : Fin cfg0.N) : first0 (grid0.coords t) ↔ t.val % 49 = 0 := by
  exact (first0_fin ((grid0.coords t) 1)).trans (by rw [coords0_1])

/-- The last point of a reduction run: the inner coordinate is 48. -/
theorem last0_iff (t : Fin cfg0.N) : last0 (grid0.coords t) ↔ t.val % 49 = 48 := by
  exact (last0_fin ((grid0.coords t) 1)).trans (by rw [coords0_1])

/-- Window 2 (the output) moves with the outer coordinate only. -/
theorem index0_2 (t : Fin cfg0.N) : (cfg0.win 2).index t = ![t.val / 49, 0] := by
  have hN : t.val < 47873 := lt_of_lt_of_eq t.isLt N_0
  show ![(BitVec.ofNat 32 ((grid0.coords t) 0).val).toNat, (0#32).toNat] = _
  rw [coords0_0, BitVec.toNat_ofNat, Nat.mod_eq_of_lt (by omega)]
  rfl

/-- The output block is written back exactly at the last point of each reduction run: the block index changes when
    the next position is a multiple of 49, and the last position of the grid, 47872, is 48 modulo 49. -/
theorem flush0_2 (t : Fin cfg0.N) : (cfg0.win 2).flush t = true ↔ t.val % 49 = 48 := by
  have hN : t.val < 47873 := lt_of_lt_of_eq t.isLt N_0
  unfold Pipeline.Window.flush
  show (true && (decide (t.val + 1 = grid0.N) || decide (∃ h : t.val + 1 < grid0.N, (cfg0.win 2).index ⟨t.val + 1, h⟩ ≠ (cfg0.win 2).index t))) = true ↔ _
  rw [Bool.true_and, Bool.or_eq_true, decide_eq_true_eq, decide_eq_true_eq]
  constructor
  · rintro (h | ⟨h, hne⟩)
    · rw [N_0] at h; omega
    · rw [index0_2, index0_2] at hne
      by_contra hc
      apply hne
      have e : (t.val + 1) / 49 = t.val / 49 := by omega
      show ![(t.val + 1) / 49, 0] = _
      rw [e]
  · intro h
    by_cases hl : t.val + 1 = 47873
    · left; rw [N_0]; exact hl
    · right
      refine ⟨by rw [N_0]; omega, ?_⟩
      rw [index0_2, index0_2]
      intro heq
      have e : (t.val + 1) / 49 = t.val / 49 := congrFun heq 0
      omega

theorem noflush0_0 (t : Fin cfg0.N) : (cfg0.win 0).flush t = false := rfl
theorem noflush0_1 (t : Fin cfg0.N) : (cfg0.win 1).flush t = false := rfl

/-- Away from the last point of a run the body stores nothing into the output block. -/
theorem idle0_2_of (t : Fin cfg0.N) (h : ¬ t.val % 49 = 48) : cfg0.idle 2 (grid0.coords t) = true := by
  show (!(k0_cond2 (grid0.coords t) == 1#1)) = true
  rw [Bool.not_eq_true', beq_eq_false_iff_ne]
  exact fun hl => h ((last0_iff t).mp hl)

theorem live0_2_of (t : Fin cfg0.N) (h : t.val % 49 = 48) : cfg0.idle 2 (grid0.coords t) = false := by
  show (!(k0_cond2 (grid0.coords t) == 1#1)) = false
  rw [Bool.not_eq_false', beq_iff_eq]
  exact (last0_iff t).mpr h

theorem live0_0 : ∀ i, cfg0.idle 0 i = false := fun _ => rfl
theorem live0_1 : ∀ i, cfg0.idle 1 i = false := fun _ => rfl

/-- Window 0 moves with the inner coordinate only. -/
theorem index0_0 (t : Fin cfg0.N) : (cfg0.win 0).index t = ![t.val % 49, 0] := by
  show ![(BitVec.ofNat 32 ((grid0.coords t) 1).val).toNat, (0#32).toNat] = _
  rw [coords0_1, BitVec.toNat_ofNat, Nat.mod_eq_of_lt (by omega)]
  rfl

/-- Window 1 moves with the outer coordinate only. -/
theorem index0_1 (t : Fin cfg0.N) : (cfg0.win 1).index t = ![0, t.val / 49] := by
  have hN : t.val < 47873 := lt_of_lt_of_eq t.isLt N_0
  show ![(0#32).toNat, (BitVec.ofNat 32 ((grid0.coords t) 0).val).toNat] = _
  have e : (BitVec.ofNat 32 (t.val / 49)).toNat = t.val / 49 := by
    rw [BitVec.toNat_ofNat]; exact Nat.mod_eq_of_lt (by omega)
  rw [coords0_0, e]
  rfl

/-! ## Region 1: grid (49, 977), the last axis fastest: point t has coordinates (t / 977, t % 977). -/

theorem stride1_0 : grid1.stride 0 = 977 := by decide
theorem stride1_1 : grid1.stride 1 = 1 := by decide

theorem coords1_1 (t : Fin cfg1.N) : ((grid1.coords t) 1).val = t.val % 977 := by
  show t.val / grid1.stride 1 % 977 = _
  rw [stride1_1, Nat.div_one]

theorem coords1_0 (t : Fin cfg1.N) : ((grid1.coords t) 0).val = t.val / 977 := by
  show t.val / grid1.stride 0 % 49 = _
  rw [stride1_0]
  have h : t.val < 47873 := lt_of_lt_of_eq t.isLt N_1
  omega

theorem first1_fin : ∀ j : Fin 977, ((Scalar.cmpi .ne (Scalar.extui (Scalar.cmpi .eq (BitVec.ofNat 32 j.val) 0#32)) 0#32) = 1#1) ↔ j.val = 0 := by decide

theorem last1_fin : ∀ j : Fin 977, ((Scalar.cmpi .ne (Scalar.extui (Scalar.cmpi .eq (BitVec.ofNat 32 j.val) 976#32)) 0#32) = 1#1) ↔ j.val = 976 := by decide

/-- The first point of a reduction run: the inner coordinate is zero. -/
theorem first1_iff (t : Fin cfg1.N) : first1 (grid1.coords t) ↔ t.val % 977 = 0 := by
  exact (first1_fin ((grid1.coords t) 1)).trans (by rw [coords1_1])

/-- The last point of a reduction run: the inner coordinate is 976. -/
theorem last1_iff (t : Fin cfg1.N) : last1 (grid1.coords t) ↔ t.val % 977 = 976 := by
  exact (last1_fin ((grid1.coords t) 1)).trans (by rw [coords1_1])

/-- Window 2 (the output) moves with the outer coordinate only. -/
theorem index1_2 (t : Fin cfg1.N) : (cfg1.win 2).index t = ![t.val / 977, 0] := by
  have hN : t.val < 47873 := lt_of_lt_of_eq t.isLt N_1
  show ![(BitVec.ofNat 32 ((grid1.coords t) 0).val).toNat, (0#32).toNat] = _
  rw [coords1_0, BitVec.toNat_ofNat, Nat.mod_eq_of_lt (by omega)]
  rfl

/-- The output block is written back exactly at the last point of each reduction run: the block index changes when
    the next position is a multiple of 977, and the last position of the grid, 47872, is 976 modulo 977. -/
theorem flush1_2 (t : Fin cfg1.N) : (cfg1.win 2).flush t = true ↔ t.val % 977 = 976 := by
  have hN : t.val < 47873 := lt_of_lt_of_eq t.isLt N_1
  unfold Pipeline.Window.flush
  show (true && (decide (t.val + 1 = grid1.N) || decide (∃ h : t.val + 1 < grid1.N, (cfg1.win 2).index ⟨t.val + 1, h⟩ ≠ (cfg1.win 2).index t))) = true ↔ _
  rw [Bool.true_and, Bool.or_eq_true, decide_eq_true_eq, decide_eq_true_eq]
  constructor
  · rintro (h | ⟨h, hne⟩)
    · rw [N_1] at h; omega
    · rw [index1_2, index1_2] at hne
      by_contra hc
      apply hne
      have e : (t.val + 1) / 977 = t.val / 977 := by omega
      show ![(t.val + 1) / 977, 0] = _
      rw [e]
  · intro h
    by_cases hl : t.val + 1 = 47873
    · left; rw [N_1]; exact hl
    · right
      refine ⟨by rw [N_1]; omega, ?_⟩
      rw [index1_2, index1_2]
      intro heq
      have e : (t.val + 1) / 977 = t.val / 977 := congrFun heq 0
      omega

theorem noflush1_0 (t : Fin cfg1.N) : (cfg1.win 0).flush t = false := rfl
theorem noflush1_1 (t : Fin cfg1.N) : (cfg1.win 1).flush t = false := rfl

/-- Away from the last point of a run the body stores nothing into the output block. -/
theorem idle1_2_of (t : Fin cfg1.N) (h : ¬ t.val % 977 = 976) : cfg1.idle 2 (grid1.coords t) = true := by
  show (!(k1_cond2 (grid1.coords t) == 1#1)) = true
  rw [Bool.not_eq_true', beq_eq_false_iff_ne]
  exact fun hl => h ((last1_iff t).mp hl)

theorem live1_2_of (t : Fin cfg1.N) (h : t.val % 977 = 976) : cfg1.idle 2 (grid1.coords t) = false := by
  show (!(k1_cond2 (grid1.coords t) == 1#1)) = false
  rw [Bool.not_eq_false', beq_iff_eq]
  exact (last1_iff t).mpr h

theorem live1_0 : ∀ i, cfg1.idle 0 i = false := fun _ => rfl
theorem live1_1 : ∀ i, cfg1.idle 1 i = false := fun _ => rfl

/-- Window 0 moves with the inner coordinate only. -/
theorem index1_0 (t : Fin cfg1.N) : (cfg1.win 0).index t = ![t.val % 977, 0] := by
  show ![(BitVec.ofNat 32 ((grid1.coords t) 1).val).toNat, (0#32).toNat] = _
  rw [coords1_1, BitVec.toNat_ofNat, Nat.mod_eq_of_lt (by omega)]
  rfl

/-- Window 1 moves with the inner coordinate only. -/
theorem index1_1 (t : Fin cfg1.N) : (cfg1.win 1).index t = ![0, t.val % 977] := by
  show ![(0#32).toNat, (BitVec.ofNat 32 ((grid1.coords t) 1).val).toNat] = _
  have e : (BitVec.ofNat 32 (t.val % 977)).toNat = t.val % 977 := by
    rw [BitVec.toNat_ofNat]; exact Nat.mod_eq_of_lt (by omega)
  rw [coords1_1, e]
  rfl

end Cert.Kernel.Hand

end
-- ==== Proof.K.Run0.lean ====
/-
  The kernel body's triple in each control case of the gather region: run on whole memrefs holding the feature
  tile, the index tile, the output tile and the accumulator, the body returns them with the accumulator at the
  case's payload (reset then updated, or updated) and, in the last case, the output tile at the rounded accumulator.
-/
import proofs.«408629_j68848325755642_1_alg».proof.Proof.K.Base
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

/-- The zero offsets of a whole-tile rectangle, as the constant function. -/
private theorem hz : (![0, 0] : Fin 2 → Nat) = fun _ => 0 := funext fun a => by fin_cases a <;> rfl

set_option maxHeartbeats 1000000 in
/-- First point of a reduction run, not the last: the accumulator, whatever it held, is reset and then updated;
    the output tile is untouched. -/
theorem run0_A (c : Dev nD) (i : grid0.Coords) (arg2 : Memref sig .tc .vmem S2048x32 .bf16) (harg2 : arg2.IsWhole)
    (arg3 : Memref sig .tc .vmem S1x2048 .i32) (harg3 : arg3.IsWhole)
    (arg4 : Memref sig .tc .vmem S2048x32 .bf16) (harg4 : arg4.IsWhole)
    (arg5 : Memref sig .tc .vmem S2048x32 .f32) (harg5 : arg5.IsWhole)
    (hc0 : first0 i) (hc1 : ¬ last0 i)
    (x0 : Vec F S2048x32 .bf16) (x1 : Vec F S1x2048 .i32) (xi : Vec F S2048x32 .bf16)
    (E : Set ℕ) (K : PUnit → sProp 𝕄) :
    iprop(owns (c : Thread nD τ) arg2 fullShare x0 ∗ owns (c : Thread nD τ) arg3 fullShare x1
        ∗ owns (c : Thread nD τ) arg4 fullShare xi ∗ (∃ d, owns (c : Thread nD τ) arg5 fullShare d)
        ∗ (iprop(owns (c : Thread nD τ) arg2 fullShare x0 ∗ owns (c : Thread nD τ) arg3 fullShare x1
              ∗ owns (c : Thread nD τ) arg4 fullShare xi
              ∗ owns (c : Thread nD τ) arg5 fullShare (k0_pay2 i x1 x0 (k0_pay1 (F := F)))) -∗ K ⟨⟩))
      ⊢ wp frame (wpE (defs₀ (F := F)) Variants.none c none) E
          (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr; swap; · iexact HS0
  ipureintro
  rw [View.read_writes_eq_canon _ _ _ (fun y => ⟨_, List.mem_cons_self .., View.mem_set_unit_zero hz inb_S2048x32_S2048x32_0_0 y⟩)]
  sl_unfold_words
  rw [View.canon_cons_unit_zero (S := S2048x32) hz]
  simp only [View.readAt_eq_ld, harg2.read_unread, harg3.read_unread, View.ld_unit_zero (S := S2048x32) hz,
    View.ld_unit_zero (S := S1x2048) hz, View.readCov_unit_zero (S := S2048x32) _ hz]

set_option maxHeartbeats 1000000 in
/-- Neither first nor last: the accumulator is updated; the output tile is untouched. -/
theorem run0_B (c : Dev nD) (i : grid0.Coords) (arg2 : Memref sig .tc .vmem S2048x32 .bf16) (harg2 : arg2.IsWhole)
    (arg3 : Memref sig .tc .vmem S1x2048 .i32) (harg3 : arg3.IsWhole)
    (arg4 : Memref sig .tc .vmem S2048x32 .bf16) (harg4 : arg4.IsWhole)
    (arg5 : Memref sig .tc .vmem S2048x32 .f32) (harg5 : arg5.IsWhole)
    (hc0 : ¬ first0 i) (hc1 : ¬ last0 i)
    (x0 : Vec F S2048x32 .bf16) (x1 : Vec F S1x2048 .i32) (xi : Vec F S2048x32 .bf16) (xs : Vec F S2048x32 .f32)
    (E : Set ℕ) (K : PUnit → sProp 𝕄) :
    iprop(owns (c : Thread nD τ) arg2 fullShare x0 ∗ owns (c : Thread nD τ) arg3 fullShare x1
        ∗ owns (c : Thread nD τ) arg4 fullShare xi ∗ owns (c : Thread nD τ) arg5 fullShare xs
        ∗ (iprop(owns (c : Thread nD τ) arg2 fullShare x0 ∗ owns (c : Thread nD τ) arg3 fullShare x1
              ∗ owns (c : Thread nD τ) arg4 fullShare xi
              ∗ owns (c : Thread nD τ) arg5 fullShare (k0_pay2 i x1 x0 xs)) -∗ K ⟨⟩))
      ⊢ wp frame (wpE (defs₀ (F := F)) Variants.none c none) E
          (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr; swap; · iexact HS0
  ipureintro
  rw [View.read_writes_eq_canon _ _ _ (fun y => ⟨_, List.mem_cons_self .., View.mem_set_unit_zero hz inb_S2048x32_S2048x32_0_0 y⟩)]
  sl_unfold_words
  rw [View.canon_cons_unit_zero (S := S2048x32) hz]
  simp only [View.readAt_eq_ld, harg2.read_unread, harg3.read_unread, harg5.read_unread,
    View.ld_unit_zero (S := S2048x32) hz, View.ld_unit_zero (S := S1x2048) hz,
    View.readCov_unit_zero (S := S2048x32) _ hz]

set_option maxHeartbeats 1000000 in
/-- Last point of a reduction run, not the first: the accumulator is updated and the output tile, whatever it
    held, receives the updated accumulator rounded to bf16. -/
theorem run0_C (c : Dev nD) (i : grid0.Coords) (arg2 : Memref sig .tc .vmem S2048x32 .bf16) (harg2 : arg2.IsWhole)
    (arg3 : Memref sig .tc .vmem S1x2048 .i32) (harg3 : arg3.IsWhole)
    (arg4 : Memref sig .tc .vmem S2048x32 .bf16) (harg4 : arg4.IsWhole)
    (arg5 : Memref sig .tc .vmem S2048x32 .f32) (harg5 : arg5.IsWhole)
    (hc0 : ¬ first0 i) (hc1 : last0 i)
    (x0 : Vec F S2048x32 .bf16) (x1 : Vec F S1x2048 .i32) (xs : Vec F S2048x32 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
              ∗ owns (c : Thread nD τ) arg4 fullShare (k0_pay3 (k0_pay2 i x1 x0 xs))
              ∗ owns (c : Thread nD τ) arg5 fullShare (k0_pay2 i x1 x0 xs)) -∗ K ⟨⟩))
      ⊢ wp frame (wpE (defs₀ (F := F)) Variants.none c none) E
          (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [View.read_writes_eq_canon _ _ _ (fun y => ⟨_, List.mem_cons_self .., View.mem_set_unit_zero hz inb_S2048x32_S2048x32_0_0 y⟩)]
    sl_unfold_words
    rw [View.canon_cons_unit_zero (S := S2048x32) hz]
    simp only [View.readAt_eq_ld, harg2.read_unread, harg3.read_unread, harg5.read_unread,
      View.ld_unit_zero (S := S2048x32) hz, View.ld_unit_zero (S := S1x2048) hz,
      View.readCov_unit_zero (S := S2048x32) _ hz]
  iexists _; isplitr; swap; · iexact HS0
  ipureintro
  sl_unfold_words
  rw [View.read_writes_eq_canon _ _ _ (fun y => ⟨_, List.mem_cons_self .., View.mem_set_unit_zero hz inb_S2048x32_S2048x32_0_0 y⟩)]
  rw [View.canon_cons_unit_zero (S := S2048x32) hz]
  simp only [View.readAt_eq_ld, harg2.read_unread, harg3.read_unread, harg5.read_unread,
    View.ld_unit_zero (S := S2048x32) hz, View.ld_unit_zero (S := S1x2048) hz,
    View.readCov_unit_zero (S := S2048x32) _ hz]

end Cert.Kernel.Hand

end
-- ==== Proof.K.Dat0.lean ====
/-
  Region 0 (the gather): the proof data of its pipeline at any contents `V` of the core's buffers when the region is
  entered. The accumulator after point `n` is defined by recursion on the point: at the first point of a reduction
  run (position a multiple of 49) the body's sum is added to the reset value, elsewhere to what the point before
  left. The region's invariant carries the accumulator at that value between points; the output window holds the
  accumulator (narrowed to the output's format) at the run's last point and is idle before it.
-/
import proofs.«408629_j68848325755642_1_alg».proof.Proof.K.Conds
import proofs.«408629_j68848325755642_1_alg».proof.Proof.K.Run0
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature tile and the index tile at a point, at their literal types. -/
abbrev xblk0 (c : Dev nD) (t : Fin cfg0.N) : Vec F S2048x32 .bf16 := iblk0 V c 0 t
abbrev cblk0 (c : Dev nD) (t : Fin cfg0.N) : Vec F S1x2048 .i32 := iblk0 V c 1 t

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator, point by point -/

/-- What the accumulator holds after the body at position `n`. -/
def acc0 (c : Dev nD) : (n : ℕ) → n < cfg0.N → Vec F S2048x32 .f32
  | 0, hn => k0_pay2 (grid0.coords ⟨0, hn⟩) (cblk0 V c ⟨0, hn⟩) (xblk0 V c ⟨0, hn⟩) (k0_pay1 (F := F))
  | n + 1, hn => k0_pay2 (grid0.coords ⟨n + 1, hn⟩) (cblk0 V c ⟨n + 1, hn⟩) (xblk0 V c ⟨n + 1, hn⟩)
      (if (n + 1) % 49 = 0 then k0_pay1 (F := F) else acc0 c n (Nat.lt_of_succ_lt hn))

/-- At the first point of a run the sum starts from the reset value. -/
theorem acc0_first (c : Dev nD) (t : Fin cfg0.N) (h0 : t.val % 49 = 0) :
    acc0 V c t.val t.isLt = k0_pay2 (grid0.coords t) (cblk0 V c t) (xblk0 V c t) (k0_pay1 (F := F)) := by
  obtain ⟨n, hn⟩ := t
  cases n with
  | zero => rfl
  | succ n => show k0_pay2 _ _ _ (if (n + 1) % 49 = 0 then _ else _) = _; rw [if_pos h0]

/-- Elsewhere it adds to what the point before left. -/
theorem acc0_step (c : Dev nD) (t : Fin cfg0.N) (h0 : ¬ t.val % 49 = 0) :
    acc0 V c t.val t.isLt = k0_pay2 (grid0.coords t) (cblk0 V c t) (xblk0 V c t)
      (acc0 V c (t.val - 1) (Nat.lt_of_le_of_lt (Nat.sub_le _ _) t.isLt)) := by
  obtain ⟨n, hn⟩ := t
  cases n with
  | zero => exact absurd (Nat.zero_mod _) h0
  | succ n => show k0_pay2 _ _ _ (if (n + 1) % 49 = 0 then _ else _) = _; rw [if_neg h0]; rfl

/-! ## The invariant -/

/-- The core's scoped buffers other than this kernel's staging buffers and its accumulator: the other region's,
    each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The invariant handed to the region, with the accumulator split out. -/
theorem PhiA0_eq (c : Dev nD) :
    (Pipeline.ΦA spec0 c : sProp 𝕄)
      = iprop(((∃ d, owns (c : Thread nD τ) scM0 fullShare d) ∗ rest0 c) ∗ (∃ r, prngReg c r)) := by
  unfold Pipeline.ΦA rest0; rw [scopedRest0_eq]; simp only [owns_whole]; try rfl

/-- The invariant before position `n`: before the first point what the launch hands over; afterwards the accumulator
    at what the point before left, the other scoped buffers and the generator register at anything. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (acc0 V c n hn) ∗ rest0 c) ∗ (∃ r, prngReg c r)) := rfl

theorem PhiS0_pos (c : Dev nD) (n : ℕ) (h : n ≤ cfg0.N) (hz : n ≠ 0) :
    PhiS0 V c n h = iprop((owns (c : Thread nD τ) scM0 fullShare (acc0 V c (n - 1) (by omega)) ∗ rest0 c) ∗ (∃ r, prngReg c r)) := by
  cases n with
  | zero => exact absurd rfl hz
  | succ n => rfl

/-! ## The proof data -/

/-- The pipeline's proof data on core `c`: the arrays as the region finds them; after the body each input's buffer at
    its block and the output's at the accumulator; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point. The inputs' buffers hold their blocks. At the first point of a run the accumulator is
    handed over at anything and comes back at the run's first partial sum; elsewhere it is handed over at what the
    point before left and comes back with this point's sum added. Only at the run's last point is the output window
    stored; before it the window's buffer goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 47873 := lt_of_lt_of_eq t.isLt (show cfg0.N = 47873 from N_0)
  rw [show (dat0 V c).leavesExact 0 t = owns (c : Thread nD τ) (ms0_0 t) fullShare ((dat0 V c).after 0 t) from by
    unfold Dat.leavesExact; rw [live0_0 (grid0.coords t)], after0_0]
  rw [show (dat0 V c).leavesExact 1 t = owns (c : Thread nD τ) (ms0_1 t) fullShare ((dat0 V c).after 1 t) from by
    unfold Dat.leavesExact; rw [live0_1 (grid0.coords t)], after0_1]
  by_cases h1 : t.val % 49 = 48
  · -- the last point of a run: not the first
    have h0 : ¬ t.val % 49 = 0 := by omega
    have hz : t.val ≠ 0 := fun e => h0 (by rw [e])
    rw [show (dat0 V c).leavesExact 2 t = owns (c : Thread nD τ) (ms0_2 t) fullShare ((dat0 V c).after 2 t) from by
      unfold Dat.leavesExact; rw [live0_2_of t h1], after0_2]
    rw [acc0_step V c t h0]
    rw [PhiS0_castSucc V c t, PhiS0_pos V c _ _ hz]
    iintro ⟨⟨⟨HS, Hr⟩, Hg⟩, Ho, ⟨%d0, H0⟩, ⟨%d1, H1⟩, ⟨%d2, H2⟩⟩

    iapply (run0_C c (grid0.coords t) (ms0_0 t) (hs0_0 t) (ms0_1 t) (hs0_1 t) (ms0_2 t) (hs0_2 t) scM0 (Memref.isWhole_whole _)
      (x0 := xblk0 V c t) (x1 := cblk0 V c t) (E := Set.univ) (K := _) (hc0 := fun h => h0 ((first0_iff t).mp h)) (hc1 := (last0_iff t).mpr h1)
      (xs := acc0 V c (t.val - 1) (Nat.lt_of_le_of_lt (Nat.sub_le _ _) t.isLt)))
    isplitl [H0]; · iexact H0
    isplitl [H1]; · iexact H1
    isplitl [H2]; · iexists _; iexact H2
    isplitl [HS]; · iexact HS
    iintro ⟨H0, H1, H2, HS⟩
    isplitl [HS Hr Hg]
    · isplitr [Hg]
      · isplitl [HS]; · iexact HS
        iexact Hr
      iexact Hg
    isplitl [Ho]; · iexact Ho
    isplitl [H0]; · iexact H0
    isplitl [H1]; · iexact H1
    iexact H2
  · -- before the last point: the output window is idle and not written back
    rw [Dat.leavesExact_idle (dat0 V c) 2 t (idle0_2_of t h1) (by
      have := flush0_2 t; cases hf : (cfg0.win 2).flush t with
      | false => rfl
      | true => exact absurd (this.mp hf) h1)]
    by_cases h0 : t.val % 49 = 0
    · -- the first point of a run
      rw [acc0_first V c t h0]
      have hscr : (dat0 V c).Φ t.castSucc ⊢ (iprop(((∃ d, owns (c : Thread nD τ) scM0 fullShare d) ∗ rest0 c) ∗ (∃ r, prngReg c r)) : sProp 𝕄) := by
        rw [PhiS0_castSucc V c t]
        by_cases hz : t.val = 0
        · rw [PhiS0_zero V c _ _ hz, PhiA0_eq]; try exact .rfl
        · rw [PhiS0_pos V c _ _ hz]
          iintro ⟨⟨HS, Hr⟩, Hg⟩
          isplitr [Hg]
          · isplitl [HS]; · iexists _; iexact HS
            iexact Hr
          iexact Hg
      iintro ⟨HΦ, Ho, ⟨%d0, H0⟩, ⟨%d1, H1⟩, ⟨%d2, H2⟩⟩
      ihave HΦ' := hscr $$ HΦ
      icases HΦ' with ⟨⟨HS, Hr⟩, Hg⟩
      iapply (run0_A c (grid0.coords t) (ms0_0 t) (hs0_0 t) (ms0_1 t) (hs0_1 t) (ms0_2 t) (hs0_2 t) scM0 (Memref.isWhole_whole _)
        (x0 := xblk0 V c t) (x1 := cblk0 V c t) (E := Set.univ) (K := _) (hc0 := (first0_iff t).mpr h0) (hc1 := fun h => h1 ((last0_iff t).mp h)) (xi := _))
      isplitl [H0]; · iexact H0
      isplitl [H1]; · iexact H1
      isplitl [H2]; · iexact H2
      isplitl [HS]; · iexact HS
      iintro ⟨H0, H1, H2, HS⟩
      isplitl [HS Hr Hg]
      · isplitr [Hg]
        · isplitl [HS]; · iexact HS
          iexact Hr
        iexact Hg
      isplitl [Ho]; · iexact Ho
      isplitl [H0]; · iexact H0
      isplitl [H1]; · iexact H1
      iexists _; iexact H2
    · -- inside a run
      have hz : t.val ≠ 0 := fun e => h0 (by rw [e])
      rw [acc0_step V c t h0]
      rw [PhiS0_castSucc V c t, PhiS0_pos V c _ _ hz]
      iintro ⟨⟨⟨HS, Hr⟩, Hg⟩, Ho, ⟨%d0, H0⟩, ⟨%d1, H1⟩, ⟨%d2, H2⟩⟩
      iapply (run0_B c (grid0.coords t) (ms0_0 t) (hs0_0 t) (ms0_1 t) (hs0_1 t) (ms0_2 t) (hs0_2 t) scM0 (Memref.isWhole_whole _)
        (x0 := xblk0 V c t) (x1 := cblk0 V c t) (E := Set.univ) (K := _) (hc0 := fun h => h0 ((first0_iff t).mp h)) (hc1 := fun h => h1 ((last0_iff t).mp h)) (xi := _)
        (xs := acc0 V c (t.val - 1) (Nat.lt_of_le_of_lt (Nat.sub_le _ _) t.isLt)))
      isplitl [H0]; · iexact H0
      isplitl [H1]; · iexact H1
      isplitl [H2]; · iexact H2
      isplitl [HS]; · iexact HS
      iintro ⟨H0, H1, H2, HS⟩
      isplitl [HS Hr Hg]
      · isplitr [Hg]
        · isplitl [HS]; · iexact HS
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact .rfl

/-- After the last point the invariant gives back what the launch handed over: the accumulator's contents are
    forgotten. -/
theorem hout0 (c : Dev nD) : (dat0 V c).Φ (Fin.last cfg0.N) ⊢ Pipeline.ΦA spec0 c := by
  have hne : (Fin.last cfg0.N).val ≠ 0 := by rw [Fin.val_last]; have : cfg0.N = 47873 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨HS, Hr⟩, Hg⟩
  isplitr [Hg]
  · isplitl [HS]; · iexists _; iexact HS
    iexact Hr
  iexact Hg

end Cert.Kernel.Hand

end
-- ==== Proof.K.Run1.lean ====
/-
  The kernel body's triple in each control case of the scatter region: run on whole memrefs holding the message
  tile, the index tile, the output tile and the accumulator, the body returns them with the accumulator at the
  case's payload (reset then updated, or updated) and, in the last case, the output tile at the updated accumulator.
-/
import proofs.«408629_j68848325755642_1_alg».proof.Proof.K.Base
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

/-- The zero offsets of a whole-tile rectangle, as the constant function. -/
private theorem hz : (![0, 0] : Fin 2 → Nat) = fun _ => 0 := funext fun a => by fin_cases a <;> rfl

set_option maxHeartbeats 1000000 in
/-- First point of a reduction run, not the last: the accumulator, whatever it held, is reset and then updated;
    the output tile is untouched. -/
theorem run1_A (c : Dev nD) (i : grid1.Coords) (arg2 : Memref sig .tc .vmem S2048x32 .bf16) (harg2 : arg2.IsWhole)
    (arg3 : Memref sig .tc .vmem S1x2048 .i32) (harg3 : arg3.IsWhole)
    (arg4 : Memref sig .tc .vmem S2048x32 .f32) (harg4 : arg4.IsWhole)
    (arg5 : Memref sig .tc .vmem S2048x32 .f32) (harg5 : arg5.IsWhole)
    (hc0 : first1 i) (hc1 : ¬ last1 i)
    (x0 : Vec F S2048x32 .bf16) (x1 : Vec F S1x2048 .i32) (xi : Vec F S2048x32 .f32)
    (E : Set ℕ) (K : PUnit → sProp 𝕄) :
    iprop(owns (c : Thread nD τ) arg2 fullShare x0 ∗ owns (c : Thread nD τ) arg3 fullShare x1
        ∗ owns (c : Thread nD τ) arg4 fullShare xi ∗ (∃ d, owns (c : Thread nD τ) arg5 fullShare d)
        ∗ (iprop(owns (c : Thread nD τ) arg2 fullShare x0 ∗ owns (c : Thread nD τ) arg3 fullShare x1
              ∗ owns (c : Thread nD τ) arg4 fullShare xi
              ∗ owns (c : Thread nD τ) arg5 fullShare (k1_pay2 i x1 x0 (k1_pay1 (F := F)))) -∗ K ⟨⟩))
      ⊢ wp frame (wpE (defs₀ (F := F)) Variants.none c none) E
          (cc1__scatter_kernel i arg2 harg2 arg3 harg3 arg4 harg4 arg5 harg5) K := by
  simp only [cc1__scatter_kernel_eq_skeleton]; unfold cc1__scatter_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr; swap; · iexact HS0
  ipureintro
  rw [View.read_writes_eq_canon _ _ _ (fun y => ⟨_, List.mem_cons_self .., View.mem_set_unit_zero hz inb_S2048x32_S2048x32_0_0 y⟩)]
  sl_unfold_words
  rw [View.canon_cons_unit_zero (S := S2048x32) hz]
  simp only [View.readAt_eq_ld, harg2.read_unread, harg3.read_unread, View.ld_unit_zero (S := S2048x32) hz,
    View.ld_unit_zero (S := S1x2048) hz, View.readCov_unit_zero (S := S2048x32) _ hz]

set_option maxHeartbeats 1000000 in
/-- Neither first nor last: the accumulator is updated; the output tile is untouched. -/
theorem run1_B (c : Dev nD) (i : grid1.Coords) (arg2 : Memref sig .tc .vmem S2048x32 .bf16) (harg2 : arg2.IsWhole)
    (arg3 : Memref sig .tc .vmem S1x2048 .i32) (harg3 : arg3.IsWhole)
    (arg4 : Memref sig .tc .vmem S2048x32 .f32) (harg4 : arg4.IsWhole)
    (arg5 : Memref sig .tc .vmem S2048x32 .f32) (harg5 : arg5.IsWhole)
    (hc0 : ¬ first1 i) (hc1 : ¬ last1 i)
    (x0 : Vec F S2048x32 .bf16) (x1 : Vec F S1x2048 .i32) (xi : Vec F S2048x32 .f32) (xs : Vec F S2048x32 .f32)
    (E : Set ℕ) (K : PUnit → sProp 𝕄) :
    iprop(owns (c : Thread nD τ) arg2 fullShare x0 ∗ owns (c : Thread nD τ) arg3 fullShare x1
        ∗ owns (c : Thread nD τ) arg4 fullShare xi ∗ owns (c : Thread nD τ) arg5 fullShare xs
        ∗ (iprop(owns (c : Thread nD τ) arg2 fullShare x0 ∗ owns (c : Thread nD τ) arg3 fullShare x1
              ∗ owns (c : Thread nD τ) arg4 fullShare xi
              ∗ owns (c : Thread nD τ) arg5 fullShare (k1_pay2 i x1 x0 xs)) -∗ K ⟨⟩))
      ⊢ wp frame (wpE (defs₀ (F := F)) Variants.none c none) E
          (cc1__scatter_kernel i arg2 harg2 arg3 harg3 arg4 harg4 arg5 harg5) K := by
  simp only [cc1__scatter_kernel_eq_skeleton]; unfold cc1__scatter_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr; swap; · iexact HS0
  ipureintro
  rw [View.read_writes_eq_canon _ _ _ (fun y => ⟨_, List.mem_cons_self .., View.mem_set_unit_zero hz inb_S2048x32_S2048x32_0_0 y⟩)]
  sl_unfold_words
  rw [View.canon_cons_unit_zero (S := S2048x32) hz]
  simp only [View.readAt_eq_ld, harg2.read_unread, harg3.read_unread, harg5.read_unread,
    View.ld_unit_zero (S := S2048x32) hz, View.ld_unit_zero (S := S1x2048) hz,
    View.readCov_unit_zero (S := S2048x32) _ hz]

set_option maxHeartbeats 1000000 in
/-- Last point of a reduction run, not the first: the accumulator is updated and the output tile, whatever it
    held, receives the updated accumulator. -/
theorem run1_C (c : Dev nD) (i : grid1.Coords) (arg2 : Memref sig .tc .vmem S2048x32 .bf16) (harg2 : arg2.IsWhole)
    (arg3 : Memref sig .tc .vmem S1x2048 .i32) (harg3 : arg3.IsWhole)
    (arg4 : Memref sig .tc .vmem S2048x32 .f32) (harg4 : arg4.IsWhole)
    (arg5 : Memref sig .tc .vmem S2048x32 .f32) (harg5 : arg5.IsWhole)
    (hc0 : ¬ first1 i) (hc1 : last1 i)
    (x0 : Vec F S2048x32 .bf16) (x1 : Vec F S1x2048 .i32) (xs : Vec F S2048x32 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
              ∗ owns (c : Thread nD τ) arg4 fullShare (k1_pay2 i x1 x0 xs)
              ∗ owns (c : Thread nD τ) arg5 fullShare (k1_pay2 i x1 x0 xs)) -∗ K ⟨⟩))
      ⊢ wp frame (wpE (defs₀ (F := F)) Variants.none c none) E
          (cc1__scatter_kernel i arg2 harg2 arg3 harg3 arg4 harg4 arg5 harg5) K := by
  simp only [cc1__scatter_kernel_eq_skeleton]; unfold cc1__scatter_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [View.read_writes_eq_canon _ _ _ (fun y => ⟨_, List.mem_cons_self .., View.mem_set_unit_zero hz inb_S2048x32_S2048x32_0_0 y⟩)]
    sl_unfold_words
    rw [View.canon_cons_unit_zero (S := S2048x32) hz]
    simp only [View.readAt_eq_ld, harg2.read_unread, harg3.read_unread, harg5.read_unread,
      View.ld_unit_zero (S := S2048x32) hz, View.ld_unit_zero (S := S1x2048) hz,
      View.readCov_unit_zero (S := S2048x32) _ hz]
  iexists _; isplitr; swap; · iexact HS0
  ipureintro
  sl_unfold_words
  rw [View.read_writes_eq_canon _ _ _ (fun y => ⟨_, List.mem_cons_self .., View.mem_set_unit_zero hz inb_S2048x32_S2048x32_0_0 y⟩)]
  rw [View.canon_cons_unit_zero (S := S2048x32) hz]
  simp only [View.readAt_eq_ld, harg2.read_unread, harg3.read_unread, harg5.read_unread,
    View.ld_unit_zero (S := S2048x32) hz, View.ld_unit_zero (S := S1x2048) hz,
    View.readCov_unit_zero (S := S2048x32) _ hz]

end Cert.Kernel.Hand

end
-- ==== Proof.K.Dat1.lean ====
/-
  Region 1 (the scatter): the proof data of its pipeline at any contents `V` of the core's buffers when the region is
  entered. The accumulator after point `n` is defined by recursion on the point: at the first point of a reduction
  run (position a multiple of 977) the body's sum is added to the reset value, elsewhere to what the point before
  left. The region's invariant carries the accumulator at that value between points; the output window holds the
  accumulator at the run's last point and is idle before it.
-/
import proofs.«408629_j68848325755642_1_alg».proof.Proof.K.Conds
import proofs.«408629_j68848325755642_1_alg».proof.Proof.K.Run1
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The message tile and the index tile at a point, at their literal types. -/
abbrev xblk1 (c : Dev nD) (t : Fin cfg1.N) : Vec F S2048x32 .bf16 := iblk1 V c 0 t
abbrev cblk1 (c : Dev nD) (t : Fin cfg1.N) : Vec F S1x2048 .i32 := iblk1 V c 1 t

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator, point by point -/

/-- What the accumulator holds after the body at position `n`. -/
def acc1 (c : Dev nD) : (n : ℕ) → n < cfg1.N → Vec F S2048x32 .f32
  | 0, hn => k1_pay2 (grid1.coords ⟨0, hn⟩) (cblk1 V c ⟨0, hn⟩) (xblk1 V c ⟨0, hn⟩) (k1_pay1 (F := F))
  | n + 1, hn => k1_pay2 (grid1.coords ⟨n + 1, hn⟩) (cblk1 V c ⟨n + 1, hn⟩) (xblk1 V c ⟨n + 1, hn⟩)
      (if (n + 1) % 977 = 0 then k1_pay1 (F := F) else acc1 c n (Nat.lt_of_succ_lt hn))

/-- At the first point of a run the sum starts from the reset value. -/
theorem acc1_first (c : Dev nD) (t : Fin cfg1.N) (h0 : t.val % 977 = 0) :
    acc1 V c t.val t.isLt = k1_pay2 (grid1.coords t) (cblk1 V c t) (xblk1 V c t) (k1_pay1 (F := F)) := by
  obtain ⟨n, hn⟩ := t
  cases n with
  | zero => rfl
  | succ n => show k1_pay2 _ _ _ (if (n + 1) % 977 = 0 then _ else _) = _; rw [if_pos h0]

/-- Elsewhere it adds to what the point before left. -/
theorem acc1_step (c : Dev nD) (t : Fin cfg1.N) (h0 : ¬ t.val % 977 = 0) :
    acc1 V c t.val t.isLt = k1_pay2 (grid1.coords t) (cblk1 V c t) (xblk1 V c t)
      (acc1 V c (t.val - 1) (Nat.lt_of_le_of_lt (Nat.sub_le _ _) t.isLt)) := by
  obtain ⟨n, hn⟩ := t
  cases n with
  | zero => exact absurd (Nat.zero_mod _) h0
  | succ n => show k1_pay2 _ _ _ (if (n + 1) % 977 = 0 then _ else _) = _; rw [if_neg h0]; rfl

/-! ## The invariant -/

/-- The core's scoped buffers other than this kernel's staging buffers and its accumulator: the other region's,
    each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The invariant handed to the region, with the accumulator split out. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [owns_whole]; try rfl

/-- The invariant before position `n`: before the first point what the launch hands over; afterwards the accumulator
    at what the point before left, the other scoped buffers and the generator register at anything. -/
def PhiS1 (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1 fullShare (acc1 V c n hn)) ∗ (∃ r, prngReg c r)) := rfl

theorem PhiS1_pos (c : Dev nD) (n : ℕ) (h : n ≤ cfg1.N) (hz : n ≠ 0) :
    PhiS1 V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1 fullShare (acc1 V c (n - 1) (by omega))) ∗ (∃ r, prngReg c r)) := by
  cases n with
  | zero => exact absurd rfl hz
  | succ n => rfl

/-! ## The proof data -/

/-- The pipeline's proof data on core `c`: the arrays as the region finds them; after the body each input's buffer at
    its block and the output's at the accumulator; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The inputs' buffers hold their blocks. At the first point of a run the accumulator is
    handed over at anything and comes back at the run's first partial sum; elsewhere it is handed over at what the
    point before left and comes back with this point's sum added. Only at the run's last point is the output window
    stored; before it the window's buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 47873 := lt_of_lt_of_eq t.isLt (show cfg1.N = 47873 from N_1)
  rw [show (dat1 V c).leavesExact 0 t = owns (c : Thread nD τ) (ms1_0 t) fullShare ((dat1 V c).after 0 t) from by
    unfold Dat.leavesExact; rw [live1_0 (grid1.coords t)], after1_0]
  rw [show (dat1 V c).leavesExact 1 t = owns (c : Thread nD τ) (ms1_1 t) fullShare ((dat1 V c).after 1 t) from by
    unfold Dat.leavesExact; rw [live1_1 (grid1.coords t)], after1_1]
  by_cases h1 : t.val % 977 = 976
  · -- the last point of a run: not the first
    have h0 : ¬ t.val % 977 = 0 := by omega
    have hz : t.val ≠ 0 := fun e => h0 (by rw [e])
    rw [show (dat1 V c).leavesExact 2 t = owns (c : Thread nD τ) (ms1_2 t) fullShare ((dat1 V c).after 2 t) from by
      unfold Dat.leavesExact; rw [live1_2_of t h1], after1_2]
    rw [acc1_step V c t h0]
    rw [PhiS1_castSucc V c t, PhiS1_pos V c _ _ hz]
    iintro ⟨⟨HSr, Hg⟩, Ho, ⟨%d0, H0⟩, ⟨%d1, H1⟩, ⟨%d2, H2⟩⟩
    icases HSr with ⟨R1, R2, R3, R4, R5, R6, R7, HS⟩
    iapply (run1_C c (grid1.coords t) (ms1_0 t) (hs1_0 t) (ms1_1 t) (hs1_1 t) (ms1_2 t) (hs1_2 t) scM1 (Memref.isWhole_whole _)
      (x0 := xblk1 V c t) (x1 := cblk1 V c t) (E := Set.univ) (K := _) (hc0 := fun h => h0 ((first1_iff t).mp h)) (hc1 := (last1_iff t).mpr h1)
      (xs := acc1 V c (t.val - 1) (Nat.lt_of_le_of_lt (Nat.sub_le _ _) t.isLt)))
    isplitl [H0]; · iexact H0
    isplitl [H1]; · iexact H1
    isplitl [H2]; · iexists _; iexact H2
    isplitl [HS]; · iexact HS
    iintro ⟨H0, H1, H2, HS⟩
    isplitl [HS R1 R2 R3 R4 R5 R6 R7 Hg]
    · isplitr [Hg]
      · isplitl [R1]; · iexact R1
        isplitl [R2]; · iexact R2
        isplitl [R3]; · iexact R3
        isplitl [R4]; · iexact R4
        isplitl [R5]; · iexact R5
        isplitl [R6]; · iexact R6
        isplitl [R7]; · iexact R7
        iexact HS
      iexact Hg
    isplitl [Ho]; · iexact Ho
    isplitl [H0]; · iexact H0
    isplitl [H1]; · iexact H1
    iexact H2
  · -- before the last point: the output window is idle and not written back
    rw [Dat.leavesExact_idle (dat1 V c) 2 t (idle1_2_of t h1) (by
      have := flush1_2 t; cases hf : (cfg1.win 2).flush t with
      | false => rfl
      | true => exact absurd (this.mp hf) h1)]
    by_cases h0 : t.val % 977 = 0
    · -- the first point of a run
      rw [acc1_first V c t h0]
      have hscr : (dat1 V c).Φ t.castSucc ⊢ (iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) : sProp 𝕄) := by
        rw [PhiS1_castSucc V c t]
        by_cases hz : t.val = 0
        · rw [PhiS1_zero V c _ _ hz, PhiA1_eq]; try exact .rfl
        · rw [PhiS1_pos V c _ _ hz]
          iintro ⟨⟨R1, R2, R3, R4, R5, R6, R7, HS⟩, Hg⟩
          isplitr [Hg]
          · isplitl [R1]; · iexact R1
            isplitl [R2]; · iexact R2
            isplitl [R3]; · iexact R3
            isplitl [R4]; · iexact R4
            isplitl [R5]; · iexact R5
            isplitl [R6]; · iexact R6
            isplitl [R7]; · iexact R7
            iexists _; iexact HS
          iexact Hg
      iintro ⟨HΦ, Ho, ⟨%d0, H0⟩, ⟨%d1, H1⟩, ⟨%d2, H2⟩⟩
      ihave HΦ' := hscr $$ HΦ
      icases HΦ' with ⟨⟨R1, R2, R3, R4, R5, R6, R7, HS⟩, Hg⟩
      iapply (run1_A c (grid1.coords t) (ms1_0 t) (hs1_0 t) (ms1_1 t) (hs1_1 t) (ms1_2 t) (hs1_2 t) scM1 (Memref.isWhole_whole _)
        (x0 := xblk1 V c t) (x1 := cblk1 V c t) (E := Set.univ) (K := _) (hc0 := (first1_iff t).mpr h0) (hc1 := fun h => h1 ((last1_iff t).mp h)) (xi := _))
      isplitl [H0]; · iexact H0
      isplitl [H1]; · iexact H1
      isplitl [H2]; · iexact H2
      isplitl [HS]; · iexact HS
      iintro ⟨H0, H1, H2, HS⟩
      isplitl [HS R1 R2 R3 R4 R5 R6 R7 Hg]
      · isplitr [Hg]
        · isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      iexists _; iexact H2
    · -- inside a run
      have hz : t.val ≠ 0 := fun e => h0 (by rw [e])
      rw [acc1_step V c t h0]
      rw [PhiS1_castSucc V c t, PhiS1_pos V c _ _ hz]
      iintro ⟨⟨⟨R1, R2, R3, R4, R5, R6, R7, HS⟩, Hg⟩, Ho, ⟨%d0, H0⟩, ⟨%d1, H1⟩, ⟨%d2, H2⟩⟩
      iapply (run1_B c (grid1.coords t) (ms1_0 t) (hs1_0 t) (ms1_1 t) (hs1_1 t) (ms1_2 t) (hs1_2 t) scM1 (Memref.isWhole_whole _)
        (x0 := xblk1 V c t) (x1 := cblk1 V c t) (E := Set.univ) (K := _) (hc0 := fun h => h0 ((first1_iff t).mp h)) (hc1 := fun h => h1 ((last1_iff t).mp h)) (xi := _)
        (xs := acc1 V c (t.val - 1) (Nat.lt_of_le_of_lt (Nat.sub_le _ _) t.isLt)))
      isplitl [H0]; · iexact H0
      isplitl [H1]; · iexact H1
      isplitl [H2]; · iexact H2
      isplitl [HS]; · iexact HS
      iintro ⟨H0, H1, H2, HS⟩
      isplitl [HS R1 R2 R3 R4 R5 R6 R7 Hg]
      · isplitr [Hg]
        · isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact .rfl

/-- After the last point the invariant gives back what the launch handed over: the accumulator's contents are
    forgotten. -/
theorem hout1 (c : Dev nD) : (dat1 V c).Φ (Fin.last cfg1.N) ⊢ Pipeline.ΦA spec1 c := by
  have hne : (Fin.last cfg1.N).val ≠ 0 := by rw [Fin.val_last]; have : cfg1.N = 47873 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨R1, R2, R3, R4, R5, R6, R7, HS⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    iexists _; iexact HS
  iexact Hg

end Cert.Kernel.Hand

end
-- ==== Proof.K.Launch.lean ====
/-
  The whole run of @main: the two kernel regions as segments between the host stretches, each region entered from
  the buffer contents the segment before it left. Region 0 leaves the message array at what its pipeline's
  write-backs fold to; region 1 is entered with that array in place and leaves the padded result array likewise.
  Every weakly fair execution then terminates with every unscoped buffer at the last of these contents — of which
  "the argument arrays are as launched" is an instance.
-/
import proofs.«408629_j68848325755642_1_alg».proof.Proof.K.Dat0
import proofs.«408629_j68848325755642_1_alg».proof.Proof.K.Dat1
import proofs.«408629_j68848325755642_1_alg».proof.Proof.K.RegionsAll
import Idealize.ShloMosaic.Lib.Pipeline.Kit
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the regions' boundaries -/

/-- The core's buffers when region 0 is entered, read at the TensorCore's references. -/
abbrev Ve0 : (c : Dev nD) → (b : Ref sig .tc) → Buf (Elt F) ((c : Thread nD τ).loc b) := fun c b => V6 m c b

/-- The message array as region 0 leaves it: its write-backs folded over the entry contents. -/
def msgs (c : Dev nD) : Buf (Elt F) ((c : Thread nD τ).loc main_v10) := (dat0 (Ve0 m) c).arrAt 2 cfg0.N

/-- The core's buffers when region 1 is entered: as at region 0's entry, the message array replaced. -/
def W7 (c : Dev nD) : Valuation τ sig (Elt F) := Function.update (V6 m c) main_v10 (msgs m c)
abbrev Ve1 : (c : Dev nD) → (b : Ref sig .tc) → Buf (Elt F) ((c : Thread nD τ).loc b) := fun c b => W7 m c b

/-- The padded result array as region 1 leaves it. -/
def outp (c : Dev nD) : Buf (Elt F) ((c : Thread nD τ).loc main_v11) := (dat1 (Ve1 m) c).arrAt 2 cfg1.N

/-- What the regions leave, as the family the boundary valuations are written over: the message array after
    region 0, the padded result after region 1 (any other entry is never read). -/
def outs : Outs (F := F) := fun _ r c =>
  if h : r = main_v10 then h ▸ msgs m c else if h' : r = main_v11 then h' ▸ outp m c else m ((c : Thread nD τ).loc r)

theorem outs_msgs (c : Dev nD) : outs m 7 main_v10 c = msgs m c := by
  unfold outs; rw [dif_pos rfl]
theorem outs_outp (c : Dev nD) : outs m 8 main_v11 c = outp m c := by
  unfold outs; rw [dif_neg (by decide), dif_pos rfl]

theorem V7_eq (c : Dev nD) : V7 m (outs m) c = W7 m c := by
  unfold W7; rw [← outs_msgs m c]

/-! ## The proof data family and what rides beside the buffers -/

def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c

/-- No core owes another anything: no level is assigned. -/
abbrev L0 : GSem nD τ sig → Finset Unit := fun _ => ∅
abbrev lv0 : GSem nD τ sig → Unit → ℕ := fun _ _ => 0
/-- Beside the buffers through every segment: the generator register at some state, and nothing owed. -/
abbrev Rr (c : Dev nD) : sProp 𝕄 := iprop((∃ r, prngReg c r) ∗ ∃ W, owes (c : Thread nD τ) (0 : CellTallies nD τ sig Unit) W)

/-! ## Region 0's exit contents -/

theorem hF0 (c : Dev nD) (w : Fin cfg0.W) : (pdats m 0 c).arrAt w cfg0.N = V7 m (outs m) c (Pipeline.arrRef spec0 w) := by
  match w with
  | ⟨0, _⟩ =>
    exact (((pdats m 0 c).arrAt_in 0 rfl _).trans (A_eq0 (Ve0 m) c 0)).trans (V7_of m (outs m) c main_v9 (by decide)).symm
  | ⟨1, _⟩ =>
    exact (((pdats m 0 c).arrAt_in 1 rfl _).trans (A_eq0 (Ve0 m) c 1)).trans (V7_of m (outs m) c main_v5 (by decide)).symm
  | ⟨2, _⟩ =>
    show msgs m c = V7 m (outs m) c main_v10
    simp only [V7, Function.update_self]
    exact (outs_msgs m c).symm

theorem hrest0 (c : Dev nD) : ∀ b, b ∉ Finset.univ.image (Pipeline.arrRef spec0) → V7 m (outs m) c b = V6 m c b := by
  intro b hb
  exact V7_of m (outs m) c b (fun h => hb (Finset.mem_image.mpr ⟨2, Finset.mem_univ _, by rw [List.mem_singleton.mp h]⟩))

/-! ## Region 1's exit contents -/

theorem hF1 (c : Dev nD) (w : Fin cfg1.W) : (pdats m 1 c).arrAt w cfg1.N = V8 m (outs m) c (Pipeline.arrRef spec1 w) := by
  match w with
  | ⟨0, _⟩ =>
    refine (((pdats m 1 c).arrAt_in 0 rfl _).trans (A_eq1 (Ve1 m) c 0)).trans ?_
    rw [V8_of m (outs m) c main_v10 (by decide), V7_eq]
  | ⟨1, _⟩ =>
    refine (((pdats m 1 c).arrAt_in 1 rfl _).trans (A_eq1 (Ve1 m) c 1)).trans ?_
    rw [V8_of m (outs m) c main_v7 (by decide), V7_eq]
  | ⟨2, _⟩ =>
    show outp m c = V8 m (outs m) c main_v11
    simp only [V8, Function.update_self]
    exact (outs_outp m c).symm

theorem hrest1 (c : Dev nD) : ∀ b, b ∉ Finset.univ.image (Pipeline.arrRef spec1) → V8 m (outs m) c b = V7 m (outs m) c b := by
  intro b hb
  exact V8_of m (outs m) c b (fun h => hb (Finset.mem_image.mpr ⟨2, Finset.mem_univ _, by rw [List.mem_singleton.mp h]⟩))

/-! ## The regions as segments -/

set_option backward.isDefEq.respectTransparency.types false in
/-- Region 0: entered from every unscoped buffer at the contents after the host stretches before it, left with the
    message array replaced by what its write-backs fold to. The generator register goes into the invariant and
    comes back; nothing is owed; the kernel has no semaphore of its own. -/
def reg0 : Pipeline.RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L0 lv0 0 fun _ _ => rfl
  pre c := iprop(StableHlo.held (c : Thread nD τ) (Pipeline.ucRefs τ sig) (V6 m c) ∗ Rr c)
  post c := iprop(StableHlo.held (c : Thread nD τ) (Pipeline.ucRefs τ sig) (V7 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Ve0 m) c)
    unfold Pipeline.ΦA
    iintro ⟨Hp, -, Hr⟩
    isplitl [Hr]; · iexact Hr
    iexact Hp
  hout c := by
    refine (hout0 (Ve0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (fun b => V7 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with the message array in place, left with the padded result array replaced by what its
    write-backs fold to. -/
def reg1 : Pipeline.RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L0 lv0 1 fun _ _ => rfl
  pre c := iprop(StableHlo.held (c : Thread nD τ) (Pipeline.ucRefs τ sig) (V7 m (outs m) c) ∗ Rr c)
  post c := iprop(StableHlo.held (c : Thread nD τ) (Pipeline.ucRefs τ sig) (V8 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none, V7_eq]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Ve1 m) c)
    unfold Pipeline.ΦA
    iintro ⟨Hp, -, Hr⟩
    isplitl [Hr]; · iexact Hr
    iexact Hp
  hout c := by
    refine (hout1 (Ve1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (fun b => V8 m (outs m) c b) ((pdats m 1 c).arrAt · cfg1.N) (hF1 m c)
      (fun b hb => (hrest1 m c b hb).trans (congrFun (V7_eq m c) _))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- From any memory with zero counters every weakly fair execution of @main terminates, nothing faulting, and every
    final memory holds every unscoped buffer at the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = V9 m (outs m) c b) :=
  run_cond m emb₁ () Variants.none L0 lv0 (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr c)
    (Pipeline.initEach L0 lv0 fun c => by
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun _ => .rfl) (fun _ => .rfl)

/-- An unscoped TensorCore reference is among those the last reading covers. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (V9_main_arg0 m (outs m) c),
     (h c _ (mem_uc main_arg1 (by decide))).trans (V9_main_arg1 m (outs m) c)⟩) (run_all m ρ)

end Cert.Kernel.Hand

end
-- ==== Proof.KI.Base.lean ====
/-
  Names shared by the modules about the two kernel regions: when a grid point is the first or the last of its
  reduction run (the inner grid coordinate is zero, or one below its bound), and the memrefs the pipeline hands the
  kernel body at a point.
-/
import proofs.«408629_j68848325755642_1_alg».proof.Proof.Gen.KernelIdeal.Launch
import proofs.«408629_j68848325755642_1_alg».proof.Proof.Gen.KernelIdeal.Skeleton

noncomputable section

namespace Cert.KernelIdeal.Hand

open Idealize.ShloMosaic Idealize.ShloMosaic.TcCoe Idealize.SL.Sem Cert.KernelIdeal Cert.KernelIdeal.Gen

variable {F : FTy → Type} [FloatOps F]

/-! ## Region 0: gather. Grid (edge tile, node tile); the accumulator is reset when the node tile is 0 and
    written out when it is 48. -/

/-- The body's first branch is taken: the node-tile coordinate is zero. -/
abbrev first0 (i : grid0.Coords) : Prop :=
  (Scalar.cmpi .ne (Scalar.extui (Scalar.cmpi .eq (BitVec.ofNat 32 (i 1).val) 0#32)) 0#32) = 1#1
/-- The body's second branch is taken: the node-tile coordinate is the last one. -/
abbrev last0 (i : grid0.Coords) : Prop := k0_cond2 i = 1#1

abbrev ms0_0 (t : Fin cfg0.N) : Memref sig .tc .vmem S2048x32 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x32 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S2048x32 .f32 := Memref.whole cc0_scratch0

/-- The kernel body as the pipeline calls it at point `t`. -/
abbrev bodyAt0 (t : Fin cfg0.N) : Prog (TpuEff nD τ sig (Elt F) Λ₀ .tc) PUnit :=
  cc0__gather_kernel (grid0.coords t) (ms0_0 t) (hs0_0 t) (ms0_1 t) (hs0_1 t) (ms0_2 t) (hs0_2 t) scM0 (Memref.isWhole_whole _)

/-! ## Region 1: scatter. Grid (node tile, edge tile); the accumulator is reset when the edge tile is 0 and
    written out when it is 976. -/

abbrev first1 (i : grid1.Coords) : Prop :=
  (Scalar.cmpi .ne (Scalar.extui (Scalar.cmpi .eq (BitVec.ofNat 32 (i 1).val) 0#32)) 0#32) = 1#1
abbrev last1 (i : grid1.Coords) : Prop := k1_cond2 i = 1#1

abbrev ms1_0 (t : Fin cfg1.N) : Memref sig .tc .vmem S2048x32 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x32 .f32 := win1_2.stage (cfg1.slots t 2)
abbrev hs1_2 (t : Fin cfg1.N) : (ms1_2 t).IsWhole := hstage1_2 ((cfg1.slots t 2).cast nbuf1_2)
abbrev scM1 : Memref sig .tc .vmem S2048x32 .f32 := Memref.whole cc1_scratch0

abbrev bodyAt1 (t : Fin cfg1.N) : Prog (TpuEff nD τ sig (Elt F) Λ₀ .tc) PUnit :=
  cc1__scatter_kernel (grid1.coords t) (ms1_0 t) (hs1_0 t) (ms1_1 t) (hs1_1 t) (ms1_2 t) (hs1_2 t) scM1 (Memref.isWhole_whole _)

/-- The body table's row at a point is the body as named here. -/
theorem body0_eq (t : Fin cfg0.N) : (defs₀ (F := F)) .tc cfg0.body (cfg0.bodyArgs t (cfg0.slots t)) = bodyAt0 t := rfl
theorem body1_eq (t : Fin cfg1.N) : (defs₀ (F := F)) .tc cfg1.body (cfg1.bodyArgs t (cfg1.slots t)) = bodyAt1 t := rfl

end Cert.KernelIdeal.Hand

end
-- ==== Proof.KI.Conds.lean ====
/-
  The grid arithmetic of the two kernel regions: the coordinates of a grid point as quotient and remainder of its
  position, when a point is the first or the last of its reduction run, the block index of each window at a point,
  at which points the output window is written back, and at which points it is idle.
-/
import proofs.«408629_j68848325755642_1_alg».proof.Proof.KI.Base

noncomputable section

namespace Cert.KernelIdeal.Hand

open Idealize.ShloMosaic Idealize.ShloMosaic.TcCoe Idealize.SL.Sem Cert.KernelIdeal Cert.KernelIdeal.Gen

/-! ## Region 0: grid (977, 49), the last axis fastest: point t has coordinates (t / 49, t % 49). -/

theorem stride0_0 : grid0.stride 0 = 49 := by decide
theorem stride0_1 : grid0.stride 1 = 1 := by decide

theorem coords0_1 (t : Fin cfg0.N) : ((grid0.coords t) 1).val = t.val % 49 := by
  show t.val / grid0.stride 1 % 49 = _
  rw [stride0_1, Nat.div_one]

theorem coords0_0 (t : Fin cfg0.N) : ((grid0.coords t) 0).val = t.val / 49 := by
  show t.val / grid0.stride 0 % 977 = _
  rw [stride0_0]
  have h : t.val < 47873 := lt_of_lt_of_eq t.isLt N_0
  omega

theorem first0_fin : ∀ j : Fin 49, ((Scalar.cmpi .ne (Scalar.extui (Scalar.cmpi .eq (BitVec.ofNat 32 j.val) 0#32)) 0#32) = 1#1) ↔ j.val = 0 := by decide

theorem last0_fin : ∀ j : Fin 49, ((Scalar.cmpi .ne (Scalar.extui (Scalar.cmpi .eq (BitVec.ofNat 32 j.val) 48#32)) 0#32) = 1#1) ↔ j.val = 48 := by decide

/-- The first point of a reduction run: the inner coordinate is zero. -/
theorem first0_iff (t : Fin cfg0.N) : first0 (grid0.coords t) ↔ t.val % 49 = 0 := by
  exact (first0_fin ((grid0.coords t) 1)).trans (by rw [coords0_1])

/-- The last point of a reduction run: the inner coordinate is 48. -/
theorem last0_iff (t : Fin cfg0.N) : last0 (grid0.coords t) ↔ t.val % 49 = 48 := by
  exact (last0_fin ((grid0.coords t) 1)).trans (by rw [coords0_1])

/-- Window 2 (the output) moves with the outer coordinate only. -/
theorem index0_2 (t : Fin cfg0.N) : (cfg0.win 2).index t = ![t.val / 49, 0] := by
  have hN : t.val < 47873 := lt_of_lt_of_eq t.isLt N_0
  show ![(BitVec.ofNat 32 ((grid0.coords t) 0).val).toNat, (0#32).toNat] = _
  rw [coords0_0, BitVec.toNat_ofNat, Nat.mod_eq_of_lt (by omega)]
  rfl

/-- The output block is written back exactly at the last point of each reduction run: the block index changes when
    the next position is a multiple of 49, and the last position of the grid, 47872, is 48 modulo 49. -/
theorem flush0_2 (t : Fin cfg0.N) : (cfg0.win 2).flush t = true ↔ t.val % 49 = 48 := by
  have hN : t.val < 47873 := lt_of_lt_of_eq t.isLt N_0
  unfold Pipeline.Window.flush
  show (true && (decide (t.val + 1 = grid0.N) || decide (∃ h : t.val + 1 < grid0.N, (cfg0.win 2).index ⟨t.val + 1, h⟩ ≠ (cfg0.win 2).index t))) = true ↔ _
  rw [Bool.true_and, Bool.or_eq_true, decide_eq_true_eq, decide_eq_true_eq]
  constructor
  · rintro (h | ⟨h, hne⟩)
    · rw [N_0] at h; omega
    · rw [index0_2, index0_2] at hne
      by_contra hc
      apply hne
      have e : (t.val + 1) / 49 = t.val / 49 := by omega
      show ![(t.val + 1) / 49, 0] = _
      rw [e]
  · intro h
    by_cases hl : t.val + 1 = 47873
    · left; rw [N_0]; exact hl
    · right
      refine ⟨by rw [N_0]; omega, ?_⟩
      rw [index0_2, index0_2]
      intro heq
      have e : (t.val + 1) / 49 = t.val / 49 := congrFun heq 0
      omega

theorem noflush0_0 (t : Fin cfg0.N) : (cfg0.win 0).flush t = false := rfl
theorem noflush0_1 (t : Fin cfg0.N) : (cfg0.win 1).flush t = false := rfl

/-- Away from the last point of a run the body stores nothing into the output block. -/
theorem idle0_2_of (t : Fin cfg0.N) (h : ¬ t.val % 49 = 48) : cfg0.idle 2 (grid0.coords t) = true := by
  show (!(k0_cond2 (grid0.coords t) == 1#1)) = true
  rw [Bool.not_eq_true', beq_eq_false_iff_ne]
  exact fun hl => h ((last0_iff t).mp hl)

theorem live0_2_of (t : Fin cfg0.N) (h : t.val % 49 = 48) : cfg0.idle 2 (grid0.coords t) = false := by
  show (!(k0_cond2 (grid0.coords t) == 1#1)) = false
  rw [Bool.not_eq_false', beq_iff_eq]
  exact (last0_iff t).mpr h

theorem live0_0 : ∀ i, cfg0.idle 0 i = false := fun _ => rfl
theorem live0_1 : ∀ i, cfg0.idle 1 i = false := fun _ => rfl

/-- Window 0 moves with the inner coordinate only. -/
theorem index0_0 (t : Fin cfg0.N) : (cfg0.win 0).index t = ![t.val % 49, 0] := by
  show ![(BitVec.ofNat 32 ((grid0.coords t) 1).val).toNat, (0#32).toNat] = _
  rw [coords0_1, BitVec.toNat_ofNat, Nat.mod_eq_of_lt (by omega)]
  rfl

/-- Window 1 moves with the outer coordinate only. -/
theorem index0_1 (t : Fin cfg0.N) : (cfg0.win 1).index t = ![0, t.val / 49] := by
  have hN : t.val < 47873 := lt_of_lt_of_eq t.isLt N_0
  show ![(0#32).toNat, (BitVec.ofNat 32 ((grid0.coords t) 0).val).toNat] = _
  have e : (BitVec.ofNat 32 (t.val / 49)).toNat = t.val / 49 := by
    rw [BitVec.toNat_ofNat]; exact Nat.mod_eq_of_lt (by omega)
  rw [coords0_0, e]
  rfl

/-! ## Region 1: grid (49, 977), the last axis fastest: point t has coordinates (t / 977, t % 977). -/

theorem stride1_0 : grid1.stride 0 = 977 := by decide
theorem stride1_1 : grid1.stride 1 = 1 := by decide

theorem coords1_1 (t : Fin cfg1.N) : ((grid1.coords t) 1).val = t.val % 977 := by
  show t.val / grid1.stride 1 % 977 = _
  rw [stride1_1, Nat.div_one]

theorem coords1_0 (t : Fin cfg1.N) : ((grid1.coords t) 0).val = t.val / 977 := by
  show t.val / grid1.stride 0 % 49 = _
  rw [stride1_0]
  have h : t.val < 47873 := lt_of_lt_of_eq t.isLt N_1
  omega

theorem first1_fin : ∀ j : Fin 977, ((Scalar.cmpi .ne (Scalar.extui (Scalar.cmpi .eq (BitVec.ofNat 32 j.val) 0#32)) 0#32) = 1#1) ↔ j.val = 0 := by decide

theorem last1_fin : ∀ j : Fin 977, ((Scalar.cmpi .ne (Scalar.extui (Scalar.cmpi .eq (BitVec.ofNat 32 j.val) 976#32)) 0#32) = 1#1) ↔ j.val = 976 := by decide

/-- The first point of a reduction run: the inner coordinate is zero. -/
theorem first1_iff (t : Fin cfg1.N) : first1 (grid1.coords t) ↔ t.val % 977 = 0 := by
  exact (first1_fin ((grid1.coords t) 1)).trans (by rw [coords1_1])

/-- The last point of a reduction run: the inner coordinate is 976. -/
theorem last1_iff (t : Fin cfg1.N) : last1 (grid1.coords t) ↔ t.val % 977 = 976 := by
  exact (last1_fin ((grid1.coords t) 1)).trans (by rw [coords1_1])

/-- Window 2 (the output) moves with the outer coordinate only. -/
theorem index1_2 (t : Fin cfg1.N) : (cfg1.win 2).index t = ![t.val / 977, 0] := by
  have hN : t.val < 47873 := lt_of_lt_of_eq t.isLt N_1
  show ![(BitVec.ofNat 32 ((grid1.coords t) 0).val).toNat, (0#32).toNat] = _
  rw [coords1_0, BitVec.toNat_ofNat, Nat.mod_eq_of_lt (by omega)]
  rfl

/-- The output block is written back exactly at the last point of each reduction run: the block index changes when
    the next position is a multiple of 977, and the last position of the grid, 47872, is 976 modulo 977. -/
theorem flush1_2 (t : Fin cfg1.N) : (cfg1.win 2).flush t = true ↔ t.val % 977 = 976 := by
  have hN : t.val < 47873 := lt_of_lt_of_eq t.isLt N_1
  unfold Pipeline.Window.flush
  show (true && (decide (t.val + 1 = grid1.N) || decide (∃ h : t.val + 1 < grid1.N, (cfg1.win 2).index ⟨t.val + 1, h⟩ ≠ (cfg1.win 2).index t))) = true ↔ _
  rw [Bool.true_and, Bool.or_eq_true, decide_eq_true_eq, decide_eq_true_eq]
  constructor
  · rintro (h | ⟨h, hne⟩)
    · rw [N_1] at h; omega
    · rw [index1_2, index1_2] at hne
      by_contra hc
      apply hne
      have e : (t.val + 1) / 977 = t.val / 977 := by omega
      show ![(t.val + 1) / 977, 0] = _
      rw [e]
  · intro h
    by_cases hl : t.val + 1 = 47873
    · left; rw [N_1]; exact hl
    · right
      refine ⟨by rw [N_1]; omega, ?_⟩
      rw [index1_2, index1_2]
      intro heq
      have e : (t.val + 1) / 977 = t.val / 977 := congrFun heq 0
      omega

theorem noflush1_0 (t : Fin cfg1.N) : (cfg1.win 0).flush t = false := rfl
theorem noflush1_1 (t : Fin cfg1.N) : (cfg1.win 1).flush t = false := rfl

/-- Away from the last point of a run the body stores nothing into the output block. -/
theorem idle1_2_of (t : Fin cfg1.N) (h : ¬ t.val % 977 = 976) : cfg1.idle 2 (grid1.coords t) = true := by
  show (!(k1_cond2 (grid1.coords t) == 1#1)) = true
  rw [Bool.not_eq_true', beq_eq_false_iff_ne]
  exact fun hl => h ((last1_iff t).mp hl)

theorem live1_2_of (t : Fin cfg1.N) (h : t.val % 977 = 976) : cfg1.idle 2 (grid1.coords t) = false := by
  show (!(k1_cond2 (grid1.coords t) == 1#1)) = false
  rw [Bool.not_eq_false', beq_iff_eq]
  exact (last1_iff t).mpr h

theorem live1_0 : ∀ i, cfg1.idle 0 i = false := fun _ => rfl
theorem live1_1 : ∀ i, cfg1.idle 1 i = false := fun _ => rfl

/-- Window 0 moves with the inner coordinate only. -/
theorem index1_0 (t : Fin cfg1.N) : (cfg1.win 0).index t = ![t.val % 977, 0] := by
  show ![(BitVec.ofNat 32 ((grid1.coords t) 1).val).toNat, (0#32).toNat] = _
  rw [coords1_1, BitVec.toNat_ofNat, Nat.mod_eq_of_lt (by omega)]
  rfl

/-- Window 1 moves with the inner coordinate only. -/
theorem index1_1 (t : Fin cfg1.N) : (cfg1.win 1).index t = ![0, t.val % 977] := by
  show ![(0#32).toNat, (BitVec.ofNat 32 ((grid1.coords t) 1).val).toNat] = _
  have e : (BitVec.ofNat 32 (t.val % 977)).toNat = t.val % 977 := by
    rw [BitVec.toNat_ofNat]; exact Nat.mod_eq_of_lt (by omega)
  rw [coords1_1, e]
  rfl

end Cert.KernelIdeal.Hand

end
-- ==== Proof.KI.Run0.lean ====
/-
  The kernel body's triple in each control case of the gather region: run on whole memrefs holding the feature
  tile, the index tile, the output tile and the accumulator, the body returns them with the accumulator at the
  case's payload (reset then updated, or updated) and, in the last case, the output tile at the rounded accumulator.
-/
import proofs.«408629_j68848325755642_1_alg».proof.Proof.KI.Base
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The zero offsets of a whole-tile rectangle, as the constant function. -/
private theorem hz : (![0, 0] : Fin 2 → Nat) = fun _ => 0 := funext fun a => by fin_cases a <;> rfl

set_option maxHeartbeats 1000000 in
/-- First point of a reduction run, not the last: the accumulator, whatever it held, is reset and then updated;
    the output tile is untouched. -/
theorem run0_A (c : Dev nD) (i : grid0.Coords) (arg2 : Memref sig .tc .vmem S2048x32 .bf16) (harg2 : arg2.IsWhole)
    (arg3 : Memref sig .tc .vmem S1x2048 .i32) (harg3 : arg3.IsWhole)
    (arg4 : Memref sig .tc .vmem S2048x32 .bf16) (harg4 : arg4.IsWhole)
    (arg5 : Memref sig .tc .vmem S2048x32 .f32) (harg5 : arg5.IsWhole)
    (hc0 : first0 i) (hc1 : ¬ last0 i)
    (x0 : Vec F S2048x32 .bf16) (x1 : Vec F S1x2048 .i32) (xi : Vec F S2048x32 .bf16)
    (E : Set ℕ) (K : PUnit → sProp 𝕄) :
    iprop(owns (c : Thread nD τ) arg2 fullShare x0 ∗ owns (c : Thread nD τ) arg3 fullShare x1
        ∗ owns (c : Thread nD τ) arg4 fullShare xi ∗ (∃ d, owns (c : Thread nD τ) arg5 fullShare d)
        ∗ (iprop(owns (c : Thread nD τ) arg2 fullShare x0 ∗ owns (c : Thread nD τ) arg3 fullShare x1
              ∗ owns (c : Thread nD τ) arg4 fullShare xi
              ∗ owns (c : Thread nD τ) arg5 fullShare (k0_pay2 i x1 x0 (k0_pay1 (F := F)))) -∗ K ⟨⟩))
      ⊢ wp frame (wpE (defs₀ (F := F)) Variants.none c none) E
          (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr; swap; · iexact HS0
  ipureintro
  rw [View.read_writes_eq_canon _ _ _ (fun y => ⟨_, List.mem_cons_self .., View.mem_set_unit_zero hz inb_S2048x32_S2048x32_0_0 y⟩)]
  sl_unfold_words
  rw [View.canon_cons_unit_zero (S := S2048x32) hz]
  simp only [View.readAt_eq_ld, harg2.read_unread, harg3.read_unread, View.ld_unit_zero (S := S2048x32) hz,
    View.ld_unit_zero (S := S1x2048) hz, View.readCov_unit_zero (S := S2048x32) _ hz]

set_option maxHeartbeats 1000000 in
/-- Neither first nor last: the accumulator is updated; the output tile is untouched. -/
theorem run0_B (c : Dev nD) (i : grid0.Coords) (arg2 : Memref sig .tc .vmem S2048x32 .bf16) (harg2 : arg2.IsWhole)
    (arg3 : Memref sig .tc .vmem S1x2048 .i32) (harg3 : arg3.IsWhole)
    (arg4 : Memref sig .tc .vmem S2048x32 .bf16) (harg4 : arg4.IsWhole)
    (arg5 : Memref sig .tc .vmem S2048x32 .f32) (harg5 : arg5.IsWhole)
    (hc0 : ¬ first0 i) (hc1 : ¬ last0 i)
    (x0 : Vec F S2048x32 .bf16) (x1 : Vec F S1x2048 .i32) (xi : Vec F S2048x32 .bf16) (xs : Vec F S2048x32 .f32)
    (E : Set ℕ) (K : PUnit → sProp 𝕄) :
    iprop(owns (c : Thread nD τ) arg2 fullShare x0 ∗ owns (c : Thread nD τ) arg3 fullShare x1
        ∗ owns (c : Thread nD τ) arg4 fullShare xi ∗ owns (c : Thread nD τ) arg5 fullShare xs
        ∗ (iprop(owns (c : Thread nD τ) arg2 fullShare x0 ∗ owns (c : Thread nD τ) arg3 fullShare x1
              ∗ owns (c : Thread nD τ) arg4 fullShare xi
              ∗ owns (c : Thread nD τ) arg5 fullShare (k0_pay2 i x1 x0 xs)) -∗ K ⟨⟩))
      ⊢ wp frame (wpE (defs₀ (F := F)) Variants.none c none) E
          (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr; swap; · iexact HS0
  ipureintro
  rw [View.read_writes_eq_canon _ _ _ (fun y => ⟨_, List.mem_cons_self .., View.mem_set_unit_zero hz inb_S2048x32_S2048x32_0_0 y⟩)]
  sl_unfold_words
  rw [View.canon_cons_unit_zero (S := S2048x32) hz]
  simp only [View.readAt_eq_ld, harg2.read_unread, harg3.read_unread, harg5.read_unread,
    View.ld_unit_zero (S := S2048x32) hz, View.ld_unit_zero (S := S1x2048) hz,
    View.readCov_unit_zero (S := S2048x32) _ hz]

set_option maxHeartbeats 1000000 in
/-- Last point of a reduction run, not the first: the accumulator is updated and the output tile, whatever it
    held, receives the updated accumulator rounded to bf16. -/
theorem run0_C (c : Dev nD) (i : grid0.Coords) (arg2 : Memref sig .tc .vmem S2048x32 .bf16) (harg2 : arg2.IsWhole)
    (arg3 : Memref sig .tc .vmem S1x2048 .i32) (harg3 : arg3.IsWhole)
    (arg4 : Memref sig .tc .vmem S2048x32 .bf16) (harg4 : arg4.IsWhole)
    (arg5 : Memref sig .tc .vmem S2048x32 .f32) (harg5 : arg5.IsWhole)
    (hc0 : ¬ first0 i) (hc1 : last0 i)
    (x0 : Vec F S2048x32 .bf16) (x1 : Vec F S1x2048 .i32) (xs : Vec F S2048x32 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
              ∗ owns (c : Thread nD τ) arg4 fullShare (k0_pay3 (k0_pay2 i x1 x0 xs))
              ∗ owns (c : Thread nD τ) arg5 fullShare (k0_pay2 i x1 x0 xs)) -∗ K ⟨⟩))
      ⊢ wp frame (wpE (defs₀ (F := F)) Variants.none c none) E
          (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [View.read_writes_eq_canon _ _ _ (fun y => ⟨_, List.mem_cons_self .., View.mem_set_unit_zero hz inb_S2048x32_S2048x32_0_0 y⟩)]
    sl_unfold_words
    rw [View.canon_cons_unit_zero (S := S2048x32) hz]
    simp only [View.readAt_eq_ld, harg2.read_unread, harg3.read_unread, harg5.read_unread,
      View.ld_unit_zero (S := S2048x32) hz, View.ld_unit_zero (S := S1x2048) hz,
      View.readCov_unit_zero (S := S2048x32) _ hz]
  iexists _; isplitr; swap; · iexact HS0
  ipureintro
  sl_unfold_words
  rw [View.read_writes_eq_canon _ _ _ (fun y => ⟨_, List.mem_cons_self .., View.mem_set_unit_zero hz inb_S2048x32_S2048x32_0_0 y⟩)]
  rw [View.canon_cons_unit_zero (S := S2048x32) hz]
  simp only [View.readAt_eq_ld, harg2.read_unread, harg3.read_unread, harg5.read_unread,
    View.ld_unit_zero (S := S2048x32) hz, View.ld_unit_zero (S := S1x2048) hz,
    View.readCov_unit_zero (S := S2048x32) _ hz]

end Cert.KernelIdeal.Hand

end
-- ==== Proof.KI.Dat0.lean ====
/-
  Region 0 (the gather): the proof data of its pipeline at any contents `V` of the core's buffers when the region is
  entered. The accumulator after point `n` is defined by recursion on the point: at the first point of a reduction
  run (position a multiple of 49) the body's sum is added to the reset value, elsewhere to what the point before
  left. The region's invariant carries the accumulator at that value between points; the output window holds the
  accumulator (narrowed to the output's format) at the run's last point and is idle before it.
-/
import proofs.«408629_j68848325755642_1_alg».proof.Proof.KI.Conds
import proofs.«408629_j68848325755642_1_alg».proof.Proof.KI.Run0
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature tile and the index tile at a point, at their literal types. -/
abbrev xblk0 (c : Dev nD) (t : Fin cfg0.N) : Vec F S2048x32 .bf16 := iblk0 V c 0 t
abbrev cblk0 (c : Dev nD) (t : Fin cfg0.N) : Vec F S1x2048 .i32 := iblk0 V c 1 t

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator, point by point -/

/-- What the accumulator holds after the body at position `n`. -/
def acc0 (c : Dev nD) : (n : ℕ) → n < cfg0.N → Vec F S2048x32 .f32
  | 0, hn => k0_pay2 (grid0.coords ⟨0, hn⟩) (cblk0 V c ⟨0, hn⟩) (xblk0 V c ⟨0, hn⟩) (k0_pay1 (F := F))
  | n + 1, hn => k0_pay2 (grid0.coords ⟨n + 1, hn⟩) (cblk0 V c ⟨n + 1, hn⟩) (xblk0 V c ⟨n + 1, hn⟩)
      (if (n + 1) % 49 = 0 then k0_pay1 (F := F) else acc0 c n (Nat.lt_of_succ_lt hn))

/-- At the first point of a run the sum starts from the reset value. -/
theorem acc0_first (c : Dev nD) (t : Fin cfg0.N) (h0 : t.val % 49 = 0) :
    acc0 V c t.val t.isLt = k0_pay2 (grid0.coords t) (cblk0 V c t) (xblk0 V c t) (k0_pay1 (F := F)) := by
  obtain ⟨n, hn⟩ := t
  cases n with
  | zero => rfl
  | succ n => show k0_pay2 _ _ _ (if (n + 1) % 49 = 0 then _ else _) = _; rw [if_pos h0]

/-- Elsewhere it adds to what the point before left. -/
theorem acc0_step (c : Dev nD) (t : Fin cfg0.N) (h0 : ¬ t.val % 49 = 0) :
    acc0 V c t.val t.isLt = k0_pay2 (grid0.coords t) (cblk0 V c t) (xblk0 V c t)
      (acc0 V c (t.val - 1) (Nat.lt_of_le_of_lt (Nat.sub_le _ _) t.isLt)) := by
  obtain ⟨n, hn⟩ := t
  cases n with
  | zero => exact absurd (Nat.zero_mod _) h0
  | succ n => show k0_pay2 _ _ _ (if (n + 1) % 49 = 0 then _ else _) = _; rw [if_neg h0]; rfl

/-! ## The invariant -/

/-- The core's scoped buffers other than this kernel's staging buffers and its accumulator: the other region's,
    each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The invariant handed to the region, with the accumulator split out. -/
theorem PhiA0_eq (c : Dev nD) :
    (Pipeline.ΦA spec0 c : sProp 𝕄)
      = iprop(((∃ d, owns (c : Thread nD τ) scM0 fullShare d) ∗ rest0 c) ∗ (∃ r, prngReg c r)) := by
  unfold Pipeline.ΦA rest0; rw [scopedRest0_eq]; simp only [owns_whole]; try rfl

/-- The invariant before position `n`: before the first point what the launch hands over; afterwards the accumulator
    at what the point before left, the other scoped buffers and the generator register at anything. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (acc0 V c n hn) ∗ rest0 c) ∗ (∃ r, prngReg c r)) := rfl

theorem PhiS0_pos (c : Dev nD) (n : ℕ) (h : n ≤ cfg0.N) (hz : n ≠ 0) :
    PhiS0 V c n h = iprop((owns (c : Thread nD τ) scM0 fullShare (acc0 V c (n - 1) (by omega)) ∗ rest0 c) ∗ (∃ r, prngReg c r)) := by
  cases n with
  | zero => exact absurd rfl hz
  | succ n => rfl

/-! ## The proof data -/

/-- The pipeline's proof data on core `c`: the arrays as the region finds them; after the body each input's buffer at
    its block and the output's at the accumulator; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point. The inputs' buffers hold their blocks. At the first point of a run the accumulator is
    handed over at anything and comes back at the run's first partial sum; elsewhere it is handed over at what the
    point before left and comes back with this point's sum added. Only at the run's last point is the output window
    stored; before it the window's buffer goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 47873 := lt_of_lt_of_eq t.isLt (show cfg0.N = 47873 from N_0)
  rw [show (dat0 V c).leavesExact 0 t = owns (c : Thread nD τ) (ms0_0 t) fullShare ((dat0 V c).after 0 t) from by
    unfold Dat.leavesExact; rw [live0_0 (grid0.coords t)], after0_0]
  rw [show (dat0 V c).leavesExact 1 t = owns (c : Thread nD τ) (ms0_1 t) fullShare ((dat0 V c).after 1 t) from by
    unfold Dat.leavesExact; rw [live0_1 (grid0.coords t)], after0_1]
  by_cases h1 : t.val % 49 = 48
  · -- the last point of a run: not the first
    have h0 : ¬ t.val % 49 = 0 := by omega
    have hz : t.val ≠ 0 := fun e => h0 (by rw [e])
    rw [show (dat0 V c).leavesExact 2 t = owns (c : Thread nD τ) (ms0_2 t) fullShare ((dat0 V c).after 2 t) from by
      unfold Dat.leavesExact; rw [live0_2_of t h1], after0_2]
    rw [acc0_step V c t h0]
    rw [PhiS0_castSucc V c t, PhiS0_pos V c _ _ hz]
    iintro ⟨⟨⟨HS, Hr⟩, Hg⟩, Ho, ⟨%d0, H0⟩, ⟨%d1, H1⟩, ⟨%d2, H2⟩⟩

    iapply (run0_C c (grid0.coords t) (ms0_0 t) (hs0_0 t) (ms0_1 t) (hs0_1 t) (ms0_2 t) (hs0_2 t) scM0 (Memref.isWhole_whole _)
      (x0 := xblk0 V c t) (x1 := cblk0 V c t) (E := Set.univ) (K := _) (hc0 := fun h => h0 ((first0_iff t).mp h)) (hc1 := (last0_iff t).mpr h1)
      (xs := acc0 V c (t.val - 1) (Nat.lt_of_le_of_lt (Nat.sub_le _ _) t.isLt)))
    isplitl [H0]; · iexact H0
    isplitl [H1]; · iexact H1
    isplitl [H2]; · iexists _; iexact H2
    isplitl [HS]; · iexact HS
    iintro ⟨H0, H1, H2, HS⟩
    isplitl [HS Hr Hg]
    · isplitr [Hg]
      · isplitl [HS]; · iexact HS
        iexact Hr
      iexact Hg
    isplitl [Ho]; · iexact Ho
    isplitl [H0]; · iexact H0
    isplitl [H1]; · iexact H1
    iexact H2
  · -- before the last point: the output window is idle and not written back
    rw [Dat.leavesExact_idle (dat0 V c) 2 t (idle0_2_of t h1) (by
      have := flush0_2 t; cases hf : (cfg0.win 2).flush t with
      | false => rfl
      | true => exact absurd (this.mp hf) h1)]
    by_cases h0 : t.val % 49 = 0
    · -- the first point of a run
      rw [acc0_first V c t h0]
      have hscr : (dat0 V c).Φ t.castSucc ⊢ (iprop(((∃ d, owns (c : Thread nD τ) scM0 fullShare d) ∗ rest0 c) ∗ (∃ r, prngReg c r)) : sProp 𝕄) := by
        rw [PhiS0_castSucc V c t]
        by_cases hz : t.val = 0
        · rw [PhiS0_zero V c _ _ hz, PhiA0_eq]; try exact .rfl
        · rw [PhiS0_pos V c _ _ hz]
          iintro ⟨⟨HS, Hr⟩, Hg⟩
          isplitr [Hg]
          · isplitl [HS]; · iexists _; iexact HS
            iexact Hr
          iexact Hg
      iintro ⟨HΦ, Ho, ⟨%d0, H0⟩, ⟨%d1, H1⟩, ⟨%d2, H2⟩⟩
      ihave HΦ' := hscr $$ HΦ
      icases HΦ' with ⟨⟨HS, Hr⟩, Hg⟩
      iapply (run0_A c (grid0.coords t) (ms0_0 t) (hs0_0 t) (ms0_1 t) (hs0_1 t) (ms0_2 t) (hs0_2 t) scM0 (Memref.isWhole_whole _)
        (x0 := xblk0 V c t) (x1 := cblk0 V c t) (E := Set.univ) (K := _) (hc0 := (first0_iff t).mpr h0) (hc1 := fun h => h1 ((last0_iff t).mp h)) (xi := _))
      isplitl [H0]; · iexact H0
      isplitl [H1]; · iexact H1
      isplitl [H2]; · iexact H2
      isplitl [HS]; · iexact HS
      iintro ⟨H0, H1, H2, HS⟩
      isplitl [HS Hr Hg]
      · isplitr [Hg]
        · isplitl [HS]; · iexact HS
          iexact Hr
        iexact Hg
      isplitl [Ho]; · iexact Ho
      isplitl [H0]; · iexact H0
      isplitl [H1]; · iexact H1
      iexists _; iexact H2
    · -- inside a run
      have hz : t.val ≠ 0 := fun e => h0 (by rw [e])
      rw [acc0_step V c t h0]
      rw [PhiS0_castSucc V c t, PhiS0_pos V c _ _ hz]
      iintro ⟨⟨⟨HS, Hr⟩, Hg⟩, Ho, ⟨%d0, H0⟩, ⟨%d1, H1⟩, ⟨%d2, H2⟩⟩
      iapply (run0_B c (grid0.coords t) (ms0_0 t) (hs0_0 t) (ms0_1 t) (hs0_1 t) (ms0_2 t) (hs0_2 t) scM0 (Memref.isWhole_whole _)
        (x0 := xblk0 V c t) (x1 := cblk0 V c t) (E := Set.univ) (K := _) (hc0 := fun h => h0 ((first0_iff t).mp h)) (hc1 := fun h => h1 ((last0_iff t).mp h)) (xi := _)
        (xs := acc0 V c (t.val - 1) (Nat.lt_of_le_of_lt (Nat.sub_le _ _) t.isLt)))
      isplitl [H0]; · iexact H0
      isplitl [H1]; · iexact H1
      isplitl [H2]; · iexact H2
      isplitl [HS]; · iexact HS
      iintro ⟨H0, H1, H2, HS⟩
      isplitl [HS Hr Hg]
      · isplitr [Hg]
        · isplitl [HS]; · iexact HS
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact .rfl

/-- After the last point the invariant gives back what the launch handed over: the accumulator's contents are
    forgotten. -/
theorem hout0 (c : Dev nD) : (dat0 V c).Φ (Fin.last cfg0.N) ⊢ Pipeline.ΦA spec0 c := by
  have hne : (Fin.last cfg0.N).val ≠ 0 := by rw [Fin.val_last]; have : cfg0.N = 47873 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨HS, Hr⟩, Hg⟩
  isplitr [Hg]
  · isplitl [HS]; · iexists _; iexact HS
    iexact Hr
  iexact Hg

end Cert.KernelIdeal.Hand

end
-- ==== Proof.KI.Run1.lean ====
/-
  The kernel body's triple in each control case of the scatter region: run on whole memrefs holding the message
  tile, the index tile, the output tile and the accumulator, the body returns them with the accumulator at the
  case's payload (reset then updated, or updated) and, in the last case, the output tile at the updated accumulator.
-/
import proofs.«408629_j68848325755642_1_alg».proof.Proof.KI.Base
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The zero offsets of a whole-tile rectangle, as the constant function. -/
private theorem hz : (![0, 0] : Fin 2 → Nat) = fun _ => 0 := funext fun a => by fin_cases a <;> rfl

set_option maxHeartbeats 1000000 in
/-- First point of a reduction run, not the last: the accumulator, whatever it held, is reset and then updated;
    the output tile is untouched. -/
theorem run1_A (c : Dev nD) (i : grid1.Coords) (arg2 : Memref sig .tc .vmem S2048x32 .bf16) (harg2 : arg2.IsWhole)
    (arg3 : Memref sig .tc .vmem S1x2048 .i32) (harg3 : arg3.IsWhole)
    (arg4 : Memref sig .tc .vmem S2048x32 .f32) (harg4 : arg4.IsWhole)
    (arg5 : Memref sig .tc .vmem S2048x32 .f32) (harg5 : arg5.IsWhole)
    (hc0 : first1 i) (hc1 : ¬ last1 i)
    (x0 : Vec F S2048x32 .bf16) (x1 : Vec F S1x2048 .i32) (xi : Vec F S2048x32 .f32)
    (E : Set ℕ) (K : PUnit → sProp 𝕄) :
    iprop(owns (c : Thread nD τ) arg2 fullShare x0 ∗ owns (c : Thread nD τ) arg3 fullShare x1
        ∗ owns (c : Thread nD τ) arg4 fullShare xi ∗ (∃ d, owns (c : Thread nD τ) arg5 fullShare d)
        ∗ (iprop(owns (c : Thread nD τ) arg2 fullShare x0 ∗ owns (c : Thread nD τ) arg3 fullShare x1
              ∗ owns (c : Thread nD τ) arg4 fullShare xi
              ∗ owns (c : Thread nD τ) arg5 fullShare (k1_pay2 i x1 x0 (k1_pay1 (F := F)))) -∗ K ⟨⟩))
      ⊢ wp frame (wpE (defs₀ (F := F)) Variants.none c none) E
          (cc1__scatter_kernel i arg2 harg2 arg3 harg3 arg4 harg4 arg5 harg5) K := by
  simp only [cc1__scatter_kernel_eq_skeleton]; unfold cc1__scatter_kernel_skel
  unfold owns
  iintro ⟨⟨%f0, %hf0, H0⟩, ⟨%f1, %hf1, H1⟩, ⟨%f2, %hf2, H2⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr; swap; · iexact HS0
  ipureintro
  rw [View.read_writes_eq_canon _ _ _ (fun y => ⟨_, List.mem_cons_self .., View.mem_set_unit_zero hz inb_S2048x32_S2048x32_0_0 y⟩)]
  sl_unfold_words
  rw [View.canon_cons_unit_zero (S := S2048x32) hz]
  simp only [View.readAt_eq_ld, harg2.read_unread, harg3.read_unread, View.ld_unit_zero (S := S2048x32) hz,
    View.ld_unit_zero (S := S1x2048) hz, View.readCov_unit_zero (S := S2048x32) _ hz]

set_option maxHeartbeats 1000000 in
/-- Neither first nor last: the accumulator is updated; the output tile is untouched. -/
theorem run1_B (c : Dev nD) (i : grid1.Coords) (arg2 : Memref sig .tc .vmem S2048x32 .bf16) (harg2 : arg2.IsWhole)
    (arg3 : Memref sig .tc .vmem S1x2048 .i32) (harg3 : arg3.IsWhole)
    (arg4 : Memref sig .tc .vmem S2048x32 .f32) (harg4 : arg4.IsWhole)
    (arg5 : Memref sig .tc .vmem S2048x32 .f32) (harg5 : arg5.IsWhole)
    (hc0 : ¬ first1 i) (hc1 : ¬ last1 i)
    (x0 : Vec F S2048x32 .bf16) (x1 : Vec F S1x2048 .i32) (xi : Vec F S2048x32 .f32) (xs : Vec F S2048x32 .f32)
    (E : Set ℕ) (K : PUnit → sProp 𝕄) :
    iprop(owns (c : Thread nD τ) arg2 fullShare x0 ∗ owns (c : Thread nD τ) arg3 fullShare x1
        ∗ owns (c : Thread nD τ) arg4 fullShare xi ∗ owns (c : Thread nD τ) arg5 fullShare xs
        ∗ (iprop(owns (c : Thread nD τ) arg2 fullShare x0 ∗ owns (c : Thread nD τ) arg3 fullShare x1
              ∗ owns (c : Thread nD τ) arg4 fullShare xi
              ∗ owns (c : Thread nD τ) arg5 fullShare (k1_pay2 i x1 x0 xs)) -∗ K ⟨⟩))
      ⊢ wp frame (wpE (defs₀ (F := F)) Variants.none c none) E
          (cc1__scatter_kernel i arg2 harg2 arg3 harg3 arg4 harg4 arg5 harg5) K := by
  simp only [cc1__scatter_kernel_eq_skeleton]; unfold cc1__scatter_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr; swap; · iexact HS0
  ipureintro
  rw [View.read_writes_eq_canon _ _ _ (fun y => ⟨_, List.mem_cons_self .., View.mem_set_unit_zero hz inb_S2048x32_S2048x32_0_0 y⟩)]
  sl_unfold_words
  rw [View.canon_cons_unit_zero (S := S2048x32) hz]
  simp only [View.readAt_eq_ld, harg2.read_unread, harg3.read_unread, harg5.read_unread,
    View.ld_unit_zero (S := S2048x32) hz, View.ld_unit_zero (S := S1x2048) hz,
    View.readCov_unit_zero (S := S2048x32) _ hz]

set_option maxHeartbeats 1000000 in
/-- Last point of a reduction run, not the first: the accumulator is updated and the output tile, whatever it
    held, receives the updated accumulator. -/
theorem run1_C (c : Dev nD) (i : grid1.Coords) (arg2 : Memref sig .tc .vmem S2048x32 .bf16) (harg2 : arg2.IsWhole)
    (arg3 : Memref sig .tc .vmem S1x2048 .i32) (harg3 : arg3.IsWhole)
    (arg4 : Memref sig .tc .vmem S2048x32 .f32) (harg4 : arg4.IsWhole)
    (arg5 : Memref sig .tc .vmem S2048x32 .f32) (harg5 : arg5.IsWhole)
    (hc0 : ¬ first1 i) (hc1 : last1 i)
    (x0 : Vec F S2048x32 .bf16) (x1 : Vec F S1x2048 .i32) (xs : Vec F S2048x32 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
              ∗ owns (c : Thread nD τ) arg4 fullShare (k1_pay2 i x1 x0 xs)
              ∗ owns (c : Thread nD τ) arg5 fullShare (k1_pay2 i x1 x0 xs)) -∗ K ⟨⟩))
      ⊢ wp frame (wpE (defs₀ (F := F)) Variants.none c none) E
          (cc1__scatter_kernel i arg2 harg2 arg3 harg3 arg4 harg4 arg5 harg5) K := by
  simp only [cc1__scatter_kernel_eq_skeleton]; unfold cc1__scatter_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [View.read_writes_eq_canon _ _ _ (fun y => ⟨_, List.mem_cons_self .., View.mem_set_unit_zero hz inb_S2048x32_S2048x32_0_0 y⟩)]
    sl_unfold_words
    rw [View.canon_cons_unit_zero (S := S2048x32) hz]
    simp only [View.readAt_eq_ld, harg2.read_unread, harg3.read_unread, harg5.read_unread,
      View.ld_unit_zero (S := S2048x32) hz, View.ld_unit_zero (S := S1x2048) hz,
      View.readCov_unit_zero (S := S2048x32) _ hz]
  iexists _; isplitr; swap; · iexact HS0
  ipureintro
  sl_unfold_words
  rw [View.read_writes_eq_canon _ _ _ (fun y => ⟨_, List.mem_cons_self .., View.mem_set_unit_zero hz inb_S2048x32_S2048x32_0_0 y⟩)]
  rw [View.canon_cons_unit_zero (S := S2048x32) hz]
  simp only [View.readAt_eq_ld, harg2.read_unread, harg3.read_unread, harg5.read_unread,
    View.ld_unit_zero (S := S2048x32) hz, View.ld_unit_zero (S := S1x2048) hz,
    View.readCov_unit_zero (S := S2048x32) _ hz]

end Cert.KernelIdeal.Hand

end
-- ==== Proof.KI.Dat1.lean ====
/-
  Region 1 (the scatter): the proof data of its pipeline at any contents `V` of the core's buffers when the region is
  entered. The accumulator after point `n` is defined by recursion on the point: at the first point of a reduction
  run (position a multiple of 977) the body's sum is added to the reset value, elsewhere to what the point before
  left. The region's invariant carries the accumulator at that value between points; the output window holds the
  accumulator at the run's last point and is idle before it.
-/
import proofs.«408629_j68848325755642_1_alg».proof.Proof.KI.Conds
import proofs.«408629_j68848325755642_1_alg».proof.Proof.KI.Run1
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The message tile and the index tile at a point, at their literal types. -/
abbrev xblk1 (c : Dev nD) (t : Fin cfg1.N) : Vec F S2048x32 .bf16 := iblk1 V c 0 t
abbrev cblk1 (c : Dev nD) (t : Fin cfg1.N) : Vec F S1x2048 .i32 := iblk1 V c 1 t

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator, point by point -/

/-- What the accumulator holds after the body at position `n`. -/
def acc1 (c : Dev nD) : (n : ℕ) → n < cfg1.N → Vec F S2048x32 .f32
  | 0, hn => k1_pay2 (grid1.coords ⟨0, hn⟩) (cblk1 V c ⟨0, hn⟩) (xblk1 V c ⟨0, hn⟩) (k1_pay1 (F := F))
  | n + 1, hn => k1_pay2 (grid1.coords ⟨n + 1, hn⟩) (cblk1 V c ⟨n + 1, hn⟩) (xblk1 V c ⟨n + 1, hn⟩)
      (if (n + 1) % 977 = 0 then k1_pay1 (F := F) else acc1 c n (Nat.lt_of_succ_lt hn))

/-- At the first point of a run the sum starts from the reset value. -/
theorem acc1_first (c : Dev nD) (t : Fin cfg1.N) (h0 : t.val % 977 = 0) :
    acc1 V c t.val t.isLt = k1_pay2 (grid1.coords t) (cblk1 V c t) (xblk1 V c t) (k1_pay1 (F := F)) := by
  obtain ⟨n, hn⟩ := t
  cases n with
  | zero => rfl
  | succ n => show k1_pay2 _ _ _ (if (n + 1) % 977 = 0 then _ else _) = _; rw [if_pos h0]

/-- Elsewhere it adds to what the point before left. -/
theorem acc1_step (c : Dev nD) (t : Fin cfg1.N) (h0 : ¬ t.val % 977 = 0) :
    acc1 V c t.val t.isLt = k1_pay2 (grid1.coords t) (cblk1 V c t) (xblk1 V c t)
      (acc1 V c (t.val - 1) (Nat.lt_of_le_of_lt (Nat.sub_le _ _) t.isLt)) := by
  obtain ⟨n, hn⟩ := t
  cases n with
  | zero => exact absurd (Nat.zero_mod _) h0
  | succ n => show k1_pay2 _ _ _ (if (n + 1) % 977 = 0 then _ else _) = _; rw [if_neg h0]; rfl

/-! ## The invariant -/

/-- The core's scoped buffers other than this kernel's staging buffers and its accumulator: the other region's,
    each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The invariant handed to the region, with the accumulator split out. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [owns_whole]; try rfl

/-- The invariant before position `n`: before the first point what the launch hands over; afterwards the accumulator
    at what the point before left, the other scoped buffers and the generator register at anything. -/
def PhiS1 (c : Dev nD) : (n : ℕ) → n ≤ cfg1.N → sProp 𝕄
  | 0, _ => Pipeline.ΦA spec1 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1 fullShare (acc1 V c n hn)) ∗ (∃ r, prngReg c r)) := rfl

theorem PhiS1_pos (c : Dev nD) (n : ℕ) (h : n ≤ cfg1.N) (hz : n ≠ 0) :
    PhiS1 V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1 fullShare (acc1 V c (n - 1) (by omega))) ∗ (∃ r, prngReg c r)) := by
  cases n with
  | zero => exact absurd rfl hz
  | succ n => rfl

/-! ## The proof data -/

/-- The pipeline's proof data on core `c`: the arrays as the region finds them; after the body each input's buffer at
    its block and the output's at the accumulator; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The inputs' buffers hold their blocks. At the first point of a run the accumulator is
    handed over at anything and comes back at the run's first partial sum; elsewhere it is handed over at what the
    point before left and comes back with this point's sum added. Only at the run's last point is the output window
    stored; before it the window's buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 47873 := lt_of_lt_of_eq t.isLt (show cfg1.N = 47873 from N_1)
  rw [show (dat1 V c).leavesExact 0 t = owns (c : Thread nD τ) (ms1_0 t) fullShare ((dat1 V c).after 0 t) from by
    unfold Dat.leavesExact; rw [live1_0 (grid1.coords t)], after1_0]
  rw [show (dat1 V c).leavesExact 1 t = owns (c : Thread nD τ) (ms1_1 t) fullShare ((dat1 V c).after 1 t) from by
    unfold Dat.leavesExact; rw [live1_1 (grid1.coords t)], after1_1]
  by_cases h1 : t.val % 977 = 976
  · -- the last point of a run: not the first
    have h0 : ¬ t.val % 977 = 0 := by omega
    have hz : t.val ≠ 0 := fun e => h0 (by rw [e])
    rw [show (dat1 V c).leavesExact 2 t = owns (c : Thread nD τ) (ms1_2 t) fullShare ((dat1 V c).after 2 t) from by
      unfold Dat.leavesExact; rw [live1_2_of t h1], after1_2]
    rw [acc1_step V c t h0]
    rw [PhiS1_castSucc V c t, PhiS1_pos V c _ _ hz]
    iintro ⟨⟨HSr, Hg⟩, Ho, ⟨%d0, H0⟩, ⟨%d1, H1⟩, ⟨%d2, H2⟩⟩
    icases HSr with ⟨R1, R2, R3, R4, R5, R6, R7, HS⟩
    iapply (run1_C c (grid1.coords t) (ms1_0 t) (hs1_0 t) (ms1_1 t) (hs1_1 t) (ms1_2 t) (hs1_2 t) scM1 (Memref.isWhole_whole _)
      (x0 := xblk1 V c t) (x1 := cblk1 V c t) (E := Set.univ) (K := _) (hc0 := fun h => h0 ((first1_iff t).mp h)) (hc1 := (last1_iff t).mpr h1)
      (xs := acc1 V c (t.val - 1) (Nat.lt_of_le_of_lt (Nat.sub_le _ _) t.isLt)))
    isplitl [H0]; · iexact H0
    isplitl [H1]; · iexact H1
    isplitl [H2]; · iexists _; iexact H2
    isplitl [HS]; · iexact HS
    iintro ⟨H0, H1, H2, HS⟩
    isplitl [HS R1 R2 R3 R4 R5 R6 R7 Hg]
    · isplitr [Hg]
      · isplitl [R1]; · iexact R1
        isplitl [R2]; · iexact R2
        isplitl [R3]; · iexact R3
        isplitl [R4]; · iexact R4
        isplitl [R5]; · iexact R5
        isplitl [R6]; · iexact R6
        isplitl [R7]; · iexact R7
        iexact HS
      iexact Hg
    isplitl [Ho]; · iexact Ho
    isplitl [H0]; · iexact H0
    isplitl [H1]; · iexact H1
    iexact H2
  · -- before the last point: the output window is idle and not written back
    rw [Dat.leavesExact_idle (dat1 V c) 2 t (idle1_2_of t h1) (by
      have := flush1_2 t; cases hf : (cfg1.win 2).flush t with
      | false => rfl
      | true => exact absurd (this.mp hf) h1)]
    by_cases h0 : t.val % 977 = 0
    · -- the first point of a run
      rw [acc1_first V c t h0]
      have hscr : (dat1 V c).Φ t.castSucc ⊢ (iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) : sProp 𝕄) := by
        rw [PhiS1_castSucc V c t]
        by_cases hz : t.val = 0
        · rw [PhiS1_zero V c _ _ hz, PhiA1_eq]; try exact .rfl
        · rw [PhiS1_pos V c _ _ hz]
          iintro ⟨⟨R1, R2, R3, R4, R5, R6, R7, HS⟩, Hg⟩
          isplitr [Hg]
          · isplitl [R1]; · iexact R1
            isplitl [R2]; · iexact R2
            isplitl [R3]; · iexact R3
            isplitl [R4]; · iexact R4
            isplitl [R5]; · iexact R5
            isplitl [R6]; · iexact R6
            isplitl [R7]; · iexact R7
            iexists _; iexact HS
          iexact Hg
      iintro ⟨HΦ, Ho, ⟨%d0, H0⟩, ⟨%d1, H1⟩, ⟨%d2, H2⟩⟩
      ihave HΦ' := hscr $$ HΦ
      icases HΦ' with ⟨⟨R1, R2, R3, R4, R5, R6, R7, HS⟩, Hg⟩
      iapply (run1_A c (grid1.coords t) (ms1_0 t) (hs1_0 t) (ms1_1 t) (hs1_1 t) (ms1_2 t) (hs1_2 t) scM1 (Memref.isWhole_whole _)
        (x0 := xblk1 V c t) (x1 := cblk1 V c t) (E := Set.univ) (K := _) (hc0 := (first1_iff t).mpr h0) (hc1 := fun h => h1 ((last1_iff t).mp h)) (xi := _))
      isplitl [H0]; · iexact H0
      isplitl [H1]; · iexact H1
      isplitl [H2]; · iexact H2
      isplitl [HS]; · iexact HS
      iintro ⟨H0, H1, H2, HS⟩
      isplitl [HS R1 R2 R3 R4 R5 R6 R7 Hg]
      · isplitr [Hg]
        · isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      iexists _; iexact H2
    · -- inside a run
      have hz : t.val ≠ 0 := fun e => h0 (by rw [e])
      rw [acc1_step V c t h0]
      rw [PhiS1_castSucc V c t, PhiS1_pos V c _ _ hz]
      iintro ⟨⟨⟨R1, R2, R3, R4, R5, R6, R7, HS⟩, Hg⟩, Ho, ⟨%d0, H0⟩, ⟨%d1, H1⟩, ⟨%d2, H2⟩⟩
      iapply (run1_B c (grid1.coords t) (ms1_0 t) (hs1_0 t) (ms1_1 t) (hs1_1 t) (ms1_2 t) (hs1_2 t) scM1 (Memref.isWhole_whole _)
        (x0 := xblk1 V c t) (x1 := cblk1 V c t) (E := Set.univ) (K := _) (hc0 := fun h => h0 ((first1_iff t).mp h)) (hc1 := fun h => h1 ((last1_iff t).mp h)) (xi := _)
        (xs := acc1 V c (t.val - 1) (Nat.lt_of_le_of_lt (Nat.sub_le _ _) t.isLt)))
      isplitl [H0]; · iexact H0
      isplitl [H1]; · iexact H1
      isplitl [H2]; · iexact H2
      isplitl [HS]; · iexact HS
      iintro ⟨H0, H1, H2, HS⟩
      isplitl [HS R1 R2 R3 R4 R5 R6 R7 Hg]
      · isplitr [Hg]
        · isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact .rfl

/-- After the last point the invariant gives back what the launch handed over: the accumulator's contents are
    forgotten. -/
theorem hout1 (c : Dev nD) : (dat1 V c).Φ (Fin.last cfg1.N) ⊢ Pipeline.ΦA spec1 c := by
  have hne : (Fin.last cfg1.N).val ≠ 0 := by rw [Fin.val_last]; have : cfg1.N = 47873 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨R1, R2, R3, R4, R5, R6, R7, HS⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    iexists _; iexact HS
  iexact Hg

end Cert.KernelIdeal.Hand

end
-- ==== Proof.KI.Launch.lean ====
/-
  The whole run of @main: the two kernel regions as segments between the host stretches, each region entered from
  the buffer contents the segment before it left. Region 0 leaves the message array at what its pipeline's
  write-backs fold to; region 1 is entered with that array in place and leaves the padded result array likewise.
  Every weakly fair execution then terminates with every unscoped buffer at the last of these contents — of which
  "the argument arrays are as launched" is an instance.
-/
import proofs.«408629_j68848325755642_1_alg».proof.Proof.KI.Dat0
import proofs.«408629_j68848325755642_1_alg».proof.Proof.KI.Dat1
import proofs.«408629_j68848325755642_1_alg».proof.Proof.KI.RegionsAll
import Idealize.ShloMosaic.Lib.Pipeline.Kit
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the regions' boundaries -/

/-- The core's buffers when region 0 is entered, read at the TensorCore's references. -/
abbrev Ve0 : (c : Dev nD) → (b : Ref sig .tc) → Buf (Elt F) ((c : Thread nD τ).loc b) := fun c b => V6 m c b

/-- The message array as region 0 leaves it: its write-backs folded over the entry contents. -/
def msgs (c : Dev nD) : Buf (Elt F) ((c : Thread nD τ).loc main_v10) := (dat0 (Ve0 m) c).arrAt 2 cfg0.N

/-- The core's buffers when region 1 is entered: as at region 0's entry, the message array replaced. -/
def W7 (c : Dev nD) : Valuation τ sig (Elt F) := Function.update (V6 m c) main_v10 (msgs m c)
abbrev Ve1 : (c : Dev nD) → (b : Ref sig .tc) → Buf (Elt F) ((c : Thread nD τ).loc b) := fun c b => W7 m c b

/-- The padded result array as region 1 leaves it. -/
def outp (c : Dev nD) : Buf (Elt F) ((c : Thread nD τ).loc main_v11) := (dat1 (Ve1 m) c).arrAt 2 cfg1.N

/-- What the regions leave, as the family the boundary valuations are written over: the message array after
    region 0, the padded result after region 1 (any other entry is never read). -/
def outs : Outs (F := F) := fun _ r c =>
  if h : r = main_v10 then h ▸ msgs m c else if h' : r = main_v11 then h' ▸ outp m c else m ((c : Thread nD τ).loc r)

theorem outs_msgs (c : Dev nD) : outs m 7 main_v10 c = msgs m c := by
  unfold outs; rw [dif_pos rfl]
theorem outs_outp (c : Dev nD) : outs m 8 main_v11 c = outp m c := by
  unfold outs; rw [dif_neg (by decide), dif_pos rfl]

theorem V7_eq (c : Dev nD) : V7 m (outs m) c = W7 m c := by
  unfold W7; rw [← outs_msgs m c]

/-! ## The proof data family and what rides beside the buffers -/

def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c

/-- No core owes another anything: no level is assigned. -/
abbrev L0 : GSem nD τ sig → Finset Unit := fun _ => ∅
abbrev lv0 : GSem nD τ sig → Unit → ℕ := fun _ _ => 0
/-- Beside the buffers through every segment: the generator register at some state, and nothing owed. -/
abbrev Rr (c : Dev nD) : sProp 𝕄 := iprop((∃ r, prngReg c r) ∗ ∃ W, owes (c : Thread nD τ) (0 : CellTallies nD τ sig Unit) W)

/-! ## Region 0's exit contents -/

theorem hF0 (c : Dev nD) (w : Fin cfg0.W) : (pdats m 0 c).arrAt w cfg0.N = V7 m (outs m) c (Pipeline.arrRef spec0 w) := by
  match w with
  | ⟨0, _⟩ =>
    exact (((pdats m 0 c).arrAt_in 0 rfl _).trans (A_eq0 (Ve0 m) c 0)).trans (V7_of m (outs m) c main_v9 (by decide)).symm
  | ⟨1, _⟩ =>
    exact (((pdats m 0 c).arrAt_in 1 rfl _).trans (A_eq0 (Ve0 m) c 1)).trans (V7_of m (outs m) c main_v5 (by decide)).symm
  | ⟨2, _⟩ =>
    show msgs m c = V7 m (outs m) c main_v10
    simp only [V7, Function.update_self]
    exact (outs_msgs m c).symm

theorem hrest0 (c : Dev nD) : ∀ b, b ∉ Finset.univ.image (Pipeline.arrRef spec0) → V7 m (outs m) c b = V6 m c b := by
  intro b hb
  exact V7_of m (outs m) c b (fun h => hb (Finset.mem_image.mpr ⟨2, Finset.mem_univ _, by rw [List.mem_singleton.mp h]⟩))

/-! ## Region 1's exit contents -/

theorem hF1 (c : Dev nD) (w : Fin cfg1.W) : (pdats m 1 c).arrAt w cfg1.N = V8 m (outs m) c (Pipeline.arrRef spec1 w) := by
  match w with
  | ⟨0, _⟩ =>
    refine (((pdats m 1 c).arrAt_in 0 rfl _).trans (A_eq1 (Ve1 m) c 0)).trans ?_
    rw [V8_of m (outs m) c main_v10 (by decide), V7_eq]
  | ⟨1, _⟩ =>
    refine (((pdats m 1 c).arrAt_in 1 rfl _).trans (A_eq1 (Ve1 m) c 1)).trans ?_
    rw [V8_of m (outs m) c main_v7 (by decide), V7_eq]
  | ⟨2, _⟩ =>
    show outp m c = V8 m (outs m) c main_v11
    simp only [V8, Function.update_self]
    exact (outs_outp m c).symm

theorem hrest1 (c : Dev nD) : ∀ b, b ∉ Finset.univ.image (Pipeline.arrRef spec1) → V8 m (outs m) c b = V7 m (outs m) c b := by
  intro b hb
  exact V8_of m (outs m) c b (fun h => hb (Finset.mem_image.mpr ⟨2, Finset.mem_univ _, by rw [List.mem_singleton.mp h]⟩))

/-! ## The regions as segments -/

set_option backward.isDefEq.respectTransparency.types false in
/-- Region 0: entered from every unscoped buffer at the contents after the host stretches before it, left with the
    message array replaced by what its write-backs fold to. The generator register goes into the invariant and
    comes back; nothing is owed; the kernel has no semaphore of its own. -/
def reg0 : Pipeline.RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L0 lv0 0 fun _ _ => rfl
  pre c := iprop(StableHlo.held (c : Thread nD τ) (Pipeline.ucRefs τ sig) (V6 m c) ∗ Rr c)
  post c := iprop(StableHlo.held (c : Thread nD τ) (Pipeline.ucRefs τ sig) (V7 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Ve0 m) c)
    unfold Pipeline.ΦA
    iintro ⟨Hp, -, Hr⟩
    isplitl [Hr]; · iexact Hr
    iexact Hp
  hout c := by
    refine (hout0 (Ve0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (fun b => V7 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with the message array in place, left with the padded result array replaced by what its
    write-backs fold to. -/
def reg1 : Pipeline.RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L0 lv0 1 fun _ _ => rfl
  pre c := iprop(StableHlo.held (c : Thread nD τ) (Pipeline.ucRefs τ sig) (V7 m (outs m) c) ∗ Rr c)
  post c := iprop(StableHlo.held (c : Thread nD τ) (Pipeline.ucRefs τ sig) (V8 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none, V7_eq]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Ve1 m) c)
    unfold Pipeline.ΦA
    iintro ⟨Hp, -, Hr⟩
    isplitl [Hr]; · iexact Hr
    iexact Hp
  hout c := by
    refine (hout1 (Ve1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (fun b => V8 m (outs m) c b) ((pdats m 1 c).arrAt · cfg1.N) (hF1 m c)
      (fun b hb => (hrest1 m c b hb).trans (congrFun (V7_eq m c) _))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- From any memory with zero counters every weakly fair execution of @main terminates, nothing faulting, and every
    final memory holds every unscoped buffer at the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = V9 m (outs m) c b) :=
  run_cond m emb₁ () Variants.none L0 lv0 (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr c)
    (Pipeline.initEach L0 lv0 fun c => by
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun _ => .rfl) (fun _ => .rfl)

/-- An unscoped TensorCore reference is among those the last reading covers. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (V9_main_arg0 m (outs m) c),
     (h c _ (mem_uc main_arg1 (by decide))).trans (V9_main_arg1 m (outs m) c)⟩) (run_all m ρ)

end Cert.KernelIdeal.Hand

end
-- ==== Proof.Spec.lean ====
/-
  The specification both programs meet: message passing over an edge list.

  An edge `e` carries a target node `row e` and a source node `col e` (the two rows of the integer input, as
  32-bit words). Node `n`'s result is the sum, over the edges whose target word is `n`, of the source node's feature
  row; a source word that names no node (as an unsigned number it is not below the node count) contributes zero.
-/
import Idealize.ShloMosaic.PureOps.Ideal
import Idealize.ShloMosaic.Lib.ValueIdx

noncomputable section

namespace Cert.Spec

open Idealize.ShloMosaic Idealize.ShloMosaic.ValueIdx
open scoped BigOperators

/-- The feature row of the node a word names, read at feature `k`: zero when the word names no node. -/
def xAt (x : (⟨2, ![100000, 32]⟩ : Shape).Idx → EReal) (w : BitVec 32) (k : Fin 32) : EReal :=
  if h : w.toNat < 100000 then x (ix2 (⟨w.toNat, h⟩ : Fin 100000) k) else 0

/-- The target word of edge `e`. -/
abbrev rowW (ei : (⟨2, ![2, 2000000]⟩ : Shape).Idx → BitVec 32) (e : Fin 2000000) : BitVec 32 := ei (ix2 (0 : Fin 2) e)
/-- The source word of edge `e`. -/
abbrev colW (ei : (⟨2, ![2, 2000000]⟩ : Shape).Idx → BitVec 32) (e : Fin 2000000) : BitVec 32 := ei (ix2 (1 : Fin 2) e)

/-- Node `n`'s aggregated feature `k`: the sum over the edges that target `n` of the source node's feature. -/
def agg (x : (⟨2, ![100000, 32]⟩ : Shape).Idx → EReal) (ei : (⟨2, ![2, 2000000]⟩ : Shape).Idx → BitVec 32)
    (n : Fin 100000) (k : Fin 32) : EReal :=
  ∑ e : Fin 2000000, if rowW ei e = BitVec.ofNat 32 n.val then xAt x (colW ei e) k else 0

/-- The whole result array. -/
def G (x : (⟨2, ![100000, 32]⟩ : Shape).Idx → EReal) (ei : (⟨2, ![2, 2000000]⟩ : Shape).Idx → BitVec 32) :
    (⟨2, ![100000, 32]⟩ : Shape).Idx → EReal :=
  fun i => agg x ei (i 0) (i 1)

theorem G_apply (x : (⟨2, ![100000, 32]⟩ : Shape).Idx → EReal) (ei : (⟨2, ![2, 2000000]⟩ : Shape).Idx → BitVec 32)
    (n : Fin 100000) (k : Fin 32) : G x ei (ix2 n k) = agg x ei n k := rfl

/-- A one-hot entry: one where the two words agree, zero elsewhere. -/
def oh (a b : BitVec 32) : EReal := if a = b then 1 else 0

/-- Every source word names a node: read signed it lies in `[0, 100000)`. -/
def ColsInRange (ei : (⟨2, ![2, 2000000]⟩ : Shape).Idx → BitVec 32) : Prop :=
  ∀ e : Fin 2000000, 0 ≤ (colW ei e).toInt ∧ (colW ei e).toInt < 100000

end Cert.Spec

end
-- ==== Proof.KI.HostVals.lean ====
/-
  What the host operations around the two kernel regions compute, read at an index.

  Before region 0 the program slices the two rows of the [2, 2000000] integer input, flattens each, pads each at the
  end with 896 copies of the word 100352 and gives it a unit leading axis: the padded source words (from row 1) and the
  padded target words (from row 0), both [1, 2000896]. It converts the [100000, 32] float input to the narrower float
  format and pads it below with 352 rows of the integer zero converted to that format: the padded feature rows,
  [100352, 32]. After region 1 it keeps the leading 100000 rows of that region's [100352, 32] output.

  Each stretch of host operations is first read as a term over the contents it starts from (one lemma per buffer it
  writes that is used later), the terms are chained through the stretches (a buffer a later stretch does not write keeps
  its contents), and the resulting composition of slices, reshapes and pads is read at an index.
-/
import proofs.«408629_j68848325755642_1_alg».proof.Proof.Gen.KernelIdeal.Regions
import proofs.«408629_j68848325755642_1_alg».proof.Proof.Spec
import Idealize.ShloMosaic.Lib.StableHlo.Run
import Idealize.ShloMosaic.Lib.Pipeline.Value
import Idealize.ShloMosaic.Lib.ValueIdx
import Idealize.ShloMosaic.Lib.KernelVsHost
import Idealize.ShloMosaic.PureOps.Ideal

noncomputable section

namespace Cert.KernelIdeal.Hand

open Idealize.ShloMosaic Idealize.ShloMosaic.TcCoe Idealize.ShloMosaic.ValueIdx Idealize.SL.Sem Cert.KernelIdeal Cert.KernelIdeal.Gen

variable {F : FTy → Type} [FloatOps F]

/-! ## Each host stretch's result as a term over the contents it starts from -/

section Stretches
variable (W : Valuation τ sig (Elt F))

theorem after0_v1 :
    (StableHlo.after (hostOps0 (F := F)) W (Proc.devRef .tc main_v1) : S2000000.Idx → BitVec 32)
      = shapeCast S2000000 (extractStridedSlice S1x2000000 ![0, 0] (W (Proc.devRef .tc main_arg1) : S2x2000000.Idx → BitVec 32) slices_S2x2000000_S1x2000000_0_0) shapeCasts_S1x2000000_S2000000 := by
  after_results; rfl

theorem after0_v3 :
    (StableHlo.after (hostOps0 (F := F)) W (Proc.devRef .tc main_v3) : S2000000.Idx → BitVec 32)
      = shapeCast S2000000 (extractStridedSlice S1x2000000 ![1, 0] (W (Proc.devRef .tc main_arg1) : S2x2000000.Idx → BitVec 32) slices_S2x2000000_S1x2000000_1_0) shapeCasts_S1x2000000_S2000000 := by
  after_results; rfl

theorem after0_c :
    (StableHlo.after (hostOps0 (F := F)) W (Proc.devRef .tc main_c) : S_.Idx → BitVec 32)
      = constantI S_ 32 100352#32 := by
  after_results

theorem after01_v4 :
    (StableHlo.after (hostOps0_1 (F := F)) W (Proc.devRef .tc main_v4) : S2000896.Idx → BitVec 32)
      = pad S2000896 ![0] ![896] ![0] (W (Proc.devRef .tc main_v3) : S2000000.Idx → BitVec 32) (W (Proc.devRef .tc main_c) : S_.Idx → BitVec 32) pads_S2000000_S2000896_08960 h_S_ := by
  after_results; rfl

theorem after02_v5 :
    (StableHlo.after (hostOps0_2 (F := F)) W (Proc.devRef .tc main_v5) : S1x2000896.Idx → BitVec 32)
      = shapeCast S1x2000896 (W (Proc.devRef .tc main_v4) : S2000896.Idx → BitVec 32) shapeCasts_S2000896_S1x2000896 := by
  after_results; rfl

theorem after02_c0 :
    (StableHlo.after (hostOps0_2 (F := F)) W (Proc.devRef .tc main_c_0) : S_.Idx → BitVec 32)
      = constantI S_ 32 100352#32 := by
  after_results

theorem after03_v6 :
    (StableHlo.after (hostOps0_3 (F := F)) W (Proc.devRef .tc main_v6) : S2000896.Idx → BitVec 32)
      = pad S2000896 ![0] ![896] ![0] (W (Proc.devRef .tc main_v1) : S2000000.Idx → BitVec 32) (W (Proc.devRef .tc main_c_0) : S_.Idx → BitVec 32) pads_S2000000_S2000896_08960 h_S_ := by
  after_results; rfl

theorem after04_v7 :
    (StableHlo.after (hostOps0_4 (F := F)) W (Proc.devRef .tc main_v7) : S1x2000896.Idx → BitVec 32)
      = shapeCast S1x2000896 (W (Proc.devRef .tc main_v6) : S2000896.Idx → BitVec 32) shapeCasts_S2000896_S1x2000896 := by
  after_results; rfl

theorem after04_v8 :
    (StableHlo.after (hostOps0_4 (F := F)) W (Proc.devRef .tc main_v8) : (⟨S100000x32, .bf16⟩ : BufTy).Contents (Elt F))
      = truncf .bf16 (W (Proc.devRef .tc main_arg0) : (⟨S100000x32, .f32⟩ : BufTy).Contents (Elt F)) bitsLt_bf16_f32 := by
  after_results

theorem after04_c1 :
    (StableHlo.after (hostOps0_4 (F := F)) W (Proc.devRef .tc main_c_1) : S_.Idx → BitVec 32)
      = constantI S_ 32 0#32 := by
  after_results

theorem after05_v9 :
    (StableHlo.after (hostOps0_5 (F := F)) W (Proc.devRef .tc main_v9) : (⟨S100352x32, .bf16⟩ : BufTy).Contents (Elt F))
      = pad S100352x32 ![0, 0] ![352, 0] ![0, 0] (W (Proc.devRef .tc main_v8) : (⟨S100000x32, .bf16⟩ : BufTy).Contents (Elt F))
          (sitofp (F := F) .bf16 (W (Proc.devRef .tc main_c_1) : S_.Idx → BitVec 32) : (⟨S_, .bf16⟩ : BufTy).Contents (Elt F))
          pads_S100000x32_S100352x32_03520_000 h_S_ := by
  after_results; rfl

theorem after2_v12 :
    (StableHlo.after (hostOps2 (F := F)) W (Proc.devRef .tc main_v12) : (⟨S100000x32, .f32⟩ : BufTy).Contents (Elt F))
      = extractStridedSlice S100000x32 ![0, 0] (W (Proc.devRef .tc main_v11) : (⟨S100352x32, .f32⟩ : BufTy).Contents (Elt F)) slices_S100352x32_S100000x32_0_0 := by
  after_results

end Stretches

/-! ## The layout operations read at an index -/

section Pure

/-- A one-axis array padded at the end by 896 copies of a word and then given a unit leading axis, read at a
    column: the array's entry inside its extent, the padding word past it. -/
theorem padCast_apply (x : S2000000.Idx → BitVec 32) (v : S_.Idx → BitVec 32) (e : Fin 2000896) :
    shapeCast S1x2000896 (pad S2000896 ![0] ![896] ![0] x v pads_S2000000_S2000896_08960 h_S_)
        shapeCasts_S2000896_S1x2000896 (ix2 (0 : Fin 1) e)
      = if h : e.val < 2000000 then x (ix1 (⟨e.val, h⟩ : Fin 2000000)) else v (Shape.Idx.first h_S_) := by
  rw [shapeCast_apply _ shapeCasts_S2000896_S1x2000896 (ix2 (0 : Fin 1) e) (ix1 e)
    (by rewrite [Shape.rowMajor_val_two, Shape.rowMajor_val_one]; show e.val = 0 * 2000896 + e.val; omega)]
  by_cases h : e.val < 2000000
  · rw [dif_pos h]
    exact pad_apply_of_inside ![0] ![896] ![0] x v pads_S2000000_S2000896_08960 h_S_ (ix1 e) (ix1 (⟨e.val, h⟩ : Fin 2000000))
      (fun a => match a with | ⟨0, _⟩ => by show e.val = 0 + e.val * (0 + 1); omega)
  · rw [dif_neg h]
    exact pad_apply_of_not_inside ![0] ![896] ![0] x v pads_S2000000_S2000896_08960 h_S_ (ix1 e) (0 : Fin 1)
      (by show ¬(0 ≤ e.val ∧ (e.val - 0) % (0 + 1) = 0 ∧ (e.val - 0) / (0 + 1) < 2000000); omega)

/-- Row 1 of the two-row integer array, flattened, read at an entry. -/
theorem sliceCast1_apply (x1 : S2x2000000.Idx → BitVec 32) (e : Fin 2000000) :
    shapeCast S2000000 (extractStridedSlice S1x2000000 ![1, 0] x1 slices_S2x2000000_S1x2000000_1_0)
        shapeCasts_S1x2000000_S2000000 (ix1 e) = x1 (ix2 (1 : Fin 2) e) := by
  rw [shapeCast_apply _ shapeCasts_S1x2000000_S2000000 (ix1 e) (ix2 (0 : Fin 1) e)
    (by rewrite [Shape.rowMajor_val_two, Shape.rowMajor_val_one]; show 0 * 2000000 + e.val = e.val; omega)]
  exact extractStridedSlice_apply ![1, 0] x1 slices_S2x2000000_S1x2000000_1_0 (ix2 (0 : Fin 1) e) (ix2 (1 : Fin 2) e)
    (fun a => match a with
      | ⟨0, _⟩ => by show 1 = 1 + 0; omega
      | ⟨1, _⟩ => by show e.val = 0 + e.val; omega)

/-- Row 0 of the two-row integer array, flattened, read at an entry. -/
theorem sliceCast0_apply (x1 : S2x2000000.Idx → BitVec 32) (e : Fin 2000000) :
    shapeCast S2000000 (extractStridedSlice S1x2000000 ![0, 0] x1 slices_S2x2000000_S1x2000000_0_0)
        shapeCasts_S1x2000000_S2000000 (ix1 e) = x1 (ix2 (0 : Fin 2) e) := by
  rw [shapeCast_apply _ shapeCasts_S1x2000000_S2000000 (ix1 e) (ix2 (0 : Fin 1) e)
    (by rewrite [Shape.rowMajor_val_two, Shape.rowMajor_val_one]; show 0 * 2000000 + e.val = e.val; omega)]
  exact extractStridedSlice_apply ![0, 0] x1 slices_S2x2000000_S1x2000000_0_0 (ix2 (0 : Fin 1) e) (ix2 (0 : Fin 2) e)
    (fun a => match a with
      | ⟨0, _⟩ => by show 0 = 0 + 0; omega
      | ⟨1, _⟩ => by show e.val = 0 + e.val; omega)

/-- A two-axis array padded below by 352 rows of one value, read at an entry: the array's entry inside its rows, the
    padding value past them. -/
theorem padRows_apply {α : Type} (x : S100000x32.Idx → α) (v : S_.Idx → α) (j : Fin 100352) (d : Fin 32) :
    pad S100352x32 ![0, 0] ![352, 0] ![0, 0] x v pads_S100000x32_S100352x32_03520_000 h_S_ (ix2 j d)
      = if h : j.val < 100000 then x (ix2 (⟨j.val, h⟩ : Fin 100000) d) else v (Shape.Idx.first h_S_) := by
  by_cases h : j.val < 100000
  · rw [dif_pos h]
    exact pad_apply_of_inside ![0, 0] ![352, 0] ![0, 0] x v pads_S100000x32_S100352x32_03520_000 h_S_ (ix2 j d)
      (ix2 (⟨j.val, h⟩ : Fin 100000) d)
      (fun a => match a with
        | ⟨0, _⟩ => by show j.val = 0 + j.val * (0 + 1); omega
        | ⟨1, _⟩ => by show d.val = 0 + d.val * (0 + 1); omega)
  · rw [dif_neg h]
    exact pad_apply_of_not_inside ![0, 0] ![352, 0] ![0, 0] x v pads_S100000x32_S100352x32_03520_000 h_S_ (ix2 j d) (0 : Fin 2)
      (by show ¬(0 ≤ j.val ∧ (j.val - 0) % (0 + 1) = 0 ∧ (j.val - 0) / (0 + 1) < 100000); omega)

/-- The leading 100000 rows of a 100352-row array, read at an entry. -/
theorem sliceRows_apply {α : Type} (y : S100352x32.Idx → α) (n : Fin 100000) (k : Fin 32) :
    extractStridedSlice S100000x32 ![0, 0] y slices_S100352x32_S100000x32_0_0 (ix2 n k)
      = y (ix2 (⟨n.val, by omega⟩ : Fin 100352) k) :=
  extractStridedSlice_apply ![0, 0] y slices_S100352x32_S100000x32_0_0 (ix2 n k) (ix2 (⟨n.val, by omega⟩ : Fin 100352) k)
    (fun a => match a with
      | ⟨0, _⟩ => by show n.val = 0 + n.val; omega
      | ⟨1, _⟩ => by show k.val = 0 + k.val; omega)

end Pure

/-! ## The host stretches' results at an index -/

section Vals
variable (m : (ℓ : Loc nD τ sig) → Buf (Elt F) ℓ) (outs : Outs (F := F)) (c : Dev nD)

/-- The padded source words at region 0's entry, read at a column: row 1 of the integer input inside the edge
    count, the word 100352 past it. -/
theorem V6_colp (e : Fin 2000896) :
    (V6 m c main_v5 : S1x2000896.Idx → BitVec 32) (ix2 (0 : Fin 1) e)
      = if h : e.val < 2000000 then
          (m ((c : Thread nD τ).loc main_arg1) : S2x2000000.Idx → BitVec 32) (ix2 (1 : Fin 2) (⟨e.val, h⟩ : Fin 2000000))
        else 100352#32 := by
  have h5 : V6 m c main_v5 = V3 m c main_v5 :=
    (V6_of m c main_v5 (by decide)).trans <| (V5_of m c main_v5 (by decide)).trans (V4_of m c main_v5 (by decide))
  have e5 : (V3 m c main_v5 : S1x2000896.Idx → BitVec 32)
      = shapeCast S1x2000896 (V2 m c main_v4 : S2000896.Idx → BitVec 32) shapeCasts_S2000896_S1x2000896 :=
    after02_v5 (V2 m c)
  have e4 : (V2 m c main_v4 : S2000896.Idx → BitVec 32)
      = pad S2000896 ![0] ![896] ![0] (V1 m c main_v3 : S2000000.Idx → BitVec 32) (V1 m c main_c : S_.Idx → BitVec 32)
          pads_S2000000_S2000896_08960 h_S_ := after01_v4 (V1 m c)
  have e3 : (V1 m c main_v3 : S2000000.Idx → BitVec 32)
      = shapeCast S2000000 (extractStridedSlice S1x2000000 ![1, 0]
          (m ((c : Thread nD τ).loc main_arg1) : S2x2000000.Idx → BitVec 32) slices_S2x2000000_S1x2000000_1_0)
          shapeCasts_S1x2000000_S2000000 := after0_v3 (V0 m c)
  have ec : (V1 m c main_c : S_.Idx → BitVec 32) = constantI S_ 32 100352#32 := after0_c (V0 m c)
  rw [h5, e5, e4, e3, ec, padCast_apply]
  by_cases h : e.val < 2000000
  · rw [dif_pos h, dif_pos h, sliceCast1_apply]
  · rw [dif_neg h, dif_neg h]; rfl

/-- The padded target words at region 0's entry, read at a column: row 0 of the integer input inside the edge
    count, the word 100352 past it. -/
theorem V6_rowp (e : Fin 2000896) :
    (V6 m c main_v7 : S1x2000896.Idx → BitVec 32) (ix2 (0 : Fin 1) e)
      = if h : e.val < 2000000 then
          (m ((c : Thread nD τ).loc main_arg1) : S2x2000000.Idx → BitVec 32) (ix2 (0 : Fin 2) (⟨e.val, h⟩ : Fin 2000000))
        else 100352#32 := by
  have h7 : V6 m c main_v7 = V5 m c main_v7 := V6_of m c main_v7 (by decide)
  have e7 : (V5 m c main_v7 : S1x2000896.Idx → BitVec 32)
      = shapeCast S1x2000896 (V4 m c main_v6 : S2000896.Idx → BitVec 32) shapeCasts_S2000896_S1x2000896 :=
    after04_v7 (V4 m c)
  have e6 : (V4 m c main_v6 : S2000896.Idx → BitVec 32)
      = pad S2000896 ![0] ![896] ![0] (V3 m c main_v1 : S2000000.Idx → BitVec 32) (V3 m c main_c_0 : S_.Idx → BitVec 32)
          pads_S2000000_S2000896_08960 h_S_ := after03_v6 (V3 m c)
  have h1 : V3 m c main_v1 = V1 m c main_v1 := (V3_of m c main_v1 (by decide)).trans (V2_of m c main_v1 (by decide))
  have e1 : (V1 m c main_v1 : S2000000.Idx → BitVec 32)
      = shapeCast S2000000 (extractStridedSlice S1x2000000 ![0, 0]
          (m ((c : Thread nD τ).loc main_arg1) : S2x2000000.Idx → BitVec 32) slices_S2x2000000_S1x2000000_0_0)
          shapeCasts_S1x2000000_S2000000 := after0_v1 (V0 m c)
  have ec : (V3 m c main_c_0 : S_.Idx → BitVec 32) = constantI S_ 32 100352#32 := after02_c0 (V2 m c)
  rw [h7, e7, e6, h1, e1, ec, padCast_apply]
  by_cases h : e.val < 2000000
  · rw [dif_pos h, dif_pos h, sliceCast0_apply]
  · rw [dif_neg h, dif_neg h]; rfl

/-- Region 0 leaves the padded target words as they were. -/
theorem V7_rowp : V7 m outs c main_v7 = V6 m c main_v7 := V7_of m outs c main_v7 (by decide)

/-- Region 0's output array after it. -/
theorem V7_msgs : V7 m outs c main_v10 = outs 7 main_v10 c := Function.update_self _ _ _

/-- Region 1's output array after it. -/
theorem V8_out : V8 m outs c main_v11 = outs 8 main_v11 c := Function.update_self _ _ _

/-- The program's result, read at an entry: region 1's output at the same entry. -/
theorem V9_result (n : Fin 100000) (k : Fin 32) :
    (V9 m outs c main_v12 : S100000x32.Idx → Elt F .f32) (ix2 n k)
      = (outs 8 main_v11 c : S100352x32.Idx → Elt F .f32) (ix2 (⟨n.val, by omega⟩ : Fin 100352) k) := by
  have e12 : (V9 m outs c main_v12 : (⟨S100000x32, .f32⟩ : BufTy).Contents (Elt F))
      = extractStridedSlice S100000x32 ![0, 0] (V8 m outs c main_v11 : (⟨S100352x32, .f32⟩ : BufTy).Contents (Elt F))
          slices_S100352x32_S100000x32_0_0 := after2_v12 (V8 m outs c)
  rw [e12, V8_out, sliceRows_apply]

end Vals

section ValsIdeal
variable (m : (ℓ : Loc nD τ sig) → Buf (Elt Ideal) ℓ) (c : Dev nD)

/-- The padded feature rows at region 0's entry, read at an entry, at exact arithmetic: the float input inside the
    node count (the conversion to the narrower format is the identity there), zero in the 352 rows past it. -/
theorem V6_xp (j : Fin 100352) (d : Fin 32) :
    (V6 (F := Ideal) m c main_v9 : S100352x32.Idx → EReal) (ix2 j d)
      = if h : j.val < 100000 then
          (m ((c : Thread nD τ).loc main_arg0) : S100000x32.Idx → EReal) (ix2 (⟨j.val, h⟩ : Fin 100000) d)
        else (0 : EReal) := by
  have e9 : (V6 (F := Ideal) m c main_v9 : (⟨S100352x32, .bf16⟩ : BufTy).Contents (Elt Ideal))
      = pad S100352x32 ![0, 0] ![352, 0] ![0, 0] (V5 (F := Ideal) m c main_v8 : (⟨S100000x32, .bf16⟩ : BufTy).Contents (Elt Ideal))
          (sitofp (F := Ideal) .bf16 (V5 (F := Ideal) m c main_c_1 : S_.Idx → BitVec 32) : (⟨S_, .bf16⟩ : BufTy).Contents (Elt Ideal))
          pads_S100000x32_S100352x32_03520_000 h_S_ := after05_v9 (V5 m c)
  have e8 : (V5 (F := Ideal) m c main_v8 : (⟨S100000x32, .bf16⟩ : BufTy).Contents (Elt Ideal))
      = truncf (F := Ideal) .bf16 (V4 (F := Ideal) m c main_arg0 : (⟨S100000x32, .f32⟩ : BufTy).Contents (Elt Ideal)) bitsLt_bf16_f32 :=
    after04_v8 (V4 m c)
  have ec : (V5 (F := Ideal) m c main_c_1 : S_.Idx → BitVec 32) = constantI S_ 32 0#32 := after04_c1 (V4 m c)
  have h0 : V4 (F := Ideal) m c main_arg0 = m ((c : Thread nD τ).loc main_arg0) :=
    (V4_of m c main_arg0 (by decide)).trans <| (V3_of m c main_arg0 (by decide)).trans <|
      (V2_of m c main_arg0 (by decide)).trans <| (V1_of m c main_arg0 (by decide)).trans rfl
  rw [e9, e8, ec, h0, padRows_apply]
  by_cases h : j.val < 100000
  · rw [dif_pos h, dif_pos h]; rfl
  · rw [dif_neg h, dif_neg h]
    show (((0#32 : BitVec 32).toInt : ℝ) : EReal) = 0
    simp

end ValsIdeal

end Cert.KernelIdeal.Hand

end
-- ==== Proof.KI.Pay.lean ====
/-
  The kernel bodies' arithmetic read at an index, at the ideal instance (a float is an extended real, every operation
  exact, a change of float format the identity).

  Both bodies build a one-hot matrix over [2048, 2048] — entry (a, b) is one where the word "a plus the tile's base"
  equals the b-th index word of the loaded index row, zero elsewhere — and multiply it with the loaded tile into the
  loaded accumulator. The gather body contracts the matrix's FIRST axis against the tile's rows (the matrix enters
  transposed): its result row is the index row's position. The scatter body is the plain product: its result row is
  the matrix's row.
-/
import proofs.«408629_j68848325755642_1_alg».proof.Proof.Gen.KernelIdeal.Skeleton
import proofs.«408629_j68848325755642_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx Cert.KernelIdeal Cert.KernelIdeal.Gen Cert.Spec
open scoped BigOperators

/-! ## The accumulator's reset and the gather's write-out -/

/-- The reset payload of the gather body is zero everywhere. -/
theorem pay0_reset (j : S2048x32.Idx) : k0_pay1 (F := Ideal) j = 0 := by
  unfold Gen.k0_pay1
  rw [shapeCast_self]
  show Ideal.ofBits .f32 0x00000000#32 = 0
  exact Ideal.ofBits_zero_f32

/-- The write-out payload of the gather body is the accumulator: narrowing the format changes nothing. -/
theorem pay0_out (v26 : Vec Ideal S2048x32 .f32) (j : S2048x32.Idx) : k0_pay3 (F := Ideal) v26 j = v26 j := rfl

/-- The reset payload of the scatter body is zero everywhere. -/
theorem pay1_reset (j : S2048x32.Idx) : k1_pay1 (F := Ideal) j = 0 := by
  unfold Gen.k1_pay1
  rw [shapeCast_self]
  show Ideal.ofBits .f32 0x00000000#32 = 0
  exact Ideal.ofBits_zero_f32

/-! ## The one-hot matrix at an entry -/

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The comparison bit of two words, widened and read as a signed integer, is the one-hot entry. -/
theorem sitofp_cmpi_eq (x y : BitVec 32) :
    (FloatOps.sitofp (F := Ideal) .f32 ((IntOp.cmpi .eq x y).setWidth 32) : EReal) = oh x y := by
  show ((((IntOp.cmpi .eq x y).setWidth 32).toInt : ℝ) : EReal) = oh x y
  unfold oh IntOp.cmpi
  by_cases h : x = y
  · subst h
    have e : (BitVec.setWidth 32 (BitVec.ofBool (x == x))).toInt = 1 := by simp
    rw [e, if_pos rfl]; simp
  · have hb : (x == y) = false := by simp [h]
    have e : (BitVec.setWidth 32 (BitVec.ofBool (x == y))).toInt = 0 := by rw [hb]; rfl
    rw [e, if_neg h]; simp

/-- The one-hot matrix both bodies build from the tile's base word and the loaded index row: the column of row numbers
    plus the base, and the index row, each broadcast to the square and compared; the bit widened, converted, narrowed. -/
def hot (base : BitVec 32) (v7 : Vec Ideal S1x2048 .i32) : FVec Ideal S2048x2048 .bf16 :=
  truncf .bf16 (sitofp .f32 (extui 32 (cmpi .eq
    (broadcastTo S2048x2048 (addi (iota .tc S2048x1 32 [0] iota_S2048x1_d0_w32) (broadcast S2048x1 base)) broadcasts_S2048x1_S2048x2048)
    (broadcastTo S2048x2048 v7 broadcasts_S1x2048_S2048x2048)) natLt_1_32)) bitsLt_bf16_f32

/-- Its entry at `(a, b)`: one where row number `a` plus the base is the index row's `b`-th word. -/
theorem hot_apply (base : BitVec 32) (v7 : Vec Ideal S1x2048 .i32) (a b : Fin 2048) :
    hot base v7 (ix2 a b) = oh (BitVec.ofNat 32 a.val + base) (v7 (ix2 (0 : Fin 1) b)) := by
  unfold hot
  rw [truncf_apply, sitofp_apply, extui_apply]
  show FloatOps.sitofp (F := Ideal) .f32 ((IntOp.cmpi .eq
    (broadcastTo S2048x2048 (addi (iota .tc S2048x1 32 [0] iota_S2048x1_d0_w32) (broadcast S2048x1 base)) broadcasts_S2048x1_S2048x2048 (ix2 a b))
    (broadcastTo S2048x2048 v7 broadcasts_S1x2048_S2048x2048 (ix2 a b))).setWidth 32) = _
  rw [broadcastTo_a1_ab_apply, broadcastTo_1b_ab_apply, sitofp_cmpi_eq]
  show oh (IntOp.addi (iota .tc S2048x1 32 [0] iota_S2048x1_d0_w32 (ix2 a (0 : Fin 1))) base) _ = _
  rw [iota_single_apply]
  rfl

/-! ## The gather body's product: the matrix's first axis against the tile's rows -/

theorem lhsG_0 (j : S2048x32.Idx) (k : dot_S2048x2048_S2048x32_S2048x32_0_0_1_1_n_n.contr.Idx) :
    (dot_S2048x2048_S2048x32_S2048x32_0_0_1_1_n_n.lhsIdx j k 0 : ℕ) = k ⟨0, by decide⟩ := by
  simp [DotDims.lhsIdx, dot_S2048x2048_S2048x32_S2048x32_0_0_1_1_n_n]; rfl
theorem lhsG_1 (j : S2048x32.Idx) (k : dot_S2048x2048_S2048x32_S2048x32_0_0_1_1_n_n.contr.Idx) :
    (dot_S2048x2048_S2048x32_S2048x32_0_0_1_1_n_n.lhsIdx j k 1 : ℕ) = j 0 := by
  simp [DotDims.lhsIdx, dot_S2048x2048_S2048x32_S2048x32_0_0_1_1_n_n]; rfl
theorem rhsG_0 (j : S2048x32.Idx) (k : dot_S2048x2048_S2048x32_S2048x32_0_0_1_1_n_n.contr.Idx) :
    (dot_S2048x2048_S2048x32_S2048x32_0_0_1_1_n_n.rhsIdx j k 0 : ℕ) = k ⟨0, by decide⟩ := by
  simp [DotDims.rhsIdx, dot_S2048x2048_S2048x32_S2048x32_0_0_1_1_n_n]; rfl
theorem rhsG_1 (j : S2048x32.Idx) (k : dot_S2048x2048_S2048x32_S2048x32_0_0_1_1_n_n.contr.Idx) :
    (dot_S2048x2048_S2048x32_S2048x32_0_0_1_1_n_n.rhsIdx j k 1 : ℕ) = j 1 := by
  simp [DotDims.rhsIdx, dot_S2048x2048_S2048x32_S2048x32_0_0_1_1_n_n]; rfl

/-- The gather body's accumulating payload at `(r, d)`: the accumulator plus, over the tile's rows `q`, the one-hot
    entry "row `q` plus the base is the `r`-th index word" times the tile at `(q, d)`. -/
theorem pay0_apply (i : grid0.Coords) (v7 : Vec Ideal S1x2048 .i32) (v15 : Vec Ideal S2048x32 .bf16) (v18 : Vec Ideal S2048x32 .f32)
    (r : Fin 2048) (d : Fin 32) :
    k0_pay2 (F := Ideal) i v7 v15 v18 (ix2 r d)
      = v18 (ix2 r d) + ∑ q : Fin 2048, oh (BitVec.ofNat 32 q.val + BitVec.ofNat 32 (i 1).val * 2048#32) (v7 (ix2 (0 : Fin 1) r)) * v15 (ix2 q d) := by
  have e : k0_pay2 (F := Ideal) i v7 v15 v18
      = addf (F := Ideal) (φ := .f32) v18 (FloatOps.matmul (φ₁ := .bf16) (φ₂ := .bf16) dot_S2048x2048_S2048x32_S2048x32_0_0_1_1_n_n none (hot (BitVec.ofNat 32 (i 1).val * 2048#32) v7) v15 (constant (F := Ideal) S2048x32 .f32 0x00000000#32)) := by
    unfold Gen.k0_pay2 hot
    simp only [shapeCast_self]
    rfl
  rw [e, addf_apply, Ideal.matmul_constant_zero_apply,
    ← Equiv.sum_comp (contrEquiv1 dot_S2048x2048_S2048x32_S2048x32_0_0_1_1_n_n 2048 rfl rfl).symm]
  congr 1
  refine Finset.sum_congr rfl fun q _ => ?_
  have hl : dot_S2048x2048_S2048x32_S2048x32_0_0_1_1_n_n.lhsIdx (ix2 r d) ((contrEquiv1 dot_S2048x2048_S2048x32_S2048x32_0_0_1_1_n_n 2048 rfl rfl).symm q) = ix2 q r := by
    funext a
    refine Fin.ext ?_
    match a with
    | ⟨0, _⟩ => exact (lhsG_0 _ _).trans (contrEquiv1_symm_val dot_S2048x2048_S2048x32_S2048x32_0_0_1_1_n_n 2048 rfl rfl q)
    | ⟨1, _⟩ => exact lhsG_1 _ _
  have hr : dot_S2048x2048_S2048x32_S2048x32_0_0_1_1_n_n.rhsIdx (ix2 r d) ((contrEquiv1 dot_S2048x2048_S2048x32_S2048x32_0_0_1_1_n_n 2048 rfl rfl).symm q) = ix2 q d := by
    funext a
    refine Fin.ext ?_
    match a with
    | ⟨0, _⟩ => exact (rhsG_0 _ _).trans (contrEquiv1_symm_val dot_S2048x2048_S2048x32_S2048x32_0_0_1_1_n_n 2048 rfl rfl q)
    | ⟨1, _⟩ => exact rhsG_1 _ _
  rw [hl, hr, hot_apply]

/-! ## The scatter body's product: the matrix's rows against the tile's rows -/

theorem lhsS_0 (j : S2048x32.Idx) (k : dot_S2048x2048_S2048x32_S2048x32_1_0_0_1_n_n.contr.Idx) :
    (dot_S2048x2048_S2048x32_S2048x32_1_0_0_1_n_n.lhsIdx j k 0 : ℕ) = j 0 := by
  simp [DotDims.lhsIdx, dot_S2048x2048_S2048x32_S2048x32_1_0_0_1_n_n]; rfl
theorem lhsS_1 (j : S2048x32.Idx) (k : dot_S2048x2048_S2048x32_S2048x32_1_0_0_1_n_n.contr.Idx) :
    (dot_S2048x2048_S2048x32_S2048x32_1_0_0_1_n_n.lhsIdx j k 1 : ℕ) = k ⟨0, by decide⟩ := by
  simp [DotDims.lhsIdx, dot_S2048x2048_S2048x32_S2048x32_1_0_0_1_n_n]; rfl
theorem rhsS_0 (j : S2048x32.Idx) (k : dot_S2048x2048_S2048x32_S2048x32_1_0_0_1_n_n.contr.Idx) :
    (dot_S2048x2048_S2048x32_S2048x32_1_0_0_1_n_n.rhsIdx j k 0 : ℕ) = k ⟨0, by decide⟩ := by
  simp [DotDims.rhsIdx, dot_S2048x2048_S2048x32_S2048x32_1_0_0_1_n_n]; rfl
theorem rhsS_1 (j : S2048x32.Idx) (k : dot_S2048x2048_S2048x32_S2048x32_1_0_0_1_n_n.contr.Idx) :
    (dot_S2048x2048_S2048x32_S2048x32_1_0_0_1_n_n.rhsIdx j k 1 : ℕ) = j 1 := by
  simp [DotDims.rhsIdx, dot_S2048x2048_S2048x32_S2048x32_1_0_0_1_n_n]; rfl

/-- The scatter body's accumulating payload at `(p, d)`: the accumulator plus, over the tile's rows `r`, the one-hot
    entry "row `p` plus the base is the `r`-th index word" times the tile at `(r, d)`. -/
theorem pay1_apply (i : grid1.Coords) (v7 : Vec Ideal S1x2048 .i32) (v15 : Vec Ideal S2048x32 .bf16) (v18 : Vec Ideal S2048x32 .f32)
    (p : Fin 2048) (d : Fin 32) :
    k1_pay2 (F := Ideal) i v7 v15 v18 (ix2 p d)
      = v18 (ix2 p d) + ∑ r : Fin 2048, oh (BitVec.ofNat 32 p.val + BitVec.ofNat 32 (i 0).val * 2048#32) (v7 (ix2 (0 : Fin 1) r)) * v15 (ix2 r d) := by
  have e : k1_pay2 (F := Ideal) i v7 v15 v18
      = addf (F := Ideal) (φ := .f32) v18 (FloatOps.matmul (φ₁ := .bf16) (φ₂ := .bf16) dot_S2048x2048_S2048x32_S2048x32_1_0_0_1_n_n none (hot (BitVec.ofNat 32 (i 0).val * 2048#32) v7) v15 (constant (F := Ideal) S2048x32 .f32 0x00000000#32)) := by
    unfold Gen.k1_pay2 hot
    simp only [shapeCast_self]
    rfl
  rw [e, addf_apply, Ideal.matmul_constant_zero_apply,
    ← Equiv.sum_comp (contrEquiv1 dot_S2048x2048_S2048x32_S2048x32_1_0_0_1_n_n 2048 rfl rfl).symm]
  congr 1
  refine Finset.sum_congr rfl fun r _ => ?_
  have hl : dot_S2048x2048_S2048x32_S2048x32_1_0_0_1_n_n.lhsIdx (ix2 p d) ((contrEquiv1 dot_S2048x2048_S2048x32_S2048x32_1_0_0_1_n_n 2048 rfl rfl).symm r) = ix2 p r := by
    funext a
    refine Fin.ext ?_
    match a with
    | ⟨0, _⟩ => exact lhsS_0 _ _
    | ⟨1, _⟩ => exact (lhsS_1 _ _).trans (contrEquiv1_symm_val dot_S2048x2048_S2048x32_S2048x32_1_0_0_1_n_n 2048 rfl rfl r)
  have hr : dot_S2048x2048_S2048x32_S2048x32_1_0_0_1_n_n.rhsIdx (ix2 p d) ((contrEquiv1 dot_S2048x2048_S2048x32_S2048x32_1_0_0_1_n_n 2048 rfl rfl).symm r) = ix2 r d := by
    funext a
    refine Fin.ext ?_
    match a with
    | ⟨0, _⟩ => exact (rhsS_0 _ _).trans (contrEquiv1_symm_val dot_S2048x2048_S2048x32_S2048x32_1_0_0_1_n_n 2048 rfl rfl r)
    | ⟨1, _⟩ => exact rhsS_1 _ _
  rw [hl, hr, hot_apply]

end Cert.KernelIdeal.Hand

end
-- ==== Proof.OneHot.lean ====
/-
  Sums against one-hot vectors over tiled index ranges, on the extended reals.

  A one-hot entry is one where two 32-bit words agree and zero elsewhere. Multiplying by zero gives zero and by one
  gives the other factor for every extended real, the infinities included, so no finiteness condition appears.
-/
import proofs.«408629_j68848325755642_1_alg».proof.Proof.Spec
import Mathlib.Algebra.BigOperators.Fin
import Mathlib.Logic.Equiv.Fin.Basic
import Mathlib.Data.EReal.Basic

noncomputable section

namespace Cert.OneHot

open Cert.Spec
open scoped BigOperators

/-- word arithmetic: tile base plus offset -/
theorem ofNat_tile (a q B : ℕ) :
    BitVec.ofNat 32 q + BitVec.ofNat 32 a * BitVec.ofNat 32 B = BitVec.ofNat 32 (a * B + q) := by
  rw [← BitVec.ofNat_mul, ← BitVec.ofNat_add, Nat.add_comm]

/-- a word equal to a small number: the word of `n` is `w` exactly when `w` read as a number is `n` -/
theorem ofNat_eq_iff (n : ℕ) (hn : n < 2 ^ 32) (w : BitVec 32) : BitVec.ofNat 32 n = w ↔ w.toNat = n := by
  constructor
  · intro h
    rw [← h, BitVec.toNat_ofNat]
    exact Nat.mod_eq_of_lt hn
  · intro h
    apply BitVec.eq_of_toNat_eq
    rw [BitVec.toNat_ofNat, h]
    exact Nat.mod_eq_of_lt hn

/-- a flat one-hot selection: among the words of `0 … n-1` exactly the one at `w` read as a number equals `w`,
when that number is below `n` -/
theorem sum_oh_flat (n : ℕ) (hn : n ≤ 2 ^ 32) (w : BitVec 32) (f : ℕ → EReal) :
    ∑ j : Fin n, oh (BitVec.ofNat 32 j.val) w * f j.val = if w.toNat < n then f w.toNat else 0 := by
  by_cases hw : w.toNat < n
  · rw [if_pos hw]
    rw [Finset.sum_eq_single_of_mem (⟨w.toNat, hw⟩ : Fin n) (Finset.mem_univ _)]
    · have : BitVec.ofNat 32 w.toNat = w := (ofNat_eq_iff _ (lt_of_lt_of_le hw hn) w).2 rfl
      simp only [oh, this, if_true, one_mul]
    · intro j _ hj
      have hne : ¬ BitVec.ofNat 32 j.val = w := by
        intro h
        apply hj
        have := (ofNat_eq_iff j.val (lt_of_lt_of_le j.isLt hn) w).1 h
        exact Fin.ext this.symm
      simp only [oh, if_neg hne, zero_mul]
  · rw [if_neg hw]
    apply Finset.sum_eq_zero
    intro j _
    have hne : ¬ BitVec.ofNat 32 j.val = w := by
      intro h
      apply hw
      have := (ofNat_eq_iff j.val (lt_of_lt_of_le j.isLt hn) w).1 h
      rw [this]
      exact j.isLt
    simp only [oh, if_neg hne, zero_mul]

/-- a double sum over `A` tiles of `B` is the flat sum over `A * B` -/
theorem sum_tiles (A B : ℕ) (h : ℕ → EReal) :
    ∑ a : Fin A, ∑ q : Fin B, h (a.val * B + q.val) = ∑ j : Fin (A * B), h j.val := by
  rw [← Fintype.sum_prod_type' (f := fun (a : Fin A) (q : Fin B) => h (a.val * B + q.val))]
  rw [← Equiv.sum_comp (finProdFinEquiv (m := A) (n := B)) (fun j : Fin (A * B) => h j.val)]
  apply Finset.sum_congr rfl
  intro x _
  congr 1
  show x.1.val * B + x.2.val = x.2.val + B * x.1.val
  rw [Nat.mul_comm, Nat.add_comm]

/-- the gather: one-hot rows against a table, tile by tile -/
theorem sum_tiles_oh (A B : ℕ) (hAB : A * B ≤ 2 ^ 32) (w : BitVec 32) (f : ℕ → EReal) :
    ∑ a : Fin A, ∑ q : Fin B,
        oh (BitVec.ofNat 32 q.val + BitVec.ofNat 32 a.val * BitVec.ofNat 32 B) w * f (a.val * B + q.val)
      = if w.toNat < A * B then f w.toNat else 0 := by
  simp only [ofNat_tile]
  rw [sum_tiles A B (fun j => oh (BitVec.ofNat 32 j) w * f j)]
  exact sum_oh_flat (A * B) hAB w f

/-- the scatter: a fixed word against a list of words, tile by tile -/
theorem sum_tiles_sel (A B : ℕ) (v : BitVec 32) (g : ℕ → BitVec 32) (msg : ℕ → EReal) :
    ∑ a : Fin A, ∑ r : Fin B, oh v (g (a.val * B + r.val)) * msg (a.val * B + r.val)
      = ∑ e : Fin (A * B), if v = g e.val then msg e.val else 0 := by
  rw [sum_tiles A B (fun j => oh v (g j) * msg j)]
  apply Finset.sum_congr rfl
  intro e _
  by_cases hv : v = g e.val
  · simp only [oh, if_pos hv, one_mul]
  · simp only [oh, if_neg hv, zero_mul]

/-- a tail of zero terms drops -/
theorem sum_drop_tail (M P : ℕ) (h : ℕ → EReal) (hz : ∀ e, M ≤ e → e < M + P → h e = 0) :
    ∑ e : Fin (M + P), h e.val = ∑ e : Fin M, h e.val := by
  rw [Fin.sum_univ_add]
  have htail : ∑ i : Fin P, h (Fin.natAdd M i).val = 0 := by
    apply Finset.sum_eq_zero
    intro i _
    apply hz
    · simp only [Fin.coe_natAdd]
      exact Nat.le_add_right _ _
    · simp only [Fin.coe_natAdd]
      exact Nat.add_lt_add_left i.isLt _
  rw [htail, add_zero]
  rfl

end Cert.OneHot

end
-- ==== Proof.KI.Val0.lean ====
/-
  Region 0 (the gather) at the ideal instance: the value it leaves in its output array, as one function of the
  contents `V` of the core's buffers when the region is entered.

  Point `t` of the grid (977 edge tiles by 49 node tiles, the node tile fastest) reads rows `(t % 49)·2048 …` of the
  padded feature table and entries `(t / 49)·2048 …` of the padded source-index row. Along a run of 49 points the
  accumulator gathers, for edge `r` of the tile, the one-hot products over all 49·2048 = 100352 rows of the table:
  the row the edge's index word names, or zero when the word names no row. The last point of each run stores the
  accumulator into the edge tile's block of the output; those blocks tile the output array.
-/
import proofs.«408629_j68848325755642_1_alg».proof.Proof.KI.Dat0
import proofs.«408629_j68848325755642_1_alg».proof.Proof.KI.Pay
import proofs.«408629_j68848325755642_1_alg».proof.Proof.OneHot
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Spec Cert.OneHot
open scoped BigOperators

variable (V : (c : Dev nD) → (b : Ref sig .tc) → Buf (Elt Ideal) ((c : Thread nD τ).loc b)) (c : Dev nD)

/-! ## The input blocks at a point, read off the arrays -/

/-- The feature tile at point `t` is rows `(t % 49)·2048 …` of the padded feature table. -/
theorem xblk0_apply (t : Fin cfg0.N) (q : Fin 2048) (d : Fin 32) :
    xblk0 (F := Ideal) V c t (ix2 q d)
      = (V c main_v9 : S100352x32.Idx → EReal) (ix2 (⟨(t.val % 49) * 2048 + q.val, by have := q.isLt; omega⟩ : Fin 100352) d) := by
  show (V c main_v9 : S100352x32.Idx → EReal) (((cfg0.win 0).blk t).view.emb (ix2 q d)) = _
  refine congrArg _ (funext fun a => Fin.ext ?_)
  match a with
  | ⟨0, _⟩ =>
    show (cfg0.win 0).index t 0 * 2048 + 1 * q.val = (t.val % 49) * 2048 + q.val
    rw [index0_0]; show (t.val % 49) * 2048 + 1 * q.val = _; omega
  | ⟨1, _⟩ =>
    show (cfg0.win 0).index t 1 * 32 + 1 * d.val = d.val
    rw [index0_0]; show 0 * 32 + 1 * d.val = _; omega

/-- The index tile at point `t` is entries `(t / 49)·2048 …` of the padded source-index row. -/
theorem cblk0_apply (t : Fin cfg0.N) (r : Fin 2048) :
    cblk0 (F := Ideal) V c t (ix2 (0 : Fin 1) r)
      = (V c main_v5 : S1x2000896.Idx → BitVec 32) (ix2 (0 : Fin 1) (⟨(t.val / 49) * 2048 + r.val, by
          have := r.isLt; have : t.val < 47873 := lt_of_lt_of_eq t.isLt N_0; omega⟩ : Fin 2000896)) := by
  show (V c main_v5 : S1x2000896.Idx → BitVec 32) (((cfg0.win 1).blk t).view.emb (ix2 (0 : Fin 1) r)) = _
  refine congrArg _ (funext fun a => Fin.ext ?_)
  match a with
  | ⟨0, _⟩ =>
    show (cfg0.win 1).index t 0 * 1 + 1 * 0 = 0
    rw [index0_1]; show 0 * 1 + 1 * 0 = 0; omega
  | ⟨1, _⟩ =>
    show (cfg0.win 1).index t 1 * 2048 + 1 * r.val = (t.val / 49) * 2048 + r.val
    rw [index0_1]; show (t.val / 49) * 2048 + 1 * r.val = _; omega

end Cert.KernelIdeal.Hand

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Spec Cert.OneHot
open scoped BigOperators

variable (V : (c : Dev nD) → (b : Ref sig .tc) → Buf (Elt Ideal) ((c : Thread nD τ).loc b)) (c : Dev nD)

/-! ## The accumulator along a run of 49 points -/

/-- The index word of edge number `e`, as a function of every natural (zero past the row). -/
def idxw : ℕ → BitVec 32 := fun e =>
  if h : e < 2000896 then (V c main_v5 : S1x2000896.Idx → BitVec 32) (ix2 (0 : Fin 1) (⟨e, h⟩ : Fin 2000896)) else 0

/-- Column `d` of the padded feature table, as a function of every natural (zero past the table). -/
def tab (d : Fin 32) : ℕ → EReal := fun j =>
  if h : j < 100352 then (V c main_v9 : S100352x32.Idx → EReal) (ix2 (⟨j, h⟩ : Fin 100352) d) else 0

theorem idxw_of_lt (e : ℕ) (h : e < 2000896) :
    idxw V c e = (V c main_v5 : S1x2000896.Idx → BitVec 32) (ix2 (0 : Fin 1) (⟨e, h⟩ : Fin 2000896)) := dif_pos h

theorem tab_of_lt (d : Fin 32) (j : ℕ) (h : j < 100352) :
    tab V c d j = (V c main_v9 : S100352x32.Idx → EReal) (ix2 (⟨j, h⟩ : Fin 100352) d) := dif_pos h

/-- The body at position `n` adds, at `(r, d)`, the one-hot products of node tile `n % 49` against the index word of
    edge `(n / 49)·2048 + r`. -/
theorem body_add (n : ℕ) (hn : n < cfg0.N) (v18 : Vec Ideal S2048x32 .f32) (r : Fin 2048) (d : Fin 32) :
    k0_pay2 (F := Ideal) (grid0.coords ⟨n, hn⟩) (cblk0 V c ⟨n, hn⟩) (xblk0 V c ⟨n, hn⟩) v18 (ix2 r d)
      = v18 (ix2 r d) + ∑ q : Fin 2048,
          oh (BitVec.ofNat 32 q.val + BitVec.ofNat 32 (n % 49) * BitVec.ofNat 32 2048) (idxw V c ((n / 49) * 2048 + r.val))
            * tab V c d ((n % 49) * 2048 + q.val) := by
  have hN : n < 47873 := lt_of_lt_of_eq hn N_0
  rw [pay0_apply, coords0_1, cblk0_apply, idxw_of_lt V c ((n / 49) * 2048 + r.val) (by have := r.isLt; omega)]
  refine congrArg _ (Finset.sum_congr rfl fun q _ => ?_)
  rw [xblk0_apply, tab_of_lt V c d ((n % 49) * 2048 + q.val) (by have := q.isLt; omega)]

/-- After position `E·49 + j` the accumulator holds, at `(r, d)`, the one-hot products of node tiles `0 … j` against the
    index word of edge `E·2048 + r`. -/
theorem acc0_run (E : ℕ) (r : Fin 2048) (d : Fin 32) :
    ∀ j : ℕ, j < 49 → ∀ (n : ℕ) (hn : n < cfg0.N), n = E * 49 + j →
      acc0 (F := Ideal) V c n hn (ix2 r d)
        = ∑ a ∈ Finset.range (j + 1), ∑ q : Fin 2048,
            oh (BitVec.ofNat 32 q.val + BitVec.ofNat 32 a * BitVec.ofNat 32 2048) (idxw V c (E * 2048 + r.val))
              * tab V c d (a * 2048 + q.val) := by
  intro j
  induction j with
  | zero =>
    intro _ n hn e
    have hm : n % 49 = 0 := by omega
    have hd : n / 49 = E := by omega
    rw [acc0_first V c ⟨n, hn⟩ hm, body_add V c n hn _ r d, pay0_reset, zero_add, Finset.sum_range_one, hm, hd]
  | succ j ih =>
    intro hj n hn e
    have hm : n % 49 = j + 1 := by omega
    have hd : n / 49 = E := by omega
    have h0 : ¬ n % 49 = 0 := by omega
    rw [acc0_step V c ⟨n, hn⟩ h0, body_add V c n hn _ r d, ih (by omega) (n - 1) _ (by omega),
      Finset.sum_range_succ _ (j + 1), hm, hd]

/-- At the last point of a run the accumulator holds the feature row the edge's index word names, or zero when the
    word names no row of the padded table. -/
theorem acc0_last (t : Fin cfg0.N) (h : t.val % 49 = 48) (r : Fin 2048) (d : Fin 32) :
    (acc0 (F := Ideal) V c t.val t.isLt (ix2 r d) : EReal)
      = if hw : (idxw V c ((t.val / 49) * 2048 + r.val)).toNat < 100352
        then (V c main_v9 : S100352x32.Idx → EReal) (ix2 (⟨(idxw V c ((t.val / 49) * 2048 + r.val)).toNat, hw⟩ : Fin 100352) d) else (0 : EReal) := by
  rw [acc0_run V c (t.val / 49) r d 48 (by omega) t.val t.isLt (by omega)]
  refine ((Finset.sum_range _).trans (sum_tiles_oh 49 2048 (by norm_num) (idxw V c ((t.val / 49) * 2048 + r.val)) (tab V c d))).trans ?_
  by_cases hw : (idxw V c ((t.val / 49) * 2048 + r.val)).toNat < 100352
  · rw [dif_pos hw, if_pos (by omega), tab_of_lt V c d _ hw]
  · rw [dif_neg hw, if_neg (by omega)]

end Cert.KernelIdeal.Hand

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Spec Cert.OneHot
open scoped BigOperators

variable (V : (c : Dev nD) → (b : Ref sig .tc) → Buf (Elt Ideal) ((c : Thread nD τ).loc b)) (c : Dev nD)

/-! ## From the blocks to the array -/

/-- The gathered messages: row `e` is the feature row the `e`-th index word names, zero when it names no row of the
    padded table. -/
def msgArr : S2000896x32.Idx → EReal := fun i =>
  if h : ((V c main_v5 : S1x2000896.Idx → BitVec 32) (ix2 (0 : Fin 1) (i 0))).toNat < 100352
  then (V c main_v9 : S100352x32.Idx → EReal)
    (ix2 (⟨((V c main_v5 : S1x2000896.Idx → BitVec 32) (ix2 (0 : Fin 1) (i 0))).toNat, h⟩ : Fin 100352) (i 1))
  else (0 : EReal)

/-- Where an element of the output block at point `t` sits in the output array. -/
theorem emb0_2 (t : Fin cfg0.N) (r : Fin 2048) (d : Fin 32) :
    ((cfg0.win 2).blk t).view.emb (ix2 r d)
      = (ix2 (⟨(t.val / 49) * 2048 + r.val, by
          have := r.isLt; have : t.val < 47873 := lt_of_lt_of_eq t.isLt N_0; omega⟩ : Fin 2000896) d : S2000896x32.Idx) := by
  refine funext fun a => Fin.ext ?_
  match a with
  | ⟨0, _⟩ =>
    show (cfg0.win 2).index t 0 * 2048 + 1 * r.val = (t.val / 49) * 2048 + r.val
    rw [index0_2]; show (t.val / 49) * 2048 + 1 * r.val = _; omega
  | ⟨1, _⟩ =>
    show (cfg0.win 2).index t 1 * 32 + 1 * d.val = d.val
    rw [index0_2]; show 0 * 32 + 1 * d.val = _; omega

/-- What a point that writes back writes is its block of the gathered messages. -/
theorem flushed0_eq (t : Fin cfg0.N) (hf : (cfg0.win 2).flush t = true) :
    (dat0 (F := Ideal) V c).flushed 2 t = ((cfg0.win 2).blk t).view.read (Elt Ideal) (msgArr V c) := by
  have h48 : t.val % 49 = 48 := (flush0_2 t).mp hf
  show (cfg0.win 2).cut (grid0.coords t) ((dat0 V c).after 2 t) = _
  rw [after0_2]
  funext y
  obtain ⟨r, d, rfl⟩ : ∃ (r : Fin 2048) (d : Fin 32), y = ix2 r d := ⟨y 0, y 1, eq_ix2 (n0 := 2048) (n1 := 32) y⟩
  show k0_pay3 (F := Ideal) (acc0 V c t.val t.isLt) (ix2 r d) = msgArr V c (((cfg0.win 2).blk t).view.emb (ix2 r d))
  rw [pay0_out, acc0_last V c t h48, emb0_2]
  have hN : t.val < 47873 := lt_of_lt_of_eq t.isLt N_0
  rw [idxw_of_lt V c ((t.val / 49) * 2048 + r.val) (by have := r.isLt; omega)]
  rfl

/-- An index of the output array is in point `t`'s block iff each coordinate is in the block's range on its axis. -/
theorem mem_blk0_2 (t : Fin cfg0.N) (i : S2000896x32.Idx) :
    i ∈ ((cfg0.win 2).blk t).view.set
      ↔ ∀ a : Fin 2, win0_2.index t a * S2048x32.size a ≤ (i a).val ∧ (i a).val < win0_2.index t a * S2048x32.size a + S2048x32.size a := by
  show i ∈ ((View.whole main_v10).slice (win0_2.rect t)).set ↔ _
  rw [View.set_slice_whole, Rect.mem_set_unit]
  exact Iff.rfl

/-- Every row of the output lies in the block the last point of its edge tile's run writes back. -/
theorem cover0_2 (i : S2000896x32.Idx) :
    ∃ t : Fin cfg0.N, (cfg0.win 2).flush t = true ∧ i ∈ ((cfg0.win 2).blk t).view.set := by
  have hi0 : (i 0).val < 2000896 := (i 0).isLt
  have hi1 : (i 1).val < 32 := (i 1).isLt
  have hlt : ((i 0).val / 2048) * 49 + 48 < cfg0.N := by rw [show cfg0.N = 47873 from N_0]; omega
  refine ⟨⟨((i 0).val / 2048) * 49 + 48, hlt⟩, (flush0_2 _).mpr (by show (((i 0).val / 2048) * 49 + 48) % 49 = 48; omega), ?_⟩
  rw [mem_blk0_2]
  intro a
  have hidx := index0_2 ⟨((i 0).val / 2048) * 49 + 48, hlt⟩
  have e0 : win0_2.index ⟨((i 0).val / 2048) * 49 + 48, hlt⟩ 0 = (((i 0).val / 2048) * 49 + 48) / 49 := congrFun hidx 0
  have e1 : win0_2.index ⟨((i 0).val / 2048) * 49 + 48, hlt⟩ 1 = 0 := congrFun hidx 1
  match a with
  | ⟨0, _⟩ =>
    show win0_2.index _ 0 * 2048 ≤ (i 0).val ∧ (i 0).val < win0_2.index _ 0 * 2048 + 2048
    rw [e0]; omega
  | ⟨1, _⟩ =>
    show win0_2.index _ 1 * 32 ≤ (i 1).val ∧ (i 1).val < win0_2.index _ 1 * 32 + 32
    rw [e1]; omega

/-- The output array after the region is the gathered messages. -/
theorem arr0_2_eq : (dat0 (F := Ideal) V c).arrAt 2 cfg0.N = msgArr V c :=
  (dat0 (F := Ideal) V c).arrAt_eq_of_cover 2 (msgArr V c) (fun t hf => flushed0_eq V c t hf) (cover0_2)

/-- Row `e` of the output array after the region, at feature `d`: the feature the `e`-th index word names. -/
theorem msgs_apply (e : Fin 2000896) (d : Fin 32) :
    ((dat0 (F := Ideal) V c).arrAt 2 cfg0.N : S2000896x32.Idx → EReal) (ix2 e d)
      = if h : ((V c main_v5 : S1x2000896.Idx → BitVec 32) (ix2 (0 : Fin 1) e)).toNat < 100352
        then (V c main_v9 : S100352x32.Idx → EReal) (ix2 (⟨((V c main_v5 : S1x2000896.Idx → BitVec 32) (ix2 (0 : Fin 1) e)).toNat, h⟩ : Fin 100352) d) else (0 : EReal) := by
  rw [arr0_2_eq]; rfl

end Cert.KernelIdeal.Hand

end
-- ==== Proof.KI.Val1.lean ====
/-
  Region 1 (the scatter): the value its output array holds after the run, at the ideal instance, as one function of the
  contents `V` the region finds.

  At a grid point the two input blocks are the message array's and the target-word row's tile of 2048 edges named by the
  point's inner coordinate. The body adds to the accumulator, at row `p` and feature `d`, the sum over the tile's
  edges of "the word of node `N·2048 + p` is the edge's target word" times the edge's message. Along a run of 977
  points the accumulator, reset at the run's first point, therefore collects the tiles one by one; at the run's last
  point it holds, for each of its rows, the sum over all 2000896 padded edges whose target word is the row's node. That
  point writes the accumulator back as block `N` of the output array, and the 49 runs' blocks cover the array.
-/
import proofs.«408629_j68848325755642_1_alg».proof.Proof.KI.Dat1
import proofs.«408629_j68848325755642_1_alg».proof.Proof.KI.Pay
import proofs.«408629_j68848325755642_1_alg».proof.Proof.OneHot
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Spec Cert.OneHot
open scoped BigOperators

variable (V : (c : Dev nD) → (b : Ref sig .tc) → Buf (Elt Ideal) ((c : Thread nD τ).loc b)) (c : Dev nD)

/-! ## The two input blocks at a point, read off the arrays -/

theorem xblk1_apply (t : Fin cfg1.N) (r : Fin 2048) (d : Fin 32) :
    xblk1 V c t (ix2 r d)
      = (V c main_v10 : S2000896x32.Idx → EReal) (ix2 (⟨(t.val % 977) * 2048 + r.val, by have := r.isLt; omega⟩ : Fin 2000896) d) := by
  show (V c main_v10 : S2000896x32.Idx → EReal) (((cfg1.win 0).blk t).view.emb (ix2 r d)) = _
  congr 1
  funext a
  apply Fin.ext
  match a with
  | ⟨0, _⟩ =>
    show (cfg1.win 0).index t (0 : Fin 2) * 2048 + 1 * r.val = (t.val % 977) * 2048 + r.val
    rw [index1_0]; show (t.val % 977) * 2048 + 1 * r.val = _; omega
  | ⟨1, _⟩ =>
    show (cfg1.win 0).index t (1 : Fin 2) * 32 + 1 * d.val = d.val
    rw [index1_0]; show 0 * 32 + 1 * d.val = _; omega

theorem cblk1_apply (t : Fin cfg1.N) (r : Fin 2048) :
    cblk1 V c t (ix2 (0 : Fin 1) r)
      = (V c main_v7 : S1x2000896.Idx → BitVec 32) (ix2 (0 : Fin 1) (⟨(t.val % 977) * 2048 + r.val, by have := r.isLt; omega⟩ : Fin 2000896)) := by
  show (V c main_v7 : S1x2000896.Idx → BitVec 32) (((cfg1.win 1).blk t).view.emb (ix2 (0 : Fin 1) r)) = _
  congr 1
  funext a
  apply Fin.ext
  match a with
  | ⟨0, _⟩ =>
    show (cfg1.win 1).index t (0 : Fin 2) * 1 + 1 * 0 = 0
    rw [index1_1]; rfl
  | ⟨1, _⟩ =>
    show (cfg1.win 1).index t (1 : Fin 2) * 2048 + 1 * r.val = (t.val % 977) * 2048 + r.val
    rw [index1_1]; show (t.val % 977) * 2048 + 1 * r.val = _; omega

/-! ## The words and the messages as functions of a natural number -/

/-- The target word of edge `e` (zero past the padded edge count). -/
def tgtN1 (e : ℕ) : BitVec 32 :=
  if h : e < 2000896 then (V c main_v7 : S1x2000896.Idx → BitVec 32) (ix2 (0 : Fin 1) (⟨e, h⟩ : Fin 2000896)) else 0

/-- The message of edge `e` at feature `d` (zero past the padded edge count). -/
def msgN1 (d : Fin 32) (e : ℕ) : EReal :=
  if h : e < 2000896 then (V c main_v10 : S2000896x32.Idx → EReal) (ix2 (⟨e, h⟩ : Fin 2000896) d) else 0

/-- One edge tile's contribution to row `p` of node tile `N` at feature `d`. -/
def tileSum1 (N : ℕ) (p : Fin 2048) (d : Fin 32) (E : ℕ) : EReal :=
  ∑ r : Fin 2048, oh (BitVec.ofNat 32 p.val + BitVec.ofNat 32 N * 2048#32) (tgtN1 V c (E * 2048 + r.val)) * msgN1 V c d (E * 2048 + r.val)

/-- The body at a point adds that point's edge tile's contribution. -/
theorem pay1_point (t : Fin cfg1.N) (acc : Vec Ideal S2048x32 .f32) (p : Fin 2048) (d : Fin 32) :
    k1_pay2 (F := Ideal) (grid1.coords t) (cblk1 V c t) (xblk1 V c t) acc (ix2 p d)
      = acc (ix2 p d) + tileSum1 V c (t.val / 977) p d (t.val % 977) := by
  rw [pay1_apply, coords1_0]
  congr 1
  unfold tileSum1
  refine Finset.sum_congr rfl fun r _ => ?_
  have hr : (t.val % 977) * 2048 + r.val < 2000896 := by have := r.isLt; omega
  rw [cblk1_apply, xblk1_apply]
  unfold tgtN1 msgN1
  rw [dif_pos hr, dif_pos hr]

theorem acc1_congr {n n' : ℕ} (e : n = n') (h : n < cfg1.N) (h' : n' < cfg1.N) : acc1 V c n h = acc1 V c n' h' := by
  subst e; rfl

/-- Along a run: after the point at offset `j` of node tile `N`'s run the accumulator holds the contributions of
    the edge tiles `0 … j`. -/
theorem acc1_run (N : ℕ) (p : Fin 2048) (d : Fin 32) :
    ∀ (j : ℕ) (hj : j < 977) (h : N * 977 + j < cfg1.N),
      acc1 V c (N * 977 + j) h (ix2 p d) = ∑ E ∈ Finset.range (j + 1), tileSum1 V c N p d E
  | 0, _, h => by
    have h0 : (⟨N * 977 + 0, h⟩ : Fin cfg1.N).val % 977 = 0 := by show (N * 977 + 0) % 977 = 0; omega
    have e := acc1_first V c ⟨N * 977 + 0, h⟩ h0
    rw [show acc1 V c (N * 977 + 0) h = acc1 V c (⟨N * 977 + 0, h⟩ : Fin cfg1.N).val (⟨N * 977 + 0, h⟩ : Fin cfg1.N).isLt from rfl, e,
      pay1_point, pay1_reset, Finset.sum_range_one, zero_add]
    have e1 : (N * 977 + 0) / 977 = N := by omega
    have e2 : (N * 977 + 0) % 977 = 0 := by omega
    show tileSum1 V c ((N * 977 + 0) / 977) p d ((N * 977 + 0) % 977) = _
    rw [e1, e2]
  | j + 1, hj, h => by
    have h0 : ¬ (⟨N * 977 + (j + 1), h⟩ : Fin cfg1.N).val % 977 = 0 := by show ¬ (N * 977 + (j + 1)) % 977 = 0; omega
    have e := acc1_step V c ⟨N * 977 + (j + 1), h⟩ h0
    rw [show acc1 V c (N * 977 + (j + 1)) h = acc1 V c (⟨N * 977 + (j + 1), h⟩ : Fin cfg1.N).val (⟨N * 977 + (j + 1), h⟩ : Fin cfg1.N).isLt from rfl, e,
      pay1_point]
    have hp : N * 977 + j < cfg1.N := by omega
    rw [acc1_congr V c (show (⟨N * 977 + (j + 1), h⟩ : Fin cfg1.N).val - 1 = N * 977 + j from by show N * 977 + (j + 1) - 1 = _; omega) _ hp,
      acc1_run N p d j (by omega) hp, Finset.sum_range_succ _ (j + 1)]
    have e1 : (N * 977 + (j + 1)) / 977 = N := by omega
    have e2 : (N * 977 + (j + 1)) % 977 = j + 1 := by omega
    show _ + tileSum1 V c ((N * 977 + (j + 1)) / 977) p d ((N * 977 + (j + 1)) % 977) = _
    rw [e1, e2]

/-- At the run's last point: the whole sum over the padded edge list, as a selection. -/
theorem acc1_last (N : ℕ) (p : Fin 2048) (d : Fin 32) (h : N * 977 + 976 < cfg1.N) :
    acc1 V c (N * 977 + 976) h (ix2 p d)
      = ∑ e : Fin 2000896, (if BitVec.ofNat 32 (N * 2048 + p.val) = (V c main_v7 : S1x2000896.Idx → BitVec 32) (ix2 (0 : Fin 1) e)
          then (V c main_v10 : S2000896x32.Idx → EReal) (ix2 e d) else 0 : EReal) := by
  rw [acc1_run V c N p d 976 (by omega) h, Finset.sum_range]
  unfold tileSum1
  simp only [ofNat_tile]
  have e := sum_tiles_sel 977 2048 (BitVec.ofNat 32 (N * 2048 + p.val)) (tgtN1 V c) (msgN1 V c d)
  refine e.trans ?_
  show ∑ e : Fin 2000896, (if BitVec.ofNat 32 (N * 2048 + p.val) = tgtN1 V c e.val then msgN1 V c d e.val else 0) = _
  refine Finset.sum_congr rfl fun e _ => ?_
  unfold tgtN1 msgN1
  rw [dif_pos e.isLt, dif_pos e.isLt]

/-! ## From the runs' last points to the array -/

/-- What the output array ends holding: at node `n` and feature `d` the sum of the messages of the padded edges whose
    target word is the word of `n`. -/
def outG1 : S100352x32.Idx → EReal := fun i =>
  ∑ e : Fin 2000896, (if BitVec.ofNat 32 (i 0).val = (V c main_v7 : S1x2000896.Idx → BitVec 32) (ix2 (0 : Fin 1) e)
    then (V c main_v10 : S2000896x32.Idx → EReal) (ix2 e (i 1)) else 0 : EReal)

theorem outG1_apply (n : Fin 100352) (d : Fin 32) :
    outG1 V c (ix2 n d)
      = ∑ e : Fin 2000896, (if BitVec.ofNat 32 n.val = (V c main_v7 : S1x2000896.Idx → BitVec 32) (ix2 (0 : Fin 1) e)
          then (V c main_v10 : S2000896x32.Idx → EReal) (ix2 e d) else 0 : EReal) := rfl

/-- A point's output block of any array contents reads the contents under the block. -/
theorem read_blk1_2 (G : S100352x32.Idx → EReal) (t : Fin cfg1.N) (j : S2048x32.Idx) :
    ((cfg1.win 2).blk t).view.read (Elt Ideal) G j = G (((cfg1.win 2).blk t).view.emb j) := rfl

/-- What a run's last point writes back is its block of that function. -/
theorem flushed1_2_eq (t : Fin cfg1.N) (hf : t.val % 977 = 976) :
    (dat1 (F := Ideal) V c).flushed 2 t = ((cfg1.win 2).blk t).view.read (Elt Ideal) (outG1 V c) := by
  have hN : t.val < 47873 := lt_of_lt_of_eq t.isLt (show cfg1.N = 47873 from N_1)
  show (cfg1.win 2).cut (grid1.coords t) ((dat1 (F := Ideal) V c).after 2 t) = _
  rw [after1_2]
  refine funext fun (j : S2048x32.Idx) => ?_
  obtain ⟨p, d, rfl⟩ : ∃ (p : Fin 2048) (d : Fin 32), j = ix2 p d := ⟨j 0, j 1, eq_ix2 j⟩
  rw [read_blk1_2]
  show acc1 V c t.val t.isLt (ix2 p d) = _
  have hemb : ((cfg1.win 2).blk t).view.emb (ix2 p d)
      = ix2 (⟨(t.val / 977) * 2048 + p.val, by have := p.isLt; omega⟩ : Fin 100352) d := by
    funext a
    apply Fin.ext
    match a with
    | ⟨0, _⟩ =>
      show (cfg1.win 2).index t (0 : Fin 2) * 2048 + 1 * p.val = (t.val / 977) * 2048 + p.val
      rw [index1_2]; show (t.val / 977) * 2048 + 1 * p.val = _; omega
    | ⟨1, _⟩ =>
      show (cfg1.win 2).index t (1 : Fin 2) * 32 + 1 * d.val = d.val
      rw [index1_2]; show 0 * 32 + 1 * d.val = _; omega
  have ht : t.val = (t.val / 977) * 977 + 976 := by omega
  rw [hemb, outG1_apply, acc1_congr V c ht t.isLt (by rw [← ht]; exact t.isLt), acc1_last]

/-- An index of the array lies in a point's output block exactly when each coordinate lies in the block's range. -/
theorem mem_blk1_2 (t : Fin cfg1.N) (i : S100352x32.Idx) :
    i ∈ ((cfg1.win 2).blk t).view.set ↔ ∀ a : Fin 2, win1_2.index t a * S2048x32.size a ≤ (i a).val ∧ (i a).val < win1_2.index t a * S2048x32.size a + S2048x32.size a := by
  show i ∈ ((View.whole main_v11).slice (win1_2.rect t)).set ↔ _
  rw [View.set_slice_whole, Rect.mem_set_unit]
  exact Iff.rfl

/-- Every row of the array lies in the block the last point of its node tile's run writes back. -/
theorem cover1_2 (i : S100352x32.Idx) :
    ∃ t : Fin cfg1.N, (cfg1.win 2).flush t = true ∧ i ∈ ((cfg1.win 2).blk t).view.set := by
  have hi0 : (i 0).val < 100352 := idx2_lt0 i
  have hi1 : (i 1).val < 32 := idx2_lt1 i
  have hN : cfg1.N = 47873 := N_1
  have hb : ((i 0).val / 2048) * 977 + 976 < cfg1.N := by rw [hN]; omega
  refine ⟨⟨((i 0).val / 2048) * 977 + 976, hb⟩, (flush1_2 _).mpr (by show (((i 0).val / 2048) * 977 + 976) % 977 = 976; omega), ?_⟩
  rw [mem_blk1_2]
  intro a
  match a with
  | ⟨0, _⟩ =>
    show win1_2.index ⟨((i 0).val / 2048) * 977 + 976, hb⟩ (0 : Fin 2) * 2048 ≤ (i 0).val ∧ (i 0).val < win1_2.index ⟨((i 0).val / 2048) * 977 + 976, hb⟩ (0 : Fin 2) * 2048 + 2048
    rw [show win1_2.index ⟨((i 0).val / 2048) * 977 + 976, hb⟩ = ![(((i 0).val / 2048) * 977 + 976) / 977, 0] from index1_2 _]
    show ((((i 0).val / 2048) * 977 + 976) / 977) * 2048 ≤ (i 0).val ∧ (i 0).val < ((((i 0).val / 2048) * 977 + 976) / 977) * 2048 + 2048
    have e : (((i 0).val / 2048) * 977 + 976) / 977 = (i 0).val / 2048 := by omega
    rw [e]; omega
  | ⟨1, _⟩ =>
    show win1_2.index ⟨((i 0).val / 2048) * 977 + 976, hb⟩ (1 : Fin 2) * 32 ≤ (i 1).val ∧ (i 1).val < win1_2.index ⟨((i 0).val / 2048) * 977 + 976, hb⟩ (1 : Fin 2) * 32 + 32
    rw [show win1_2.index ⟨((i 0).val / 2048) * 977 + 976, hb⟩ = ![(((i 0).val / 2048) * 977 + 976) / 977, 0] from index1_2 _]
    show 0 * 32 ≤ (i 1).val ∧ (i 1).val < 0 * 32 + 32
    omega

/-- The output array after the run. -/
theorem outp1_eq : (dat1 (F := Ideal) V c).arrAt 2 cfg1.N = outG1 V c :=
  (dat1 (F := Ideal) V c).arrAt_eq_of_cover 2 (outG1 V c) (fun t hf => flushed1_2_eq V c t ((flush1_2 t).mp hf)) (cover1_2)

/-- The output array after the run, at node `n` and feature `d`. -/
theorem outp_apply (n : Fin 100352) (d : Fin 32) :
    ((dat1 (F := Ideal) V c).arrAt 2 cfg1.N : S100352x32.Idx → EReal) (ix2 n d)
      = ∑ e : Fin 2000896, (if BitVec.ofNat 32 n.val = (V c main_v7 : S1x2000896.Idx → BitVec 32) (ix2 (0 : Fin 1) e)
          then (V c main_v10 : S2000896x32.Idx → EReal) (ix2 e d) else 0 : EReal) := by
  rw [outp1_eq, outG1_apply]

end Cert.KernelIdeal.Hand

end
-- ==== Proof.KI.Final.lean ====
/-
  The idealized kernel's result is the specification. The padded result array after region 1 is, at node `n` and
  feature `d`, the sum over the padded edge list of the messages whose target word is `n`; the message of a padded edge
  is the feature row its source word names in the zero-padded table, or zero. A padding edge carries the sentinel word
  100352, which is no node's word and names no row, so it adds nothing on either side; a real edge's message is the
  source node's feature row when the word names a node and zero otherwise. What is left is the sum over the real
  edges that target `n` of the source's features.
-/
import proofs.«408629_j68848325755642_1_alg».proof.Proof.KI.Launch
import proofs.«408629_j68848325755642_1_alg».proof.Proof.KI.HostVals
import proofs.«408629_j68848325755642_1_alg».proof.Proof.KI.Val0
import proofs.«408629_j68848325755642_1_alg».proof.Proof.KI.Val1
import proofs.«408629_j68848325755642_1_alg».proof.Proof.OneHot
import proofs.«408629_j68848325755642_1_alg».proof.Proof.Spec

noncomputable section

namespace Cert.KernelIdeal.Hand

open Idealize.ShloMosaic Idealize.ShloMosaic.TcCoe Idealize.ShloMosaic.ValueIdx Idealize.SL.Sem
open Cert.KernelIdeal Cert.KernelIdeal.Gen Cert.Spec Cert.OneHot
open scoped BigOperators

variable (m : (ℓ : Loc nD τ sig) → Buf (Elt Ideal) ℓ) (c : Dev nD)

/-- The feature table and the edge list as launched. -/
abbrev X0 : S100000x32.Idx → EReal := m ((c : Thread nD τ).loc main_arg0)
abbrev EI : S2x2000000.Idx → BitVec 32 := m ((c : Thread nD τ).loc main_arg1)

/-- The sentinel word names no row of the padded table. -/
theorem sentinel_toNat : (100352#32 : BitVec 32).toNat = 100352 := by decide

/-- The message of padded edge `e`: the source node's features for a real edge whose source word names a node,
    zero otherwise. -/
theorem msgs_val (e : Fin 2000896) (d : Fin 32) :
    (msgs m c : S2000896x32.Idx → EReal) (ix2 e d)
      = if h : e.val < 2000000 then xAt (X0 m c) (colW (EI m c) ⟨e.val, h⟩) d else 0 := by
  unfold msgs
  rw [msgs_apply (Ve0 m) c e d]
  have hw := V6_colp m c e
  show (if h : ((V6 m c main_v5 : S1x2000896.Idx → BitVec 32) (ix2 (0 : Fin 1) e)).toNat < 100352
      then (V6 m c main_v9 : S100352x32.Idx → EReal) (ix2 (⟨((V6 m c main_v5 : S1x2000896.Idx → BitVec 32) (ix2 (0 : Fin 1) e)).toNat, h⟩ : Fin 100352) d) else (0 : EReal)) = _
  generalize (V6 m c main_v5 : S1x2000896.Idx → BitVec 32) (ix2 (0 : Fin 1) e) = w at hw ⊢
  by_cases he : e.val < 2000000
  · rw [dif_pos he] at hw
    rw [dif_pos he]
    have hw' : w = EI m c (ix2 (1 : Fin 2) ⟨e.val, he⟩) := hw
    show _ = xAt (X0 m c) (EI m c (ix2 (1 : Fin 2) ⟨e.val, he⟩)) d
    rw [← hw']
    unfold xAt
    by_cases h1 : w.toNat < 100352
    · rw [dif_pos h1, V6_xp m c ⟨w.toNat, h1⟩ d]
    · rw [dif_neg h1, dif_neg (by omega)]
  · rw [dif_neg he] at hw
    rw [dif_neg he, dif_neg (by rw [hw, sentinel_toNat]; omega)]

/-- The target word of padded edge `e` as region 1 finds it. -/
theorem rowp_val (e : Fin 2000896) :
    (Ve1 m c main_v7 : S1x2000896.Idx → BitVec 32) (ix2 (0 : Fin 1) e)
      = if h : e.val < 2000000 then rowW (EI m c) ⟨e.val, h⟩ else 100352#32 := by
  show (W7 m c main_v7 : S1x2000896.Idx → BitVec 32) (ix2 (0 : Fin 1) e) = _
  rw [← V7_eq m c, V7_rowp m (outs m) c]
  exact V6_rowp m c e

/-- The message array as region 1 finds it is what region 0 left. -/
theorem msgs_in : (Ve1 m c main_v10) = msgs m c := by
  show W7 m c main_v10 = _
  rw [← V7_eq m c, V7_msgs m (outs m) c, outs_msgs]

/-- The padding edges drop out of a sum whose terms vanish past the real edges. -/
theorem drop_pad (g : ℕ → EReal) (hz : ∀ e, 2000000 ≤ e → e < 2000896 → g e = 0) :
    ∑ e : Fin 2000896, g e.val = ∑ e : Fin 2000000, g e.val :=
  sum_drop_tail 2000000 896 g hz

/-- Edge position `e`'s contribution to node `n`'s feature `k`: for a real edge that targets `n`, the source node's
    feature; zero otherwise, and zero past the real edges. -/
def termAt (n : Fin 100000) (k : Fin 32) : ℕ → EReal := fun e =>
  if he : e < 2000000 then
    (if rowW (EI m c) ⟨e, he⟩ = BitVec.ofNat 32 n.val then xAt (X0 m c) (colW (EI m c) ⟨e, he⟩) k else 0) else 0

theorem termAt_real (n : Fin 100000) (k : Fin 32) (e : Fin 2000000) :
    termAt m c n k e.val = if rowW (EI m c) e = BitVec.ofNat 32 n.val then xAt (X0 m c) (colW (EI m c) e) k else 0 := by
  unfold termAt; rw [dif_pos e.isLt]

theorem termAt_pad (n : Fin 100000) (k : Fin 32) (e : ℕ) (h : 2000000 ≤ e) : termAt m c n k e = 0 := by
  unfold termAt; rw [dif_neg (by omega)]

/-- A padded edge's term in region 1's sum is its contribution: the sentinel target word is no node's word. -/
theorem term_eq (n : Fin 100000) (k : Fin 32) (e : Fin 2000896) :
    (if BitVec.ofNat 32 n.val = (Ve1 m c main_v7 : S1x2000896.Idx → BitVec 32) (ix2 (0 : Fin 1) e)
      then (Ve1 m c main_v10 : S2000896x32.Idx → EReal) (ix2 e k) else 0 : EReal) = termAt m c n k e.val := by
  have h1 := rowp_val m c e
  have h2 : ((Ve1 m c main_v10 : S2000896x32.Idx → EReal) (ix2 e k) : EReal)
      = if h : e.val < 2000000 then xAt (X0 m c) (colW (EI m c) ⟨e.val, h⟩) k else 0 :=
    (congrFun (msgs_in m c) (ix2 e k)).trans (msgs_val m c e k)
  rw [h1, h2]
  unfold termAt
  by_cases he : e.val < 2000000
  · rw [dif_pos he, dif_pos he, dif_pos he]
    by_cases hr : rowW (EI m c) ⟨e.val, he⟩ = BitVec.ofNat 32 n.val
    · rw [if_pos hr, if_pos hr.symm]
    · rw [if_neg hr, if_neg (fun h => hr h.symm)]
  · rw [dif_neg he, dif_neg he, dif_neg he]
    exact ite_self _

/-- THE KERNEL'S VALUE: the result array after the last host stretch is the specification of the launch contents. -/
theorem kernel_value :
    (V9 (F := Ideal) m (outs m) c main_v12 : S100000x32.Idx → EReal) = G (X0 m c) (EI m c) := by
  funext idx
  obtain ⟨n, k, rfl⟩ : ∃ (n : Fin 100000) (k : Fin 32), idx = ix2 n k := ⟨idx 0, idx 1, eq_ix2 idx⟩
  rw [V9_result m (outs m) c n k, outs_outp, G_apply]
  unfold outp
  rw [outp_apply (Ve1 m) c ⟨n.val, by omega⟩ k]
  unfold agg
  have hsumL : (∑ e : Fin 2000896, (if BitVec.ofNat 32 n.val = (Ve1 m c main_v7 : S1x2000896.Idx → BitVec 32) (ix2 (0 : Fin 1) e)
        then (Ve1 m c main_v10 : S2000896x32.Idx → EReal) (ix2 e k) else 0 : EReal)) = ∑ e : Fin 2000896, termAt m c n k e.val :=
    Finset.sum_congr rfl (fun e _ => term_eq m c n k e)
  have hsumR : (∑ e : Fin 2000000, (if rowW (EI m c) e = BitVec.ofNat 32 n.val then xAt (X0 m c) (colW (EI m c) e) k else 0))
      = ∑ e : Fin 2000000, termAt m c n k e.val :=
    Finset.sum_congr rfl (fun e _ => (termAt_real m c n k e).symm)
  exact hsumL.trans ((drop_pad (termAt m c n k) (fun e h1 _ => termAt_pad m c n k e h1)).trans hsumR.symm)

end Cert.KernelIdeal.Hand

end
-- ==== Proof.LibGatherRows.lean ====
import Idealize.ShloMosaic.PureOps
import Idealize.ShloMosaic.Lib.ValueIdx
noncomputable section

namespace Cert.LibGatherRows
open Idealize.ShloMosaic Idealize.ShloMosaic.ValueIdx

/-! ## Gathering whole rows of a table

A table `x : [N, C]` is gathered by a column of index words `idx : [M, 1]`: the dimension numbers collapse the
table's axis 0 and let the one component of each start index address it, keep the table's axis 1 whole as the
result's offset axis 1, and have no batching axes. Result element `(r, k)` is then the table at `(row, k)`, where
`row` is the `r`-th index word read as a signed integer and clamped into `[0, N − 1]`.

The operand index of a gather is, on each operand axis, a clamped start plus a batching coordinate plus an offset
coordinate. For these dimension numbers the three summands are computed one by one below: on axis 0 the start is the
clamped index word and the other two vanish (the axis is collapsed); on axis 1 the start and the batching coordinate
vanish (the axis is not addressed by the start index) and the offset coordinate is the result's column. -/

section Rows
variable {α : Type}

/-- The dimension numbers of a row gather, for a table `[N, C]`, start indices `[M, 1]` and a result `[M, C]`. -/
abbrev rowsDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N M C w : Nat}
  (wf : GatherDims.WF ⟨2, ![N, C]⟩ ⟨2, ![M, 1]⟩ ⟨2, ![M, C]⟩ [1] [0] [] [0] [] 1 ![1, C])

/-- There are no batching axes, so the batching coordinate is zero on both table axes. -/
theorem rows_batch (j : (⟨2, ![M, C]⟩ : Shape).Idx) (a : Fin 2) : (rowsDims N M C wf).batchCoord j a = 0 :=
  GatherDims.batchCoord_eq_zero _ _ _ List.not_mem_nil

/-- Axis 0 of the table is collapsed: it is not among the kept axes, so its offset coordinate is zero. -/
theorem rows_off0 (j : (⟨2, ![M, C]⟩ : Shape).Idx) : (rowsDims N M C wf).offCoord j 0 = 0 :=
  GatherDims.offCoord_eq_zero _ _ _ fun h => ((GatherDims.mem_sKept _ _).1 h).1 (List.mem_singleton.2 rfl)

/-- Axis 1 of the table is not addressed by the start index, so the slice starts at column zero. -/
theorem rows_start1 (j : (⟨2, ![M, C]⟩ : Shape).Idx) (idx : IVec ⟨2, ![M, 1]⟩ w) :
    (rowsDims N M C wf).start j idx 1 = 0 := by
  unfold GatherDims.start
  exact dif_neg (show (1 : Fin 2) ∉ [0] by decide)

/-- Axis 1 is the only kept axis of the table, in position 0, and the result's offset axis in that position is its
    axis 1: the offset coordinate is the result's column. -/
theorem rows_off1 (j : (⟨2, ![M, C]⟩ : Shape).Idx) : (rowsDims N M C wf).offCoord j 1 = (j 1).val := by
  unfold GatherDims.offCoord
  rw [dif_pos ((GatherDims.mem_sKept _ _).2 ⟨show (1 : Fin 2) ∉ [0] by decide, List.not_mem_nil⟩)]
  rfl

/-- Axis 0 is component 0 of the start index. That component is read at the start-indices position
    `(j 0, 0)` — the result's batch coordinate, and 0 on the index vector's axis —, signed, and clamped to
    `N − 1` (the table's extent less the slice size 1). -/
theorem rows_start0 (j : (⟨2, ![M, C]⟩ : Shape).Idx) (idx : IVec ⟨2, ![M, 1]⟩ w) :
    (rowsDims N M C wf).start j idx 0 = min (idx (ix2 (j 0) (0 : Fin 1))).toInt.toNat (N - 1) := by
  unfold GatherDims.start
  rw [dif_pos (List.mem_singleton.2 rfl)]
  have hsi : (rowsDims N M C wf).siIdx j ⟨List.idxOf (0 : Fin 2) (rowsDims N M C wf).startIndexMap,
      List.idxOf_lt_length_iff.2 (List.mem_singleton.2 rfl)⟩ = ix2 (j 0) (0 : Fin 1) := by
    funext b
    refine Fin.ext ?_
    match b with
    | ⟨0, _⟩ => rfl
    | ⟨1, _⟩ => rfl
  rw [hsi]
  rfl

/-- The row gather with its dimension numbers written out, read at `(r, k)`. -/
theorem rows_apply (hN : 0 < N) (x : (⟨2, ![N, C]⟩ : Shape).Idx → α) (idx : IVec ⟨2, ![M, 1]⟩ w)
    (r : Fin M) (k : Fin C) :
    Host.gather (rowsDims N M C wf) x idx (ix2 r k)
      = x (ix2 (⟨min (idx (ix2 r (0 : Fin 1))).toInt.toNat (N - 1), by omega⟩ : Fin N) k) := by
  unfold Host.gather
  refine congrArg x (funext fun a => Fin.ext ?_)
  match a with
  | ⟨0, _⟩ =>
    show (rowsDims N M C wf).start (ix2 r k) idx 0 + (rowsDims N M C wf).batchCoord (ix2 r k) 0
      + (rowsDims N M C wf).offCoord (ix2 r k) 0 = _
    rw [rows_start0, rows_batch, rows_off0]
    rfl
  | ⟨1, _⟩ =>
    show (rowsDims N M C wf).start (ix2 r k) idx 1 + (rowsDims N M C wf).batchCoord (ix2 r k) 1
      + (rowsDims N M C wf).offCoord (ix2 r k) 1 = _
    rw [rows_start1, rows_batch, rows_off1]
    show 0 + 0 + k.val = k.val
    omega

end Rows

/-- A gather that takes whole rows of an `N × C` table, one row per index word (dimension numbers: offset axis 1,
    collapsed axis 0, start index map `[0]`, index vector axis 1, slice sizes `[1, C]`, no batching axes), reads at
    `(r, k)` the table at `(row, k)`, where `row` is the `r`-th index word read as a signed integer and clamped into
    `[0, N − 1]`. The dimension numbers are given by equations on the record's fields; once the fields are replaced by
    these literals the record is the one of `rows_apply`. -/
theorem gather_rows_apply {N M C w : Nat} {α : Type} (d : GatherDims ⟨2, ![N, C]⟩ ⟨2, ![M, 1]⟩ ⟨2, ![M, C]⟩)
    (h1 : d.offsetDims = [1]) (h2 : d.collapsedSliceDims = [0]) (h3 : d.operandBatchingDims = []) (h4 : d.startIndicesBatchingDims = [])
    (h5 : d.startIndexMap = [0]) (h6 : d.indexVectorDim = 1) (h7 : d.sliceSizes = ![1, C]) (hN : 0 < N)
    (x : (⟨2, ![N, C]⟩ : Shape).Idx → α) (idx : IVec ⟨2, ![M, 1]⟩ w) (r : Fin M) (k : Fin C) :
    Host.gather d x idx (ix2 r k)
      = x (ix2 (⟨min (idx (ix2 r (0 : Fin 1))).toInt.toNat (N - 1), by omega⟩ : Fin N) k) := by
  obtain ⟨od, cd, ob, sb, sm, iv, ss, wf⟩ := d
  simp only at h1 h2 h3 h4 h5 h6 h7
  subst h1 h2 h3 h4 h5 h6 h7
  exact rows_apply wf hN x idx r k

/-- When the `r`-th index word, read signed, already lies in `[0, N)`, the clamp does nothing: the row is the word
    itself. -/
theorem gather_rows_apply_of_inRange {N M C w : Nat} {α : Type} (d : GatherDims ⟨2, ![N, C]⟩ ⟨2, ![M, 1]⟩ ⟨2, ![M, C]⟩)
    (h1 : d.offsetDims = [1]) (h2 : d.collapsedSliceDims = [0]) (h3 : d.operandBatchingDims = []) (h4 : d.startIndicesBatchingDims = [])
    (h5 : d.startIndexMap = [0]) (h6 : d.indexVectorDim = 1) (h7 : d.sliceSizes = ![1, C])
    (x : (⟨2, ![N, C]⟩ : Shape).Idx → α) (idx : IVec ⟨2, ![M, 1]⟩ w) (r : Fin M) (k : Fin C)
    (h0 : 0 ≤ (idx (ix2 r (0 : Fin 1))).toInt) (hlt : (idx (ix2 r (0 : Fin 1))).toInt < N) :
    Host.gather d x idx (ix2 r k)
      = x (ix2 (⟨(idx (ix2 r (0 : Fin 1))).toInt.toNat, by omega⟩ : Fin N) k) := by
  have hN : 0 < N := by omega
  rw [gather_rows_apply d h1 h2 h3 h4 h5 h6 h7 hN x idx r k]
  have hm : min (idx (ix2 r (0 : Fin 1))).toInt.toNat (N - 1) = (idx (ix2 r (0 : Fin 1))).toInt.toNat :=
    Nat.min_eq_left (by omega)
  exact congrArg x (congrArg (fun a => ix2 a k) (Fin.ext hm))
end Cert.LibGatherRows
end
-- ==== Proof.LibScatterRows.lean ====
/-
  An accumulating float scatter of whole rows, read at an entry on the extended reals.

  Updates `[M, C]` are added into a table `[N, C]` at the rows a column of index words `[M, 1]` names (dimension numbers:
  update window axis 1, inserted window axis 0, the one index component addressing table axis 0, index vector axis 1).
  Entry `(n, k)` of the result is the table's entry plus the sum of the updates' entries `(e, k)` over the rows `e` whose
  index word, read signed, is `n`; a word outside `[0, N)` contributes to no entry.
-/
import Idealize.ShloMosaic.PureOps.Ideal
import Idealize.ShloMosaic.Lib.ValueIdx

noncomputable section

namespace Cert.LibScatterRows

open Idealize.ShloMosaic Idealize.ShloMosaic.ValueIdx
open scoped BigOperators

/-! ## Scattering whole rows into a table

The operand index an update index lands at is, on each operand axis, a start (a component of the start index, read
signed and not clamped) plus a window coordinate. For the dimension numbers of a row scatter the two summands are
computed one by one below: on axis 0 the start is the index word of the update's row and the window coordinate vanishes
(the axis is an inserted window axis); on axis 1 the start vanishes (the axis is not addressed by the start index) and
the window coordinate is the update's column. -/

section Rows

/-- The dimension numbers of a row scatter, for a table `[N, C]`, scatter indices `[M, 1]` and updates `[M, C]`. -/
abbrev rowsDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N M C w : Nat} (wf : ScatterDims.WF ⟨2, ![N, C]⟩ ⟨2, ![M, 1]⟩ ⟨2, ![M, C]⟩ [1] [0] [0] 1)

/-- Axis 1 of the table is not addressed by the start index: the window starts at column zero. -/
theorem rows_start1 (j : (⟨2, ![M, C]⟩ : Shape).Idx) (idx : IVec ⟨2, ![M, 1]⟩ w) :
    (rowsDims N M C wf).start j idx 1 = 0 := by
  unfold ScatterDims.start
  exact dif_neg (show (1 : Fin 2) ∉ [0] by decide)

/-- Axis 0 of the table is component 0 of the start index. That component is read at the scatter-indices position
    `(j 0, 0)` — the update's row, and 0 on the index vector's axis —, signed, and not clamped. -/
theorem rows_start0 (j : (⟨2, ![M, C]⟩ : Shape).Idx) (idx : IVec ⟨2, ![M, 1]⟩ w) :
    (rowsDims N M C wf).start j idx 0 = (idx (ix2 (j 0) (0 : Fin 1))).toInt := by
  unfold ScatterDims.start
  rw [dif_pos (List.mem_singleton.2 rfl)]
  have hsi : (rowsDims N M C wf).siIdx j ⟨List.idxOf (0 : Fin 2) (rowsDims N M C wf).scatterDimsToOperandDims,
      List.idxOf_lt_length_iff.2 (List.mem_singleton.2 rfl)⟩ = ix2 (j 0) (0 : Fin 1) := by
    funext b
    refine Fin.ext ?_
    match b with
    | ⟨0, _⟩ => rfl
    | ⟨1, _⟩ => rfl
  rw [hsi]
  rfl

/-- The kept axes of the table are the ones that are not the inserted window axis 0. -/
theorem rows_mem_sKept (a : Fin 2) : a ∈ (rowsDims N M C wf).sKept ↔ a ∉ [(0 : Fin 2)] := by
  simp [ScatterDims.sKept, Shape.kept, List.mem_filter, List.mem_finRange]

/-- Axis 0 of the table is an inserted window axis: it is not among the kept axes, so its window coordinate is zero. -/
theorem rows_window0 (j : (⟨2, ![M, C]⟩ : Shape).Idx) : (rowsDims N M C wf).window j 0 = 0 := by
  unfold ScatterDims.window
  exact dif_neg fun h => (rows_mem_sKept wf 0).1 h (List.mem_singleton.2 rfl)

/-- Axis 1 is the only kept axis of the table, in position 0, and the update window axis in that position is the
    updates' axis 1: the window coordinate is the update's column. -/
theorem rows_window1 (j : (⟨2, ![M, C]⟩ : Shape).Idx) : (rowsDims N M C wf).window j 1 = (j 1).val := by
  unfold ScatterDims.window
  rw [dif_pos ((rows_mem_sKept wf 1).2 (by decide))]
  rfl

/-- The update at `(e, k')` lands at the table's entry `(n, k)` exactly when the `e`-th index word, read signed, is
    `n` and the columns agree. (The landing index is start plus window coordinate on each axis, and is dropped when
    that leaves the table: on axis 0 it is the index word, on axis 1 the update's column, which is always inside.) -/
theorem rows_resultIdx_iff (idx : IVec ⟨2, ![M, 1]⟩ w) (e : Fin M) (k' : Fin C) (n : Fin N) (k : Fin C) :
    (rowsDims N M C wf).resultIdx? (ix2 e k') idx = some (ix2 n k)
      ↔ (idx (ix2 e (0 : Fin 1))).toInt = (n.val : ℤ) ∧ k' = k := by
  have hs0 : (rowsDims N M C wf).start (ix2 e k') idx 0 + (((rowsDims N M C wf).window (ix2 e k') 0 : ℕ) : ℤ)
      = (idx (ix2 e (0 : Fin 1))).toInt := by
    rw [rows_start0, rows_window0]
    show (idx (ix2 e (0 : Fin 1))).toInt + ((0 : ℕ) : ℤ) = _
    omega
  have hs1 : (rowsDims N M C wf).start (ix2 e k') idx 1 + (((rowsDims N M C wf).window (ix2 e k') 1 : ℕ) : ℤ)
      = (k'.val : ℤ) := by
    rw [rows_start1, rows_window1]
    show (0 : ℤ) + ((k'.val : ℕ) : ℤ) = _
    omega
  unfold ScatterDims.resultIdx?
  constructor
  · intro h
    by_cases hin : ∀ a, 0 ≤ (rowsDims N M C wf).start (ix2 e k') idx a + (((rowsDims N M C wf).window (ix2 e k') a : ℕ) : ℤ)
        ∧ (rowsDims N M C wf).start (ix2 e k') idx a + (((rowsDims N M C wf).window (ix2 e k') a : ℕ) : ℤ)
          < (((⟨2, ![N, C]⟩ : Shape).size a : ℕ) : ℤ)
    · rw [dif_pos hin] at h
      have hf := Option.some.inj h
      have h0 : ((rowsDims N M C wf).start (ix2 e k') idx 0
          + (((rowsDims N M C wf).window (ix2 e k') 0 : ℕ) : ℤ)).toNat = n.val := congrArg (fun f => (f 0).val) hf
      have h1 : ((rowsDims N M C wf).start (ix2 e k') idx 1
          + (((rowsDims N M C wf).window (ix2 e k') 1 : ℕ) : ℤ)).toNat = k.val := congrArg (fun f => (f 1).val) hf
      have p0 := (hin 0).1
      rw [hs0] at h0 p0
      rw [hs1] at h1
      exact ⟨by omega, Fin.ext (by omega)⟩
    · rw [dif_neg hin] at h
      exact absurd h (by simp)
  · rintro ⟨hE, hk⟩
    subst hk
    have hin : ∀ a, 0 ≤ (rowsDims N M C wf).start (ix2 e k') idx a + (((rowsDims N M C wf).window (ix2 e k') a : ℕ) : ℤ)
        ∧ (rowsDims N M C wf).start (ix2 e k') idx a + (((rowsDims N M C wf).window (ix2 e k') a : ℕ) : ℤ)
          < (((⟨2, ![N, C]⟩ : Shape).size a : ℕ) : ℤ) := by
      intro a
      match a with
      | ⟨0, _⟩ =>
        show 0 ≤ (rowsDims N M C wf).start (ix2 e k') idx 0 + (((rowsDims N M C wf).window (ix2 e k') 0 : ℕ) : ℤ)
          ∧ (rowsDims N M C wf).start (ix2 e k') idx 0 + (((rowsDims N M C wf).window (ix2 e k') 0 : ℕ) : ℤ) < ((N : ℕ) : ℤ)
        rw [hs0, hE]
        have := n.isLt
        omega
      | ⟨1, _⟩ =>
        show 0 ≤ (rowsDims N M C wf).start (ix2 e k') idx 1 + (((rowsDims N M C wf).window (ix2 e k') 1 : ℕ) : ℤ)
          ∧ (rowsDims N M C wf).start (ix2 e k') idx 1 + (((rowsDims N M C wf).window (ix2 e k') 1 : ℕ) : ℤ) < ((C : ℕ) : ℤ)
        rw [hs1]
        have := k'.isLt
        omega
    rw [dif_pos hin]
    refine congrArg some (funext fun a => Fin.ext ?_)
    match a with
    | ⟨0, _⟩ =>
      show ((rowsDims N M C wf).start (ix2 e k') idx 0 + (((rowsDims N M C wf).window (ix2 e k') 0 : ℕ) : ℤ)).toNat = n.val
      rw [hs0, hE]
      omega
    | ⟨1, _⟩ =>
      show ((rowsDims N M C wf).start (ix2 e k') idx 1 + (((rowsDims N M C wf).window (ix2 e k') 1 : ℕ) : ℤ)).toNat = k'.val
      rw [hs1]
      omega

/-- The row scatter-add with its dimension numbers written out, read at `(n, k)`: the filtered sum over the update
    indices is split into rows and columns, and in each row only the column `k` can land at `(n, k)`. -/
theorem rows_apply (x : (⟨2, ![N, C]⟩ : Shape).Idx → EReal) (idx : IVec ⟨2, ![M, 1]⟩ w)
    (upd : (⟨2, ![M, C]⟩ : Shape).Idx → EReal) (n : Fin N) (k : Fin C) :
    Ideal.hostScatterAdd (rowsDims N M C wf) x idx upd (ix2 n k)
      = x (ix2 n k) + ∑ e : Fin M, if (idx (ix2 e (0 : Fin 1))).toInt = (n.val : ℤ) then upd (ix2 e k) else 0 := by
  unfold Ideal.hostScatterAdd
  refine congrArg (x (ix2 n k) + ·) ?_
  rw [Finset.sum_filter, sum_idx2]
  refine Finset.sum_congr rfl fun e _ => ?_
  simp only [rows_resultIdx_iff]
  by_cases hE : (idx (ix2 e (0 : Fin 1))).toInt = (n.val : ℤ)
  · simp only [hE, true_and, if_true]
    rw [Finset.sum_ite_eq' Finset.univ k (fun k' => upd (ix2 e k'))]
    simp
  · simp only [hE, false_and, if_false]
    exact Finset.sum_const_zero

end Rows

/-- A scatter that adds whole rows of updates `[M, C]` into an `N × C` table, one row per index word (dimension
    numbers: update window axis 1, inserted window axis 0, the start index's one component addressing table axis 0,
    index vector axis 1), reads at `(n, k)` the table's entry plus the sum of the updates' entries `(e, k)` over the
    rows `e` whose index word, read as a signed integer, equals `n`; rows whose word lies outside `[0, N)` are dropped.
    The dimension numbers are given by equations on the record's fields; once the fields are replaced by these literals
    the record is the one of `rows_apply`. -/
theorem scatterAdd_rows_apply {N M C w : ℕ} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1)
    (x : (⟨2, ![N, C]⟩ : Shape).Idx → EReal) (idx : IVec ⟨2, ![M, 1]⟩ w) (upd : (⟨2, ![M, C]⟩ : Shape).Idx → EReal)
    (n : Fin N) (k : Fin C) :
    Ideal.hostScatterAdd d x idx upd (ix2 n k)
      = x (ix2 n k) + ∑ e : Fin M, if (idx (ix2 e (0 : Fin 1))).toInt = (n.val : ℤ) then upd (ix2 e k) else 0 := by
  obtain ⟨uw, iw, sd, iv, wf⟩ := d
  simp only at h1 h2 h3 h4
  subst h1 h2 h3 h4
  exact rows_apply wf x idx upd n k

end Cert.LibScatterRows

end
-- ==== Proof.Ref.lean ====
/-
  The reference program computes the specification.

  The reference slices the two rows of the edge list (targets `row`, sources `col`), wraps a negative source word by
  adding the node count, gathers the source nodes' feature rows (the gather clamps its row into the table), and
  scatter-adds the gathered rows into a zero table at the target words. When every source word, read signed, lies in
  `[0, 100000)`, the wrap and the clamp both do nothing, so edge `e` contributes the feature row of node `col e`, and
  entry `(n, k)` of the result is the sum of those contributions over the edges whose target word is `n`: the
  specification's `G`.
-/
import proofs.«408629_j68848325755642_1_alg».proof.Proof.Gen.ReferenceIdeal.Read
import proofs.«408629_j68848325755642_1_alg».proof.Proof.Spec
import proofs.«408629_j68848325755642_1_alg».proof.Proof.LibGatherRows
import proofs.«408629_j68848325755642_1_alg».proof.Proof.LibScatterRows
import Idealize.ShloMosaic.Lib.ValueIdx
import Idealize.ShloMosaic.PureOps.Ideal
import Idealize.ShloMosaic.PureOps.Ideal.Laws
import Idealize.ShloMosaic.Lib.StableHlo.Predicate

noncomputable section

namespace Cert.RefValue

open Cert.ReferenceIdeal Cert.ReferenceIdeal.Read Cert.Spec
open Idealize.ShloMosaic Idealize.ShloMosaic.ValueIdx Idealize.ShloMosaic.StableHlo
open scoped BigOperators

/-! ## Words -/

/-- A word that is not negative when read signed has its unsigned value as its signed value. -/
theorem toInt_eq_toNat_of_nonneg (w : BitVec 32) (h0 : 0 ≤ w.toInt) : w.toInt = (w.toNat : ℤ) := by
  have hlt := w.isLt
  by_cases hc : 2 * w.toNat < 2 ^ 32
  · rw [BitVec.toInt_eq_toNat_cond, if_pos hc]
  · rw [BitVec.toInt_eq_toNat_cond, if_neg hc] at h0
    omega

/-- A word read signed is the small natural number `n` exactly when it is the word of `n`. -/
theorem toInt_eq_iff_eq_ofNat (w : BitVec 32) (n : ℕ) (hn : n < 100000) :
    w.toInt = (n : ℤ) ↔ w = BitVec.ofNat 32 n := by
  constructor
  · intro h
    have h1 := toInt_eq_toNat_of_nonneg w (by omega)
    apply BitVec.eq_of_toNat_eq
    rw [BitVec.toNat_ofNat]
    omega
  · intro h
    rw [h]
    exact Predicate.toInt_ofNat_small n (by omega)

/-- A source word in range is not wrapped: it is not below zero, so the select keeps it. -/
theorem wrap_of_nonneg (w : BitVec 32) (h0 : 0 ≤ w.toInt) :
    Scalar.select (IntOp.cmpi .slt w 0#32) (IntOp.addi w 100000#32) w = w := by
  have hz : (0#32 : BitVec 32).toInt = 0 := by decide
  have hc : IntOp.cmpi .slt w 0#32 = 0#1 := by
    unfold IntOp.cmpi
    show BitVec.ofBool (w.slt 0#32) = 0#1
    have : w.slt 0#32 = false := by
      simp only [BitVec.slt, hz, decide_eq_false_iff_not]
      omega
    rw [this]
    rfl
  rw [hc]
  exact select_zero _ _

/-! ## The two rows of the edge list, as the reference reads them -/

variable [Cert.ReferenceIdeal.Facts]

/-- The scatter's index word of row `e` is edge `e`'s target word. -/
theorem rowWord (x1 : (⟨S2x2000000, .i32⟩ : BufTy).Contents (Elt Ideal)) (e : Fin 2000000) :
    val_main_v12 (F := Ideal) x1 (ix2 e (0 : Fin 1)) = rowW x1 e := by
  rw [val_main_v12_apply, val_main_v1_apply, val_main_v0_apply]
  refine congrArg x1 (funext fun a => Fin.ext ?_)
  match a with
  | ⟨0, _⟩ => rfl
  | ⟨1, _⟩ =>
    show e.val % 2000000 = e.val
    exact Nat.mod_eq_of_lt e.isLt

/-- The sliced source word of edge `e`, before the wrap. -/
theorem colWord (x1 : (⟨S2x2000000, .i32⟩ : BufTy).Contents (Elt Ideal)) (e : Fin 2000000) :
    val_main_v3 (F := Ideal) x1 (ix1 e) = colW x1 e := by
  rw [val_main_v3_apply, val_main_v2_apply]
  refine congrArg x1 (funext fun a => Fin.ext ?_)
  match a with
  | ⟨0, _⟩ => rfl
  | ⟨1, _⟩ =>
    show e.val % 2000000 = e.val
    exact Nat.mod_eq_of_lt e.isLt

/-- The gather's index word of row `e` is edge `e`'s source word when that word is not negative. -/
theorem gatherWord (x1 : (⟨S2x2000000, .i32⟩ : BufTy).Contents (Elt Ideal)) (e : Fin 2000000)
    (h0 : 0 ≤ (colW x1 e).toInt) :
    val_main_v9 (F := Ideal) x1 (ix2 e (0 : Fin 1)) = colW x1 e := by
  have hi : idx_main_v9 (ix2 e (0 : Fin 1)) = ix1 e := by
    funext a
    match a with
    | ⟨0, _⟩ => rfl
  have h4 : val_main_v4 (F := Ideal) (ix1 e) = 0#32 := by
    rw [val_main_v4_apply, val_main_c_apply]
  have h6 : val_main_v6 (F := Ideal) (ix1 e) = 100000#32 := by
    rw [val_main_v6_apply, val_main_c_0_apply]
  rw [val_main_v9_apply, hi, val_main_v8_apply, val_main_v5_apply, val_main_v7_apply, h4, h6, colWord]
  exact wrap_of_nonneg _ h0

/-! ## The gathered rows and the scattered sum -/

/-- The gathered row of edge `e` is the feature row of its source node. -/
theorem gathered (x0 : (⟨S100000x32, .f32⟩ : BufTy).Contents (Elt Ideal))
    (x1 : (⟨S2x2000000, .i32⟩ : BufTy).Contents (Elt Ideal)) (e : Fin 2000000) (k : Fin 32)
    (h0 : 0 ≤ (colW x1 e).toInt) (hlt : (colW x1 e).toInt < 100000) :
    val_main_v10 (F := Ideal) x0 x1 (ix2 e k) = xAt x0 (colW x1 e) k := by
  have hw := gatherWord x1 e h0
  have hn := toInt_eq_toNat_of_nonneg (colW x1 e) h0
  have hN : (colW x1 e).toNat < 100000 := by omega
  unfold val_main_v10
  rw [Cert.LibGatherRows.gather_rows_apply_of_inRange (N := 100000) (M := 2000000) (C := 32) (w := 32)
    gather_S100000x32_S2000000x1_S2000000x32_1_0_n_n_0_1_132 rfl rfl rfl rfl rfl rfl rfl x0
    (val_main_v9 (F := Ideal) x1) e k (by rw [hw]; exact h0) (by rw [hw]; exact hlt)]
  unfold xAt
  rw [dif_pos hN]
  refine congrArg x0 (congrArg (fun a => ix2 a k) (Fin.ext ?_))
  show (val_main_v9 (F := Ideal) x1 (ix2 e (0 : Fin 1))).toInt.toNat = (colW x1 e).toNat
  rw [hw, hn]
  rfl

/-- The zero table. -/
theorem zeros (i : S100000x32.Idx) : val_main_v11 (F := Ideal) i = 0 := by
  rw [val_main_v11_apply, val_main_cst_apply]
  exact Ideal.ofBits_zero_f32

/-- On the extended reals the accumulating scatter is the exact sum, at any shapes. -/
theorem scatterAdd_ideal {s si u : Shape} {w : Nat} (d : ScatterDims s si u) (x : s.Idx → EReal) (idx : IVec si w)
    (upd : u.Idx → EReal) :
    Host.scatterAdd (F := Ideal) (φ := .f32) d x idx upd = Ideal.hostScatterAdd d x idx upd := rfl

/-- The scatter-add read at an entry: the table's entry plus the updates of the rows whose index word is the entry's row. -/
theorem scattered (x0 : (⟨S100000x32, .f32⟩ : BufTy).Contents (Elt Ideal))
    (x1 : (⟨S2x2000000, .i32⟩ : BufTy).Contents (Elt Ideal)) (n : Fin 100000) (k : Fin 32) :
    val_main_v13 (F := Ideal) x0 x1 (ix2 n k)
      = val_main_v11 (F := Ideal) (ix2 n k)
        + ∑ e : Fin 2000000, if (val_main_v12 (F := Ideal) x1 (ix2 e (0 : Fin 1))).toInt = (n.val : ℤ)
            then val_main_v10 (F := Ideal) x0 x1 (ix2 e k) else 0 := by
  unfold val_main_v13
  rw [scatterAdd_ideal]
  exact Cert.LibScatterRows.scatterAdd_rows_apply (N := 100000) (M := 2000000) (C := 32) (w := 32)
    scatter_S100000x32_S2000000x1_S2000000x32_1_0_0_1 rfl rfl rfl rfl
    (val_main_v11 (F := Ideal)) (val_main_v12 (F := Ideal) x1) (val_main_v10 (F := Ideal) x0 x1) n k

/-- The reference's result is the specification. -/
theorem ref_eq
    (x0 : (⟨Cert.ReferenceIdeal.S100000x32, .f32⟩ : BufTy).Contents (Elt Ideal))
    (x1 : (⟨Cert.ReferenceIdeal.S2x2000000, .i32⟩ : BufTy).Contents (Elt Ideal))
    (h : Cert.Spec.ColsInRange x1) :
    Cert.ReferenceIdeal.Read.val_main_v13 (F := Ideal) x0 x1 = Cert.Spec.G x0 x1 := by
  funext i
  obtain ⟨n, k, rfl⟩ : ∃ (n : Fin 100000) (k : Fin 32), i = ix2 n k := ⟨i 0, i 1, eq_ix2 i⟩
  rw [G_apply, scattered, zeros, zero_add]
  unfold agg
  refine Finset.sum_congr rfl fun e _ => ?_
  rw [rowWord, gathered x0 x1 e k (h e).1 (h e).2]
  exact if_congr (toInt_eq_iff_eq_ofNat _ n.val n.isLt) rfl rfl

end Cert.RefValue

end
-- ==== Proof.PreDecode.lean ====
/-
  The printed precondition, decoded: if it evaluates to true then every source word (row 1 of the integer input),
  read as a signed number, lies in [0, 100000).

  The precondition is the conjunction of two "for all" reductions. Only the second matters here: it reduces by "and",
  over all 2000000 edges, the bit (col e ≥ 0) ∧ (col e < 100000), where col is row 1 of the [2, 2000000] input, sliced
  out and reshaped to a [2000000] vector, and both compares are signed. A reduction by "and" that came out 1 met a 1
  at every edge; a conjunction bit that is 1 has both compare bits 1; each signed compare bit that is 1 is the
  inequality between the words read as signed integers.
-/
import proofs.«408629_j68848325755642_1_alg».proof.Pre_finite_inputs
import proofs.«408629_j68848325755642_1_alg».proof.Proof.Spec
import Idealize.ShloMosaic.Lib.ReduceAll
import Idealize.ShloMosaic.Lib.Pipeline.Value
import Idealize.ShloMosaic.Lib.ValueIdx

noncomputable section

namespace Cert.PreDecode

open Idealize.ShloMosaic Idealize.ShloMosaic.ValueIdx Cert.Pre_finite_inputs

/-- The rank-0 shape has one index. -/
instance subsingleton_S_ : Subsingleton S_.Idx := ⟨fun a b => funext fun d => d.elim0⟩

/-- Row 1 of the [2, 2000000] input, sliced out and reshaped to [2000000], read at edge `e` is the input at (1, e). -/
theorem col_read (x1 : IVec S2x2000000 32) (hs : S2x2000000.Slices ![1, 0] S1x2000000) (hc : S1x2000000.ShapeCasts S2000000)
    (e : Fin 2000000) :
    shapeCast S2000000 (extractStridedSlice S1x2000000 ![1, 0] x1 hs) hc (ix1 e) = x1 (ix2 (1 : Fin 2) e) := by
  refine (shapeCast_apply (extractStridedSlice S1x2000000 ![1, 0] x1 hs) hc (ix1 e) (ix2 (0 : Fin 1) e) ?_).trans ?_
  · rw [Shape.rowMajor_val_two, Shape.rowMajor_val_one]
    show 0 * 2000000 + e.val = e.val
    omega
  · exact extractStridedSlice_apply ![1, 0] x1 hs (ix2 (0 : Fin 1) e) (ix2 (1 : Fin 2) e) (fun a => match a with
      | ⟨0, _⟩ => by show (1 : Nat) = 1 + 0; rfl
      | ⟨1, _⟩ => by show e.val = 0 + e.val; omega)

/-- THE PRECONDITION DECODED: it evaluates to true only if every source word, read signed, lies in [0, 100000). -/
theorem cols_of_pre {F : FTy → Type} [FloatOps F] [Cert.Pre_finite_inputs.Facts]
    (x0 : FVec F S100000x32 .f32) (x1 : IVec S2x2000000 32)
    (h : Cert.Pre_finite_inputs.fn (F := F) x0 x1 = fun _ => 1#1) : Cert.Spec.ColsInRange x1 := by
  intro e
  have h0 := congrFun h ValueIdx.ix0
  dsimp only [Cert.Pre_finite_inputs.fn] at h0
  -- the final conjunction: its second half is the reduction over the edges
  have h1 := (IntOp.andi_eq_one.1 h0).2
  -- a reduction by "and" that is 1 met a 1 at every edge
  have h2 := Host.reduce_andi_all _ _ _ _ _ h1 (ix1 e)
  -- the edge's bit is the conjunction of the two compare bits
  obtain ⟨hge, hlt⟩ := IntOp.andi_eq_one.1 h2
  have hge' := IntOp.cmpi_sge.1 hge
  have hlt' := IntOp.cmpi_slt.1 hlt
  rw [col_read] at hge' hlt'
  refine ⟨?_, ?_⟩
  · have e0 : (0#32 : BitVec 32).toInt = 0 := by decide
    show 0 ≤ (x1 (ix2 (1 : Fin 2) e)).toInt
    exact e0 ▸ hge'
  · have e1 : (100000#32 : BitVec 32).toInt = 100000 := by decide
    show (x1 (ix2 (1 : Fin 2) e)).toInt < 100000
    exact e1 ▸ hlt'

end Cert.PreDecode

end
-- ==== Proof.lean ====
/-
  The certificate: the one-hot-matmul message-passing kernel (a gather of source-node features as a product with a
  one-hot matrix, tile by tile, then a scatter-add into target nodes as a second such product) against indexing plus
  a segment sum, over the extended reals, under the precondition that every float input is finite and every source
  index lies in [0, 100000).

  Both printed kernel programs run to the end with their arguments unchanged: each kernel region is a pipeline whose
  body carries an accumulator between grid points, reset at the first point of each reduction run and written out at
  its last (the proof data and the body's triples are in the modules under K/ for the word-level program and KI/ for
  the idealized one). The idealized kernel's result array is the specification `Cert.Spec.G` of the launch contents
  (KI/Final.lean); the reference's result is the same function when every source index names a node (Ref.lean), which
  the precondition says (PreDecode.lean).
-/
import proofs.«408629_j68848325755642_1_alg».proof.Defs
import proofs.«408629_j68848325755642_1_alg».proof.Proof.Gen.Kernel
import proofs.«408629_j68848325755642_1_alg».proof.Proof.Gen.KernelIdeal
import proofs.«408629_j68848325755642_1_alg».proof.Proof.Gen.ReferenceIdeal
import proofs.«408629_j68848325755642_1_alg».proof.Proof.Gen.Pre_finite_inputs
import proofs.«408629_j68848325755642_1_alg».proof.Proof.Gen.ReferenceIdeal.Run
import proofs.«408629_j68848325755642_1_alg».proof.Proof.Gen.ReferenceIdeal.Read
import proofs.«408629_j68848325755642_1_alg».proof.Proof.K.Launch
import proofs.«408629_j68848325755642_1_alg».proof.Proof.KI.Launch
import proofs.«408629_j68848325755642_1_alg».proof.Proof.KI.Final
import proofs.«408629_j68848325755642_1_alg».proof.Proof.Ref
import proofs.«408629_j68848325755642_1_alg».proof.Proof.PreDecode

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the specification of the launch contents. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨?_, ?_, ?_⟩) (Cert.KernelIdeal.Hand.run_all m ρ)
    · exact (h c _ (Cert.KernelIdeal.Hand.mem_uc Cert.KernelIdeal.main_v12 (by decide))).trans (Cert.KernelIdeal.Hand.kernel_value m c)
    · exact (h c _ (Cert.KernelIdeal.Hand.mem_uc Cert.KernelIdeal.main_arg0 (by decide))).trans (Cert.KernelIdeal.Gen.V9_main_arg0 m _ c)
    · exact (h c _ (Cert.KernelIdeal.Hand.mem_uc Cert.KernelIdeal.main_arg1 (by decide))).trans (Cert.KernelIdeal.Gen.V9_main_arg1 m _ c)
  · refine (θ_run Cert.ReferenceIdeal.defs _ _).mono (fun _ h c => ⟨?_, (h c).2⟩) (Cert.ReferenceIdeal.Value.run (F := Ideal) m' ρ')
    rw [(h c).1, Cert.ReferenceIdeal.Read.val_main_v13_eq, (hagree c).1, (hagree c).2]
    exact Cert.RefValue.ref_eq _ _ (Cert.PreDecode.cols_of_pre _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
